-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x128 : Shape := ⟨4, ![16, 128, 128, 128]⟩
abbrev S_ : Shape := ⟨0, ![]⟩

class Facts : Prop where
  bcast_S_S16x128x128x128 : S_.BroadcastsInDim S16x128x128x128 (![] : Fin 0 → Fin S16x128x128x128.rank)
  reducesTo_S16x128x128x128_S_d0_1_2_3 : S16x128x128x128.ReducesTo [0, 1, 2, 3] S_
  h_S_ : 0 < S_.numel

variable [Facts]

def fn {F : FTy → Type} [FloatOps F] (main_arg0 : FVec F S16x128x128x128 .f32) : IVec S_ 1 :=
  let main_v0 : FVec F S16x128x128x128 .f32 := Host.absf main_arg0
  let main_cst : FVec F S_ .f32 := constant S_ .f32 0x7F800000#32
  let main_v1 : FVec F S16x128x128x128 .f32 := broadcastInDim S16x128x128x128 ![] bcast_S_S16x128x128x128 main_cst
  let main_v2 : IVec S16x128x128x128 1 := cmpf .olt main_v0 main_v1
  let main_c : IVec S_ 1 := constantI S_ 1 1#1
  let main_v3 : IVec S_ 1 := (fun x v => Host.reduce IntOp.andi x v reducesTo_S16x128x128x128_S_d0_1_2_3 h_S_) main_v2 main_c
  main_v3
-- ==== Kernel.lean ====
abbrev S16x128x128x128 : Shape := ⟨4, ![16, 128, 128, 128]⟩
abbrev S16x128x16384 : Shape := ⟨3, ![16, 128, 16384]⟩
abbrev S16x128x128 : Shape := ⟨3, ![16, 128, 128]⟩
abbrev S16x128x1 : Shape := ⟨3, ![16, 128, 1]⟩
abbrev S1x128x8192 : Shape := ⟨3, ![1, 128, 8192]⟩
abbrev S1x128x128 : Shape := ⟨3, ![1, 128, 128]⟩
abbrev S1x128x1 : Shape := ⟨3, ![1, 128, 1]⟩
abbrev S128x128 : Shape := ⟨2, ![128, 128]⟩
abbrev S128x1 : Shape := ⟨2, ![128, 1]⟩
abbrev S128x8192 : Shape := ⟨2, ![128, 8192]⟩
abbrev S128 : Shape := ⟨1, ![128]⟩
abbrev S16x128 : Shape := ⟨2, ![16, 128]⟩
abbrev S_ : Shape := ⟨0, ![]⟩
abbrev S16x1x128 : Shape := ⟨3, ![16, 1, 128]⟩
abbrev S16 : Shape := ⟨1, ![16]⟩
abbrev S16x1x1 : Shape := ⟨3, ![16, 1, 1]⟩
abbrev S16x128x1x1 : Shape := ⟨4, ![16, 128, 1, 1]⟩

abbrev nBuf : Space → Nat
  | .hbm => 146
  | .vmem => 8
  | .smem => 0
  | _ => 0

abbrev hbmTy0_0 (i : Nat) : BufTy := match i % 128 with
  | 0 => ⟨S16x128x128x128, .f32⟩
  | 1 => ⟨S16x128x16384, .f32⟩
  | 2 => ⟨S16x128x128, .f32⟩
  | 3 => ⟨S16x128x1, .f32⟩
  | 4 => ⟨S16x128, .f32⟩
  | 5 => ⟨S_, .f32⟩
  | 6 => ⟨S16x128, .f32⟩
  | 7 => ⟨S16x128, .f32⟩
  | 8 => ⟨S_, .f32⟩
  | 9 => ⟨S16x128x128, .f32⟩
  | 10 => ⟨S16x128x128, .f32⟩
  | 11 => ⟨S16x128x1, .f32⟩
  | 12 => ⟨S16x1x128, .f32⟩
  | 13 => ⟨S16x128x128, .f32⟩
  | 14 => ⟨S16x128x128, .f32⟩
  | 15 => ⟨S16x128x128, .f32⟩
  | 16 => ⟨S16x128x128, .f32⟩
  | 17 => ⟨S128x128, .i32⟩
  | 18 => ⟨S128x128, .i32⟩
  | 19 => ⟨S128x128, .i1⟩
  | 20 => ⟨S16x128x128, .i1⟩
  | 21 => ⟨S_, .f32⟩
  | 22 => ⟨S16x128x128, .f32⟩
  | 23 => ⟨S16x128x128, .f32⟩
  | 24 => ⟨S_, .f32⟩
  | 25 => ⟨S16, .f32⟩
  | 26 => ⟨S16x1x1, .f32⟩
  | 27 => ⟨S16x128x128, .f32⟩
  | 28 => ⟨S16x128x128, .f32⟩
  | 29 => ⟨S128x128, .i32⟩
  | 30 => ⟨S128x128, .i32⟩
  | 31 => ⟨S_, .i32⟩
  | 32 => ⟨S128x128, .i32⟩
  | 33 => ⟨S128x128, .i32⟩
  | 34 => ⟨S128x128, .i1⟩
  | 35 => ⟨S128x128, .f32⟩
  | 36 => ⟨S16x128x128, .f32⟩
  | 37 => ⟨S16x128x128, .f32⟩
  | 38 => ⟨S_, .f32⟩
  | 39 => ⟨S128x128, .f32⟩
  | 40 => ⟨S128x128, .f32⟩
  | 41 => ⟨S1x128x128, .f32⟩
  | 42 => ⟨S16x128x128, .f32⟩
  | 43 => ⟨S16x128x128, .f32⟩
  | 44 => ⟨S_, .f32⟩
  | 45 => ⟨S16x128x128, .f32⟩
  | 46 => ⟨S16x128x128, .f32⟩
  | 47 => ⟨S16x128x128, .f32⟩
  | 48 => ⟨S_, .f32⟩
  | 49 => ⟨S16x128x128, .f32⟩
  | 50 => ⟨S16x128x128, .f32⟩
  | 51 => ⟨S16x128x128, .f32⟩
  | 52 => ⟨S16x128x128, .f32⟩
  | 53 => ⟨S_, .f32⟩
  | 54 => ⟨S128x128, .f32⟩
  | 55 => ⟨S128x128, .f32⟩
  | 56 => ⟨S1x128x128, .f32⟩
  | 57 => ⟨S16x128x128, .f32⟩
  | 58 => ⟨S16x128x128, .f32⟩
  | 59 => ⟨S_, .f32⟩
  | 60 => ⟨S16x128x128, .f32⟩
  | 61 => ⟨S16x128x128, .f32⟩
  | 62 => ⟨S16x128x128, .f32⟩
  | 63 => ⟨S_, .f32⟩
  | 64 => ⟨S16x128x128, .f32⟩
  | 65 => ⟨S16x128x128, .f32⟩
  | 66 => ⟨S16x128x128, .f32⟩
  | 67 => ⟨S16x128x128, .f32⟩
  | 68 => ⟨S_, .f32⟩
  | 69 => ⟨S128x128, .f32⟩
  | 70 => ⟨S128x128, .f32⟩
  | 71 => ⟨S1x128x128, .f32⟩
  | 72 => ⟨S16x128x128, .f32⟩
  | 73 => ⟨S16x128x128, .f32⟩
  | 74 => ⟨S_, .f32⟩
  | 75 => ⟨S16x128x128, .f32⟩
  | 76 => ⟨S16x128x128, .f32⟩
  | 77 => ⟨S16x128x128, .f32⟩
  | 78 => ⟨S_, .f32⟩
  | 79 => ⟨S16x128x128, .f32⟩
  | 80 => ⟨S16x128x128, .f32⟩
  | 81 => ⟨S16x128x128, .f32⟩
  | 82 => ⟨S16x128x128, .f32⟩
  | 83 => ⟨S_, .f32⟩
  | 84 => ⟨S128x128, .f32⟩
  | 85 => ⟨S128x128, .f32⟩
  | 86 => ⟨S1x128x128, .f32⟩
  | 87 => ⟨S16x128x128, .f32⟩
  | 88 => ⟨S16x128x128, .f32⟩
  | 89 => ⟨S_, .f32⟩
  | 90 => ⟨S16x128x128, .f32⟩
  | 91 => ⟨S16x128x128, .f32⟩
  | 92 => ⟨S16x128x128, .f32⟩
  | 93 => ⟨S_, .f32⟩
  | 94 => ⟨S16x128x128, .f32⟩
  | 95 => ⟨S16x128x128, .f32⟩
  | 96 => ⟨S16x128x128, .f32⟩
  | 97 => ⟨S16x128x128, .f32⟩
  | 98 => ⟨S_, .f32⟩
  | 99 => ⟨S128x128, .f32⟩
  | 100 => ⟨S128x128, .f32⟩
  | 101 => ⟨S1x128x128, .f32⟩
  | 102 => ⟨S16x128x128, .f32⟩
  | 103 => ⟨S16x128x128, .f32⟩
  | 104 => ⟨S_, .f32⟩
  | 105 => ⟨S16x128x128, .f32⟩
  | 106 => ⟨S16x128x128, .f32⟩
  | 107 => ⟨S16x128x128, .f32⟩
  | 108 => ⟨S_, .f32⟩
  | 109 => ⟨S16x128x128, .f32⟩
  | 110 => ⟨S16x128x128, .f32⟩
  | 111 => ⟨S16x128x128, .f32⟩
  | 112 => ⟨S16x128x128, .f32⟩
  | 113 => ⟨S_, .f32⟩
  | 114 => ⟨S128x128, .f32⟩
  | 115 => ⟨S128x128, .f32⟩
  | 116 => ⟨S1x128x128, .f32⟩
  | 117 => ⟨S16x128x128, .f32⟩
  | 118 => ⟨S16x128x128, .f32⟩
  | 119 => ⟨S_, .f32⟩
  | 120 => ⟨S16x128x128, .f32⟩
  | 121 => ⟨S16x128x128, .f32⟩
  | 122 => ⟨S16x128x128, .f32⟩
  | 123 => ⟨S_, .f32⟩
  | 124 => ⟨S16x128x128, .f32⟩
  | 125 => ⟨S16x128x128, .f32⟩
  | 126 => ⟨S16x128x128, .f32⟩
  | 127 => ⟨S128x128, .i32⟩
  | _ => ⟨S16x128x128x128, .f32⟩

abbrev hbmTy0_1 (i : Nat) : BufTy := match i % 128 with
  | 0 => ⟨S128x128, .i32⟩
  | 1 => ⟨S128x128, .i1⟩
  | 2 => ⟨S16x128x128, .i1⟩
  | 3 => ⟨S_, .f32⟩
  | 4 => ⟨S16x128x128, .f32⟩
  | 5 => ⟨S16x128x128, .f32⟩
  | 6 => ⟨S_, .f32⟩
  | 7 => ⟨S16, .f32⟩
  | 8 => ⟨S16, .f32⟩
  | 9 => ⟨S16x1x1, .f32⟩
  | 10 => ⟨S16x128x128, .f32⟩
  | 11 => ⟨S16x128x128, .f32⟩
  | 12 => ⟨S_, .f32⟩
  | 13 => ⟨S16x128, .f32⟩
  | 14 => ⟨S_, .f32⟩
  | 15 => ⟨S16x128, .f32⟩
  | 16 => ⟨S16x128, .f32⟩
  | 17 => ⟨S16x128x1x1, .f32⟩
  | _ => ⟨S16x128x128x128, .f32⟩

abbrev hbmTy (i : Nat) : BufTy := match i / 128 with
  | 0 => hbmTy0_0 i
  | 1 => hbmTy0_1 i
  | _ => ⟨S16x128x128x128, .f32⟩

abbrev bufTy : (tb : Table) → Fin (tcTables nBuf tb) → BufTy
  | .hbm, ⟨i, _⟩ => hbmTy i
  | .local _ .vmem, ⟨0, _⟩ => ⟨S1x128x8192, .f32⟩
  | .local _ .vmem, ⟨1, _⟩ => ⟨S1x128x8192, .f32⟩
  | .local _ .vmem, ⟨2, _⟩ => ⟨S1x128x128, .f32⟩
  | .local _ .vmem, ⟨3, _⟩ => ⟨S1x128x128, .f32⟩
  | .local _ .vmem, ⟨4, _⟩ => ⟨S1x128x1, .f32⟩
  | .local _ .vmem, ⟨5, _⟩ => ⟨S1x128x1, .f32⟩
  | .local _ .vmem, ⟨6, _⟩ => ⟨S128x128, .f32⟩
  | .local _ .vmem, ⟨7, _⟩ => ⟨S128x1, .f32⟩
  | _, _ => ⟨S16x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_9 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_10 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_11 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_12 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_13 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_14 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_15 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_16 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_17 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_18 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_19 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_20 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_21 : Ref sig .tc := ⟨.hbm, 131, rfl⟩
abbrev main_v106 : Ref sig .tc := ⟨.hbm, 132, rfl⟩
abbrev main_v107 : Ref sig .tc := ⟨.hbm, 133, rfl⟩
abbrev main_cst_22 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_cst_23 : Ref sig .tc := ⟨.hbm, 140, rfl⟩
abbrev main_v113 : Ref sig .tc := ⟨.hbm, 141, rfl⟩
abbrev main_cst_24 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_12 : BitVec 32 := 0#32
  let v21 : BitVec 1 := Scalar.cmpi .ne v20 c0_i32_12
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x128x128x128_S16x128x16384 : S16x128x128x128.ShapeCasts S16x128x16384
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x128x8192_S1x128x8192_0_0_0 : ∀ a, (![0, 0, 0] : Fin 3 → Nat) a + S1x128x8192.size a ≤ S1x128x8192.size a
  h_S1x128x8192 : 0 < S1x128x8192.numel
  shapeCasts_S1x128x8192_S128x8192 : S1x128x8192.ShapeCasts S128x8192
  bitsLt_bf16_f32 : FTy.bits .bf16 < FTy.bits .f32
  reduces_S128x8192_S128 : S128x8192.Reduces [1] S128
  shapeCasts_S128_S128x1 : S128.ShapeCasts S128x1
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  shapeCasts_S16x128x1_S16x128 : S16x128x1.ShapeCasts S16x128
  bcast_S_S16x128 : S_.BroadcastsInDim S16x128 (![] : Fin 0 → Fin S16x128.rank)
  bcast_S_S16x128x128 : S_.BroadcastsInDim S16x128x128 (![] : Fin 0 → Fin S16x128x128.rank)
  bcast_S16x128_S16x128x1_0_1 : S16x128.BroadcastsInDim S16x128x1 (![0, 1] : Fin 2 → Fin S16x128x1.rank)
  bcast_S16x128_S16x1x128_0_2 : S16x128.BroadcastsInDim S16x1x128 (![0, 2] : Fin 2 → Fin S16x1x128.rank)
  bcast_S16x128x1_S16x128x128_0_1_2 : S16x128x1.BroadcastsInDim S16x128x128 (![0, 1, 2] : Fin 3 → Fin S16x128x128.rank)
  bcast_S16x1x128_S16x128x128_0_1_2 : S16x1x128.BroadcastsInDim S16x128x128 (![0, 1, 2] : Fin 3 → Fin S16x128x128.rank)
  bcast_S128x128_S16x128x128_1_2 : S128x128.BroadcastsInDim S16x128x128 (![1, 2] : Fin 2 → Fin S16x128x128.rank)
  reducesTo_S16x128x128_S16_d1_2 : S16x128x128.ReducesTo [1, 2] S16
  h_S_ : 0 < S_.numel
  bcast_S16_S16x1x1_0 : S16.BroadcastsInDim S16x1x1 (![0] : Fin 1 → Fin S16x1x1.rank)
  bcast_S16x1x1_S16x128x128_0_1_2 : S16x1x1.BroadcastsInDim S16x128x128 (![0, 1, 2] : Fin 3 → Fin S16x128x128.rank)
  bcast_S_S128x128 : S_.BroadcastsInDim S128x128 (![] : Fin 0 → Fin S128x128.rank)
  bcast_S128x128_S1x128x128_1_2 : S128x128.BroadcastsInDim S1x128x128 (![1, 2] : Fin 2 → Fin S1x128x128.rank)
  bcast_S1x128x128_S16x128x128_0_1_2 : S1x128x128.BroadcastsInDim S16x128x128 (![0, 1, 2] : Fin 3 → Fin S16x128x128.rank)
  reducesTo_S16x128x128_S16x128_d1 : S16x128x128.ReducesTo [1] S16x128
  shapeCasts_S16x128_S16x128x1x1 : S16x128.ShapeCasts S16x128x1x1
  dot_S128x8192_S128x8192_S128x128_1_1_0_0_n_n_wf : DotDims.WF S128x8192 S128x8192 S128x128 [1] [1] [0] [0] [] []
  dot_S16x128x128_S16x128x128_S16x128x128_2_1_1_2_0_0_wf : DotDims.WF S16x128x128 S16x128x128 S16x128x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x8192.size a ≤ S16x128x16384.size a
  hwx0_0 : ∀ i : grid0.Coords, EltTy.bits .f32 = 32 ∨ (Rect.block (s := S16x128x16384) S1x128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S16x128x128.size a
  hwx0_1 : ∀ i : grid0.Coords, EltTy.bits .f32 = 32 ∨ (Rect.block (s := S16x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S16x128x1.size a
  hwx0_2 : ∀ i : grid0.Coords, EltTy.bits .f32 = 32 ∨ (Rect.block (s := S16x128x1) S1x128x1.size (cc0_transform_2 i) (hinb0_2 i)).WholeWords (EltTy.packing .f32)

variable [Facts₀]

def dot_S128x8192_S128x8192_S128x128_1_1_0_0_n_n : DotDims S128x8192 S128x8192 S128x128 where
  lhsContracting := [1]
  rhsContracting := [1]
  lhsNonContracting := [0]
  rhsNonContracting := [0]
  lhsBatch := []
  rhsBatch := []
  wf := dot_S128x8192_S128x8192_S128x128_1_1_0_0_n_n_wf
def dot_S16x128x128_S16x128x128_S16x128x128_2_1_1_2_0_0 : DotDims S16x128x128 S16x128x128 S16x128x128 where
  lhsContracting := [2]
  rhsContracting := [1]
  lhsNonContracting := [1]
  rhsNonContracting := [2]
  lhsBatch := [0]
  rhsBatch := [0]
  wf := dot_S16x128x128_S16x128x128_S16x128x128_2_1_1_2_0_0_wf

abbrev win0_0 : Pipeline.Window sig grid0 :=
  Pipeline.Window.ofSpec (Memref.whole main_v0) S1x128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x128x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x128x128x128 : Shape := ⟨4, ![16, 128, 128, 128]⟩
abbrev S16x16384x128 : Shape := ⟨3, ![16, 16384, 128]⟩
abbrev S_ : Shape := ⟨0, ![]⟩
abbrev S16x128 : Shape := ⟨2, ![16, 128]⟩
abbrev S16x1x128 : Shape := ⟨3, ![16, 1, 128]⟩
abbrev S16x128x128 : Shape := ⟨3, ![16, 128, 128]⟩
abbrev S128x128 : Shape := ⟨2, ![128, 128]⟩
abbrev S16 : Shape := ⟨1, ![16]⟩
abbrev S16x1x1 : Shape := ⟨3, ![16, 1, 1]⟩
abbrev S1x128x128 : Shape := ⟨3, ![1, 128, 128]⟩
abbrev S16x128x1x1 : Shape := ⟨4, ![16, 128, 1, 1]⟩

abbrev nBuf : Space → Nat
  | .hbm => 144
  | .vmem => 0
  | .smem => 0
  | _ => 0

abbrev hbmTy0_0 (i : Nat) : BufTy := match i % 128 with
  | 0 => ⟨S16x128x128x128, .f32⟩
  | 1 => ⟨S16x128x128x128, .f32⟩
  | 2 => ⟨S16x16384x128, .f32⟩
  | 3 => ⟨S_, .f32⟩
  | 4 => ⟨S16x128, .f32⟩
  | 5 => ⟨S16x1x128, .f32⟩
  | 6 => ⟨S_, .f32⟩
  | 7 => ⟨S16x1x128, .f32⟩
  | 8 => ⟨S16x1x128, .f32⟩
  | 9 => ⟨S16x16384x128, .f32⟩
  | 10 => ⟨S16x16384x128, .f32⟩
  | 11 => ⟨S16x128x128, .f32⟩
  | 12 => ⟨S_, .f32⟩
  | 13 => ⟨S16x128x128, .f32⟩
  | 14 => ⟨S16x128x128, .f32⟩
  | 15 => ⟨S128x128, .i32⟩
  | 16 => ⟨S128x128, .i32⟩
  | 17 => ⟨S128x128, .i1⟩
  | 18 => ⟨S16x128x128, .i1⟩
  | 19 => ⟨S_, .f32⟩
  | 20 => ⟨S16x128x128, .f32⟩
  | 21 => ⟨S16x128x128, .f32⟩
  | 22 => ⟨S_, .f32⟩
  | 23 => ⟨S16, .f32⟩
  | 24 => ⟨S16x1x1, .f32⟩
  | 25 => ⟨S16x128x128, .f32⟩
  | 26 => ⟨S16x128x128, .f32⟩
  | 27 => ⟨S128x128, .i32⟩
  | 28 => ⟨S128x128, .i32⟩
  | 29 => ⟨S_, .i32⟩
  | 30 => ⟨S128x128, .i32⟩
  | 31 => ⟨S128x128, .i32⟩
  | 32 => ⟨S128x128, .i1⟩
  | 33 => ⟨S128x128, .f32⟩
  | 34 => ⟨S16x128x128, .f32⟩
  | 35 => ⟨S16x128x128, .f32⟩
  | 36 => ⟨S_, .f32⟩
  | 37 => ⟨S128x128, .f32⟩
  | 38 => ⟨S128x128, .f32⟩
  | 39 => ⟨S1x128x128, .f32⟩
  | 40 => ⟨S16x128x128, .f32⟩
  | 41 => ⟨S16x128x128, .f32⟩
  | 42 => ⟨S_, .f32⟩
  | 43 => ⟨S16x128x128, .f32⟩
  | 44 => ⟨S16x128x128, .f32⟩
  | 45 => ⟨S16x128x128, .f32⟩
  | 46 => ⟨S_, .f32⟩
  | 47 => ⟨S16x128x128, .f32⟩
  | 48 => ⟨S16x128x128, .f32⟩
  | 49 => ⟨S16x128x128, .f32⟩
  | 50 => ⟨S16x128x128, .f32⟩
  | 51 => ⟨S_, .f32⟩
  | 52 => ⟨S128x128, .f32⟩
  | 53 => ⟨S128x128, .f32⟩
  | 54 => ⟨S1x128x128, .f32⟩
  | 55 => ⟨S16x128x128, .f32⟩
  | 56 => ⟨S16x128x128, .f32⟩
  | 57 => ⟨S_, .f32⟩
  | 58 => ⟨S16x128x128, .f32⟩
  | 59 => ⟨S16x128x128, .f32⟩
  | 60 => ⟨S16x128x128, .f32⟩
  | 61 => ⟨S_, .f32⟩
  | 62 => ⟨S16x128x128, .f32⟩
  | 63 => ⟨S16x128x128, .f32⟩
  | 64 => ⟨S16x128x128, .f32⟩
  | 65 => ⟨S16x128x128, .f32⟩
  | 66 => ⟨S_, .f32⟩
  | 67 => ⟨S128x128, .f32⟩
  | 68 => ⟨S128x128, .f32⟩
  | 69 => ⟨S1x128x128, .f32⟩
  | 70 => ⟨S16x128x128, .f32⟩
  | 71 => ⟨S16x128x128, .f32⟩
  | 72 => ⟨S_, .f32⟩
  | 73 => ⟨S16x128x128, .f32⟩
  | 74 => ⟨S16x128x128, .f32⟩
  | 75 => ⟨S16x128x128, .f32⟩
  | 76 => ⟨S_, .f32⟩
  | 77 => ⟨S16x128x128, .f32⟩
  | 78 => ⟨S16x128x128, .f32⟩
  | 79 => ⟨S16x128x128, .f32⟩
  | 80 => ⟨S16x128x128, .f32⟩
  | 81 => ⟨S_, .f32⟩
  | 82 => ⟨S128x128, .f32⟩
  | 83 => ⟨S128x128, .f32⟩
  | 84 => ⟨S1x128x128, .f32⟩
  | 85 => ⟨S16x128x128, .f32⟩
  | 86 => ⟨S16x128x128, .f32⟩
  | 87 => ⟨S_, .f32⟩
  | 88 => ⟨S16x128x128, .f32⟩
  | 89 => ⟨S16x128x128, .f32⟩
  | 90 => ⟨S16x128x128, .f32⟩
  | 91 => ⟨S_, .f32⟩
  | 92 => ⟨S16x128x128, .f32⟩
  | 93 => ⟨S16x128x128, .f32⟩
  | 94 => ⟨S16x128x128, .f32⟩
  | 95 => ⟨S16x128x128, .f32⟩
  | 96 => ⟨S_, .f32⟩
  | 97 => ⟨S128x128, .f32⟩
  | 98 => ⟨S128x128, .f32⟩
  | 99 => ⟨S1x128x128, .f32⟩
  | 100 => ⟨S16x128x128, .f32⟩
  | 101 => ⟨S16x128x128, .f32⟩
  | 102 => ⟨S_, .f32⟩
  | 103 => ⟨S16x128x128, .f32⟩
  | 104 => ⟨S16x128x128, .f32⟩
  | 105 => ⟨S16x128x128, .f32⟩
  | 106 => ⟨S_, .f32⟩
  | 107 => ⟨S16x128x128, .f32⟩
  | 108 => ⟨S16x128x128, .f32⟩
  | 109 => ⟨S16x128x128, .f32⟩
  | 110 => ⟨S16x128x128, .f32⟩
  | 111 => ⟨S_, .f32⟩
  | 112 => ⟨S128x128, .f32⟩
  | 113 => ⟨S128x128, .f32⟩
  | 114 => ⟨S1x128x128, .f32⟩
  | 115 => ⟨S16x128x128, .f32⟩
  | 116 => ⟨S16x128x128, .f32⟩
  | 117 => ⟨S_, .f32⟩
  | 118 => ⟨S16x128x128, .f32⟩
  | 119 => ⟨S16x128x128, .f32⟩
  | 120 => ⟨S16x128x128, .f32⟩
  | 121 => ⟨S_, .f32⟩
  | 122 => ⟨S16x128x128, .f32⟩
  | 123 => ⟨S16x128x128, .f32⟩
  | 124 => ⟨S16x128x128, .f32⟩
  | 125 => ⟨S128x128, .i32⟩
  | 126 => ⟨S128x128, .i32⟩
  | 127 => ⟨S128x128, .i1⟩
  | _ => ⟨S16x128x128x128, .f32⟩

abbrev hbmTy0_1 (i : Nat) : BufTy := match i % 128 with
  | 0 => ⟨S16x128x128, .i1⟩
  | 1 => ⟨S_, .f32⟩
  | 2 => ⟨S16x128x128, .f32⟩
  | 3 => ⟨S16x128x128, .f32⟩
  | 4 => ⟨S_, .f32⟩
  | 5 => ⟨S16, .f32⟩
  | 6 => ⟨S16, .f32⟩
  | 7 => ⟨S16x1x1, .f32⟩
  | 8 => ⟨S16x128x128, .f32⟩
  | 9 => ⟨S16x128x128, .f32⟩
  | 10 => ⟨S_, .f32⟩
  | 11 => ⟨S16x128, .f32⟩
  | 12 => ⟨S_, .f32⟩
  | 13 => ⟨S16x128, .f32⟩
  | 14 => ⟨S16x128, .f32⟩
  | 15 => ⟨S16x128x1x1, .f32⟩
  | _ => ⟨S16x128x128x128, .f32⟩

abbrev hbmTy (i : Nat) : BufTy := match i / 128 with
  | 0 => hbmTy0_0 i
  | 1 => hbmTy0_1 i
  | _ => ⟨S16x128x128x128, .f32⟩

abbrev bufTy : (tb : Table) → Fin (tcTables nBuf tb) → BufTy
  | .hbm, ⟨i, _⟩ => hbmTy i
  | _, _ => ⟨S16x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_6 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_7 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_8 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_9 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_10 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_11 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_12 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_13 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_14 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_15 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_16 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_17 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_18 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_19 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_20 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_21 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_22 : Ref sig .tc := ⟨.hbm, 129, rfl⟩
abbrev main_v104 : Ref sig .tc := ⟨.hbm, 130, rfl⟩
abbrev main_v105 : Ref sig .tc := ⟨.hbm, 131, rfl⟩
abbrev main_cst_23 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_cst_24 : Ref sig .tc := ⟨.hbm, 138, rfl⟩
abbrev main_v111 : Ref sig .tc := ⟨.hbm, 139, rfl⟩
abbrev main_cst_25 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩

abbrev nD : Nat := 1
abbrev τ : Topo := Topo.v7x

variable {F : FTy → Type} [FloatOps F]

class Facts₀ : Prop where
  transposes_S16x128x128x128_S16x128x128x128_0_2_3_1 : S16x128x128x128.Transposes [0, 2, 3, 1] S16x128x128x128
  shapeCasts_S16x128x128x128_S16x16384x128 : S16x128x128x128.ShapeCasts S16x16384x128
  reducesTo_S16x16384x128_S16x128_d1 : S16x16384x128.ReducesTo [1] S16x128
  h_S_ : 0 < S_.numel
  bcast_S16x128_S16x1x128_0_2 : S16x128.BroadcastsInDim S16x1x128 (![0, 2] : Fin 2 → Fin S16x1x128.rank)
  bcast_S_S16x1x128 : S_.BroadcastsInDim S16x1x128 (![] : Fin 0 → Fin S16x1x128.rank)
  bcast_S16x1x128_S16x16384x128_0_1_2 : S16x1x128.BroadcastsInDim S16x16384x128 (![0, 1, 2] : Fin 3 → Fin S16x16384x128.rank)
  bcast_S_S16x128x128 : S_.BroadcastsInDim S16x128x128 (![] : Fin 0 → Fin S16x128x128.rank)
  bcast_S128x128_S16x128x128_1_2 : S128x128.BroadcastsInDim S16x128x128 (![1, 2] : Fin 2 → Fin S16x128x128.rank)
  reducesTo_S16x128x128_S16_d1_2 : S16x128x128.ReducesTo [1, 2] S16
  bcast_S16_S16x1x1_0 : S16.BroadcastsInDim S16x1x1 (![0] : Fin 1 → Fin S16x1x1.rank)
  bcast_S16x1x1_S16x128x128_0_1_2 : S16x1x1.BroadcastsInDim S16x128x128 (![0, 1, 2] : Fin 3 → Fin S16x128x128.rank)
  bcast_S_S128x128 : S_.BroadcastsInDim S128x128 (![] : Fin 0 → Fin S128x128.rank)
  bcast_S128x128_S1x128x128_1_2 : S128x128.BroadcastsInDim S1x128x128 (![1, 2] : Fin 2 → Fin S1x128x128.rank)
  bcast_S1x128x128_S16x128x128_0_1_2 : S1x128x128.BroadcastsInDim S16x128x128 (![0, 1, 2] : Fin 3 → Fin S16x128x128.rank)
  reducesTo_S16x128x128_S16x128_d1 : S16x128x128.ReducesTo [1] S16x128
  bcast_S_S16x128 : S_.BroadcastsInDim S16x128 (![] : Fin 0 → Fin S16x128.rank)
  shapeCasts_S16x128_S16x128x1x1 : S16x128.ShapeCasts S16x128x1x1
  dot_S16x16384x128_S16x16384x128_S16x128x128_1_1_2_2_0_0_wf : DotDims.WF S16x16384x128 S16x16384x128 S16x128x128 [1] [1] [2] [2] [0] [0]
  dot_S16x128x128_S16x128x128_S16x128x128_2_1_1_2_0_0_wf : DotDims.WF S16x128x128 S16x128x128 S16x128x128 [2] [1] [1] [2] [0] [0]

variable [Facts₀]

def dot_S16x16384x128_S16x16384x128_S16x128x128_1_1_2_2_0_0 : DotDims S16x16384x128 S16x16384x128 S16x128x128 where
  lhsContracting := [1]
  rhsContracting := [1]
  lhsNonContracting := [2]
  rhsNonContracting := [2]
  lhsBatch := [0]
  rhsBatch := [0]
  wf := dot_S16x16384x128_S16x16384x128_S16x128x128_1_1_2_2_0_0_wf
def dot_S16x128x128_S16x128x128_S16x128x128_2_1_1_2_0_0 : DotDims S16x128x128 S16x128x128 S16x128x128 where
  lhsContracting := [2]
  rhsContracting := [1]
  lhsNonContracting := [1]
  rhsNonContracting := [2]
  lhsBatch := [0]
  rhsBatch := [0]
  wf := dot_S16x128x128_S16x128x128_S16x128x128_2_1_1_2_0_0_wf

class Facts : Prop extends Facts₀ where

variable [Facts]
-- ==== Proof.K.Host.lean ====
/-
  The host program of the kernel side, around its one region.

  The program is: one reshape of the input `[16,128,128,128]` to rows `[16,128,16384]`, the region (one pipeline
  whose three arrays are the reshaped input and the two results), then 142 host operations that form the covariance
  and run the tail. This module states what the launch needs of the operations around the region: they allocate
  nothing, they touch only unscoped buffers of the core, the later ones write none of the pipeline's arrays nor the
  program's input, and what the region finds in the input buffer and in the reshaped buffer when it is entered.
  Every operation writes its own result buffer only, and the result buffers are pairwise distinct references, so
  each such fact is one comparison of references per operation.
-/
import proofs.«150883_j91319594647822_1_alg».proof.Proof.Gen.Kernel.Launch
import proofs.«150883_j91319594647822_1_alg».proof.Proof.Gen.Kernel.Skeleton
import proofs.«150883_j91319594647822_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the region -/

/-- The contents of core `c`'s buffers when the region is entered: the memory after the one host operation that
    precedes it (the reshape of the input to rows of 16384 pixels). -/
abbrev V0 (c : Dev nD) : Valuation τ sig (Elt F) :=
  StableHlo.after (List.flatten [(hostOps0 : List (HloOp τ sig (Elt F)))]) (fun b => m (c, b))

/-- The same, read at a reference of the core. -/
abbrev V (c : Dev nD) (b : Ref sig .tc) : Buf (Elt F) ((c : Thread nD τ).loc b) := V0 m c (Proc.devRef .tc b)

/-- The host operations after the region, as one stretch. -/
abbrev tailOpss : List (List (HloOp τ sig (Elt F))) := [hostOps1]

/-- The one operation before the region allocates nothing. -/
theorem hostOps0_fresh : (hostOps0 : List (HloOp τ sig (Elt F))).Forall fun op => op.fresh = ∅ := by
  simp only [List.Forall]; repeat' constructor

set_option maxHeartbeats 40000000 in
/-- No operation after the region allocates a buffer. -/
theorem hostOps1_fresh : (hostOps1 : List (HloOp τ sig (Elt F))).Forall fun op => op.fresh = ∅ := by
  simp only [List.Forall]; repeat' constructor

set_option maxHeartbeats 40000000 in
/-- No operation after the region writes an array of the pipeline: each writes its own result buffer only, and
    that buffer is none of the three arrays (the reshaped input and the two results of the region). -/
theorem hostOps1_keeps : (hostOps1 : List (HloOp τ sig (Elt F))).Forall fun op =>
    ∀ w, Proc.devRef .tc (Pipeline.arrRef spec0 w) ∉ op.writes := by
  simp only [List.Forall]
  repeat' constructor
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

set_option maxHeartbeats 40000000 in
/-- No operation after the region writes the program's input buffer: its result buffer is another reference. -/
theorem hostOps1_keeps_arg0 : (hostOps1 : List (HloOp τ sig (Elt F))).Forall fun op =>
    Proc.devRef .tc main_arg0 ∉ op.writes := by
  simp only [List.Forall]
  repeat' constructor
  all_goals simp only [StableHlo.nullary_writes, StableHlo.unary_writes, StableHlo.binary_writes, StableHlo.ternary_writes, StableHlo.reshape_writes, Finset.mem_singleton] <;> exact StableHlo.devRef_ne_of_ne (by decide)

set_option maxRecDepth 1000000 in
set_option maxHeartbeats 40000000 in
/-- The host program is: the operation before the region, the region, the operations after it; so it reduces to
    the region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss : List (List (HloOp τ sig (Elt F)))).map StableHlo.seq)) :=
  Pipeline.hmain_around cfgs 0 defs₀ 𝒱₀ m main [hostOps0] tailOpss (by simp only [List.Forall]; exact hostOps0_sub)
    (by simp only [List.Forall]; exact hostOps0_fresh) main_chain

/-- The operations after the region touch only the pipeline's arrays and buffers that bypass the region. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ (tailOpss : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- They write no array of the pipeline. -/
theorem sfx_keeps : ∀ ops ∈ (tailOpss : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-! ## What the region finds -/

/-- The reshape before the region leaves the program's input buffer as it was. -/
theorem V_main_arg0 (c : Dev nD) : V m c main_arg0 = m ((c : Thread nD τ).loc main_arg0) := rfl

/-- The reshape before the region fills the first array of the pipeline with the input's elements read as
    `[16, 128, 16384]`: row `(b, c)` holds channel `c` of batch `b`, pixel `(h, w)` at position `128·h + w`. -/
theorem V_main_v0 (c : Dev nD) : V m c main_v0
    = shapeCast S16x128x16384 (m ((c : Thread nD τ).loc main_arg0)) shapeCasts_S16x128x128x128_S16x128x16384 := by
  show StableHlo.after hostOps0 (fun b => m (c, b)) (Proc.devRef .tc main_v0) = _
  after_results
  rfl

/-! ## The frame claim's post from the frame run's -/

/-- The program's input buffer is no array of the pipeline (the region stages the reshaped copy), so it is one of
    the buffers that bypass the region: after the region it holds what it held at the region's entry, no later
    operation writes it, and the reshape before the region had left it as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ)
      (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 (by decide) (by decide))).trans (by
      unfold Pipeline.afterTail₀
      simp only [List.flatten_cons, List.flatten_nil, List.append_nil]
      rw [StableHlo.after_of_forall_not_mem _ _ (List.forall_iff_forall_mem.mp hostOps1_keeps_arg0),
        Pipeline.withArrays_of_ne _ _ _ _ main_arg0 (by decide)]
      exact V_main_arg0 m c)) h

end Cert.Kernel.Hand

end
-- ==== Proof.K.Runs.lean ====
/-
  The frame of the kernel program, first part: what the two cases of the kernel body share, and the body's run in
  each case.

  The region is one pipeline over the grid (16, 2): point t = (b, j), t = 2·b + j. Window 0 (the input, as rows of
  16384 pixels) is fetched at every point: at t it is all 128 channels of batch b, pixels j·8192 … j·8192 + 8191.
  Windows 1 and 2 (the two results: the 128 × 128 sums of products and the 128 row sums of batch b) are stored by
  the body only when j = 1 and are written back exactly there. The body carries two scratch accumulators between
  points: at j = 0 it zeroes them and then adds the block's contribution; at j = 1 it adds the block's
  contribution and then stores both into the result windows. Hence two cases over the 32 points: A (t even: the
  first conditional taken, the second not) and B (t odd: the first not taken, the second taken).
-/
import proofs.«150883_j91319594647822_1_alg».proof.Proof.K.Host
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t, read off its array as the region finds it. For window 0 at t = (b, j) this is
    the half row block: all 128 channels of batch b, pixels j·8192 … j·8192 + 8191. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is
    the region-entry contents and whose body leaves the block in place: the window is fetched at every point,
    is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first conditional's condition from the grid coordinates: j = 0. -/
abbrev cond0_0 (i : grid0.Coords) : Prop := (Scalar.cmpi .ne (Scalar.extui (Scalar.cmpi .eq (BitVec.ofNat 32 (i 1).val) 0#32)) 0#32) = 1#1
/-- It holds exactly at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional's condition from the grid coordinates: j = 1. -/
abbrev cond0_1 (i : grid0.Coords) : Prop := k0_cond2 i = 1#1
/-- It holds exactly at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

/-- The input window is never idle. -/
theorem liveAt0_0 : ∀ t : Fin cfg0.N, cfg0.idle 0 (grid0.coords t) = false := by decide +kernel
/-- At the even points the two result windows are idle (the body stores nothing into them) -/
theorem idleAt0_1_A : ∀ t : Fin cfg0.N, cond0_0 (grid0.coords t) → ¬cond0_1 (grid0.coords t) → cfg0.idle 1 (grid0.coords t) = true := by decide +kernel
theorem idleAt0_2_A : ∀ t : Fin cfg0.N, cond0_0 (grid0.coords t) → ¬cond0_1 (grid0.coords t) → cfg0.idle 2 (grid0.coords t) = true := by decide +kernel
/-- and are not written back there. -/
theorem noFlush0_1_A : ∀ t : Fin cfg0.N, cond0_0 (grid0.coords t) → ¬cond0_1 (grid0.coords t) → (cfg0.win 1).flush t = false := by decide +kernel
theorem noFlush0_2_A : ∀ t : Fin cfg0.N, cond0_0 (grid0.coords t) → ¬cond0_1 (grid0.coords t) → (cfg0.win 2).flush t = false := by decide +kernel
/-- At the odd points the two result windows are live: the body stores into them. -/
theorem liveAt0_1_B : ∀ t : Fin cfg0.N, ¬cond0_0 (grid0.coords t) → cond0_1 (grid0.coords t) → cfg0.idle 1 (grid0.coords t) = false := by decide +kernel
theorem liveAt0_2_B : ∀ t : Fin cfg0.N, ¬cond0_0 (grid0.coords t) → cond0_1 (grid0.coords t) → cfg0.idle 2 (grid0.coords t) = false := by decide +kernel

/-! ## The memrefs the body is called with -/

/-- One staging buffer of each result window, through which its contents are stated (the choice does not matter). -/
abbrev VO0_1 : View sig .tc .vmem S1x128x128 .f32 := (Memref.whole cc0_stg1_0 : Memref sig .tc .vmem S1x128x128 .f32).view
abbrev VO0_2 : View sig .tc .vmem S1x128x1 .f32 := (Memref.whole cc0_stg2_0 : Memref sig .tc .vmem S1x128x1 .f32).view
/-- Each window's current staging memref at point t, and its wholeness. -/
abbrev ms0_0 (t : Fin cfg0.N) : Memref sig .tc .vmem S1x128x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x1 .f32 := win0_2.stage (cfg0.slots t 2)
abbrev hs0_2 (t : Fin cfg0.N) : (ms0_2 t).IsWhole := hstage0_2 ((cfg0.slots t 2).cast nbuf0_2)
/-- The two scratch accumulators: whole scoped buffers of the kernel's own, passed beside the windows. The first
    holds the 128 × 128 sums of products, the second the 128 row sums. -/
abbrev scM0_0 : Memref sig .tc .vmem S128x128 .f32 := Memref.whole cc0_scratch0
abbrev scM0_1 : Memref sig .tc .vmem S128x1 .f32 := Memref.whole cc0_scratch1
/-- The same as views: what each holds is stated through its view. -/
abbrev VS0_0 : View sig .tc .vmem S128x128 .f32 := scM0_0.view
abbrev VS0_1 : View sig .tc .vmem S128x1 .f32 := scM0_1.view

/-- The region invariant of the class with the two scratch operands as memrefs owned at some contents: what
    the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The body's run, case by case -/

set_option maxHeartbeats 4000000 in
/-- CASE A (j = 0: the first conditional taken, the second not). On whole memrefs — the input's at its block x0,
    the two result windows' at contents handed back untouched (the body stores nothing into them), the two
    scratch accumulators at anything — the body runs to the continuation holding the input's as it was, the
    results' as they were, and each scratch with the pieces written into it (first the zeros, then the sum): the
    piece lists are found by the run. -/
noncomputable def kernelRun0_A (c : Dev nD) (i : grid0.Coords)
    (arg2 : Memref sig .tc .vmem S1x128x8192 .f32) (harg2 : arg2.IsWhole)
    (arg3 : Memref sig .tc .vmem S1x128x128 .f32) (harg3 : arg3.IsWhole)
    (arg4 : Memref sig .tc .vmem S1x128x1 .f32) (harg4 : arg4.IsWhole)
    (arg5 : Memref sig .tc .vmem S128x128 .f32) (harg5 : arg5.IsWhole)
    (arg6 : Memref sig .tc .vmem S128x1 .f32) (harg6 : arg6.IsWhole)
    (hc0 : cond0_0 i) (hc1 : ¬cond0_1 i)
    (x0 : Vec F S1x128x8192 .f32) :
    Σ' (L1 : List (View.Piece (Elt F) S1x128x128 .f32)) (L2 : List (View.Piece (Elt F) S1x128x1 .f32))
       (LS0 : List (View.Piece (Elt F) S128x128 .f32)), { LS1 : List (View.Piece (Elt F) S128x1 .f32) //
      ∀ (xi1 : Vec F S1x128x128 .f32) (xi2 : Vec F S1x128x1 .f32) (E : Set ℕ) (K : PUnit → sProp 𝕄),
        iprop(owns (c : Thread nD τ) arg2 fullShare x0 ∗ owns (c : Thread nD τ) arg3 fullShare xi1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare xi1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__cov_kernel i arg2 harg2 arg3 harg3 arg4 harg4 arg5 harg5 arg6 harg6) K } := by
  refine ⟨[], [], ?_, ?_, fun xi1 xi2 E K => ?run⟩
  case run =>
    simp only [cc0__cov_kernel_eq_skeleton]; unfold cc0__cov_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 4000000 in
/-- CASE B (j = 1: the first conditional not taken, the second taken). On whole memrefs — the input's at its block
    x0, the two result windows' at anything, the two scratch accumulators at what the point before left in them
    (xs0, xs1) — the body runs to the continuation holding the input's as it was, and each result window and each
    scratch with the pieces written into it: the scratches receive their contents plus the block's contribution,
    the result windows receive the scratches read back. -/
noncomputable def kernelRun0_B (c : Dev nD) (i : grid0.Coords)
    (arg2 : Memref sig .tc .vmem S1x128x8192 .f32) (harg2 : arg2.IsWhole)
    (arg3 : Memref sig .tc .vmem S1x128x128 .f32) (harg3 : arg3.IsWhole)
    (arg4 : Memref sig .tc .vmem S1x128x1 .f32) (harg4 : arg4.IsWhole)
    (arg5 : Memref sig .tc .vmem S128x128 .f32) (harg5 : arg5.IsWhole)
    (arg6 : Memref sig .tc .vmem S128x1 .f32) (harg6 : arg6.IsWhole)
    (hc0 : ¬cond0_0 i) (hc1 : cond0_1 i)
    (x0 : Vec F S1x128x8192 .f32) (xs0 : Vec F S128x128 .f32) (xs1 : Vec F S128x1 .f32) :
    Σ' (L1 : List (View.Piece (Elt F) S1x128x128 .f32)) (L2 : List (View.Piece (Elt F) S1x128x1 .f32))
       (LS0 : List (View.Piece (Elt F) S128x128 .f32)), { LS1 : List (View.Piece (Elt F) S128x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__cov_kernel i arg2 harg2 arg3 harg3 arg4 harg4 arg5 harg5 arg6 harg6) K } := by
  refine ⟨?_, ?_, ?_, ?_, fun E K => ?run⟩
  case run =>
    simp only [cc0__cov_kernel_eq_skeleton]; unfold cc0__cov_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg2.eq_unread hf0; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [HS0]; · iexists _; iexact HS0
    iexists _; iexact HS1

end Cert.Kernel.Hand

end
-- ==== Proof.K.Frame.lean ====
/-
  The frame of the kernel program, second part: what the buffers hold point by point, the proof data of the
  pipeline, the body obligation, the run and the frame.

  After an even point t = (b, 0) the scratches hold the contribution of the first half of batch b's rows (zero plus
  the block's sums); after the odd point t + 1 = (b, 1) they hold that plus the second half's contribution, and the
  two result windows hold the scratches as stored into them. The result windows are idle at even points and
  written back at odd points, so the arrays receive, per batch, exactly what the odd point leaves.
-/
import proofs.«150883_j91319594647822_1_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The cases at a grid point -/

/-- At an even point the first condition holds and the second fails; at an odd point the other way round. -/
theorem hcA0 (t : Fin cfg0.N) (h : t.val % 2 = 0) : cond0_0 (grid0.coords t) := (hcond0_0 t).mpr h
theorem hcA1 (t : Fin cfg0.N) (h : t.val % 2 = 0) : ¬cond0_1 (grid0.coords t) := fun h' => by
  have := (hcond0_1 t).mp h'; omega
theorem hcB0 (t : Fin cfg0.N) (h : ¬t.val % 2 = 0) : ¬cond0_0 (grid0.coords t) := fun h' => h ((hcond0_0 t).mp h')
theorem hcB1 (t : Fin cfg0.N) (h : ¬t.val % 2 = 0) : cond0_1 (grid0.coords t) := (hcond0_1 t).mpr (by omega)

/-- The body's run at an even point t, on the memrefs the pipeline calls it with there. -/
abbrev runA (c : Dev nD) (t : Fin cfg0.N) (h : t.val % 2 = 0) (x0 : Vec F S1x128x8192 .f32) :=
  kernelRun0_A (F := F) c (grid0.coords t) (ms0_0 t) (hs0_0 t) (ms0_1 t) (hs0_1 t) (ms0_2 t) (hs0_2 t)
    scM0_0 (Memref.isWhole_whole _) scM0_1 (Memref.isWhole_whole _) (hcA0 t h) (hcA1 t h) x0

/-- The body's run at an odd point t, the scratches holding xs0 and xs1 when it starts. -/
abbrev runB (c : Dev nD) (t : Fin cfg0.N) (h : ¬t.val % 2 = 0) (x0 : Vec F S1x128x8192 .f32)
    (xs0 : Vec F S128x128 .f32) (xs1 : Vec F S128x1 .f32) :=
  kernelRun0_B (F := F) c (grid0.coords t) (ms0_0 t) (hs0_0 t) (ms0_1 t) (hs0_1 t) (ms0_2 t) (hs0_2 t)
    scM0_0 (Memref.isWhole_whole _) scM0_1 (Memref.isWhole_whole _) (hcB0 t h) (hcB1 t h) x0 xs0 xs1

/-! ## The pieces cover what they are written into -/

/-- Case A's pieces for the first scratch tile it (two whole stores), so they cover it. -/
theorem scoverA_0 (c : Dev nD) (t : Fin cfg0.N) (h : t.val % 2 = 0) (x0 : Vec F S1x128x8192 .f32) (y : S128x128.Idx) :
    ∃ pc ∈ (runA c t h x0).2.2.1, y ∈ pc.1.set :=
  View.cover_of_tiledL (runA c t h x0).2.2.1 S128x128.size (by sl_kernel_rfl) y
/-- Case A's pieces for the second scratch tile it. -/
theorem scoverA_1 (c : Dev nD) (t : Fin cfg0.N) (h : t.val % 2 = 0) (x0 : Vec F S1x128x8192 .f32) (y : S128x1.Idx) :
    ∃ pc ∈ (runA c t h x0).2.2.2.1, y ∈ pc.1.set :=
  View.cover_of_tiledL (runA c t h x0).2.2.2.1 S128x1.size (by sl_kernel_rfl) y

/-- Case B's pieces for each scratch and each result window tile it (one whole store each). -/
theorem scoverB_0 (c : Dev nD) (t : Fin cfg0.N) (h : ¬t.val % 2 = 0) (x0 : Vec F S1x128x8192 .f32)
    (xs0 : Vec F S128x128 .f32) (xs1 : Vec F S128x1 .f32) (y : S128x128.Idx) :
    ∃ pc ∈ (runB c t h x0 xs0 xs1).2.2.1, y ∈ pc.1.set :=
  View.cover_of_tiledL (runB c t h x0 xs0 xs1).2.2.1 S128x128.size (by sl_kernel_rfl) y
theorem scoverB_1 (c : Dev nD) (t : Fin cfg0.N) (h : ¬t.val % 2 = 0) (x0 : Vec F S1x128x8192 .f32)
    (xs0 : Vec F S128x128 .f32) (xs1 : Vec F S128x1 .f32) (y : S128x1.Idx) :
    ∃ pc ∈ (runB c t h x0 xs0 xs1).2.2.2.1, y ∈ pc.1.set :=
  View.cover_of_tiledL (runB c t h x0 xs0 xs1).2.2.2.1 S128x1.size (by sl_kernel_rfl) y
theorem coverB_1 (c : Dev nD) (t : Fin cfg0.N) (h : ¬t.val % 2 = 0) (x0 : Vec F S1x128x8192 .f32)
    (xs0 : Vec F S128x128 .f32) (xs1 : Vec F S128x1 .f32) (y : S1x128x128.Idx) :
    ∃ pc ∈ (runB c t h x0 xs0 xs1).1, y ∈ pc.1.set :=
  View.cover_of_tiledL (runB c t h x0 xs0 xs1).1 S1x128x128.size (by sl_kernel_rfl) y
theorem coverB_2 (c : Dev nD) (t : Fin cfg0.N) (h : ¬t.val % 2 = 0) (x0 : Vec F S1x128x8192 .f32)
    (xs0 : Vec F S128x128 .f32) (xs1 : Vec F S128x1 .f32) (y : S1x128x1.Idx) :
    ∃ pc ∈ (runB c t h x0 xs0 xs1).2.1, y ∈ pc.1.set :=
  View.cover_of_tiledL (runB c t h x0 xs0 xs1).2.1 S1x128x1.size (by sl_kernel_rfl) y

/-! ## What each buffer holds after the body, per case -/

/-- Case A stores nothing into the result windows: placeholders that nothing consults (at an even point the
    windows are neither written back nor read at the next point). -/
def outA_1 (c : Dev nD) (t : Fin cfg0.N) (h : t.val % 2 = 0) (x0 : Vec F S1x128x8192 .f32) : Vec F S1x128x128 .f32 :=
  VO0_1.read (Elt F) (VO0_1.writes (Elt F) VO0_1.junk (runA c t h x0).1)
def outA_2 (c : Dev nD) (t : Fin cfg0.N) (h : t.val % 2 = 0) (x0 : Vec F S1x128x8192 .f32) : Vec F S1x128x1 .f32 :=
  VO0_2.read (Elt F) (VO0_2.writes (Elt F) VO0_2.junk (runA c t h x0).2.1)
/-- What case A leaves in the scratches: its pieces read back. -/
def soutA_0 (c : Dev nD) (t : Fin cfg0.N) (h : t.val % 2 = 0) (x0 : Vec F S1x128x8192 .f32) : Vec F S128x128 .f32 :=
  VS0_0.read (Elt F) (VS0_0.writes (Elt F) VS0_0.junk (runA c t h x0).2.2.1)
def soutA_1 (c : Dev nD) (t : Fin cfg0.N) (h : t.val % 2 = 0) (x0 : Vec F S1x128x8192 .f32) : Vec F S128x1 .f32 :=
  VS0_1.read (Elt F) (VS0_1.writes (Elt F) VS0_1.junk (runA c t h x0).2.2.2.1)

/-- What case B leaves in the result windows' staging buffers and in the scratches: its pieces read back. -/
def outB_1 (c : Dev nD) (t : Fin cfg0.N) (h : ¬t.val % 2 = 0) (x0 : Vec F S1x128x8192 .f32)
    (xs0 : Vec F S128x128 .f32) (xs1 : Vec F S128x1 .f32) : Vec F S1x128x128 .f32 :=
  VO0_1.read (Elt F) (VO0_1.writes (Elt F) VO0_1.junk (runB c t h x0 xs0 xs1).1)
def outB_2 (c : Dev nD) (t : Fin cfg0.N) (h : ¬t.val % 2 = 0) (x0 : Vec F S1x128x8192 .f32)
    (xs0 : Vec F S128x128 .f32) (xs1 : Vec F S128x1 .f32) : Vec F S1x128x1 .f32 :=
  VO0_2.read (Elt F) (VO0_2.writes (Elt F) VO0_2.junk (runB c t h x0 xs0 xs1).2.1)
def soutB_0 (c : Dev nD) (t : Fin cfg0.N) (h : ¬t.val % 2 = 0) (x0 : Vec F S1x128x8192 .f32)
    (xs0 : Vec F S128x128 .f32) (xs1 : Vec F S128x1 .f32) : Vec F S128x128 .f32 :=
  VS0_0.read (Elt F) (VS0_0.writes (Elt F) VS0_0.junk (runB c t h x0 xs0 xs1).2.2.1)
def soutB_1 (c : Dev nD) (t : Fin cfg0.N) (h : ¬t.val % 2 = 0) (x0 : Vec F S1x128x8192 .f32)
    (xs0 : Vec F S128x128 .f32) (xs1 : Vec F S128x1 .f32) : Vec F S128x1 .f32 :=
  VS0_1.read (Elt F) (VS0_1.writes (Elt F) VS0_1.junk (runB c t h x0 xs0 xs1).2.2.2.1)

/-! ## What the buffers hold after each point -/

/-- The contents after a point: result window 1, result window 2, first scratch, second scratch. -/
abbrev Outs (F : FTy → Type) [FloatOps F] : Type :=
  Vec F S1x128x128 .f32 × Vec F S1x128x1 .f32 × Vec F S128x128 .f32 × Vec F S128x1 .f32

/-- Case A's contents at an even point t. -/
def tupA (c : Dev nD) (t : Fin cfg0.N) (h : t.val % 2 = 0) : Outs F :=
  (outA_1 c t h (iblk m c 0 t), outA_2 c t h (iblk m c 0 t), soutA_0 c t h (iblk m c 0 t), soutA_1 c t h (iblk m c 0 t))

/-- Case B's contents at an odd point t, over what the scratches held when it started. -/
def tupB (c : Dev nD) (t : Fin cfg0.N) (h : ¬t.val % 2 = 0) (xs0 : Vec F S128x128 .f32) (xs1 : Vec F S128x1 .f32) : Outs F :=
  (outB_1 c t h (iblk m c 0 t) xs0 xs1, outB_2 c t h (iblk m c 0 t) xs0 xs1,
    soutB_0 c t h (iblk m c 0 t) xs0 xs1, soutB_1 c t h (iblk m c 0 t) xs0 xs1)

/-- THE ACCUMULATION: what the result windows' staging buffers and the two scratches hold after the body at
    position n — the case the parity of n selects, run at the point's memrefs and input block, the scratches
    at what position n - 1 left in them. -/
def outsAt0 (c : Dev nD) : (n : ℕ) → n < cfg0.N → Outs F
  | 0, hn => tupA m c ⟨0, hn⟩ (Nat.zero_mod 2)
  | n + 1, hn =>
    if h0 : (n + 1) % 2 = 0 then tupA m c ⟨n + 1, hn⟩ h0
    else tupB m c ⟨n + 1, hn⟩ h0 (outsAt0 c n (Nat.lt_of_succ_lt hn)).2.2.1 (outsAt0 c n (Nat.lt_of_succ_lt hn)).2.2.2

/-- At an even point: case A's contents. -/
theorem outsAt0_A (c : Dev nD) (t : Fin cfg0.N) (h0 : t.val % 2 = 0) :
    outsAt0 m c t.val t.isLt = tupA m c t h0 := by
  obtain ⟨n, hn⟩ := t
  cases n with
  | zero => rfl
  | succ n => exact (dif_pos h0).trans rfl

/-- At an odd point: case B's contents, over what the point before left in the scratches. -/
theorem outsAt0_B (c : Dev nD) (t : Fin cfg0.N) (h0 : ¬t.val % 2 = 0) :
    outsAt0 m c t.val t.isLt = tupB m c t h0
      (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact absurd (Nat.zero_mod 2) h0
  | succ n => exact (dif_neg h0).trans rfl

/-- The region invariant before position n: before the first point the class's (every scratch at anything);
    afterwards the two scratches at what the point before left in them, and the generator register at some
    state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1)
      ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1)
      ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1)
      ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the pipeline on core c: the arrays as the region finds them; after the body at point t the
    input's buffer at its block and the result windows' at the accumulation's components; the invariant PhiS;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
    | ⟨2, _⟩ => (outsAt0 m c t.val t.isLt).2.1
  Φ t := PhiS m c t.val (Nat.le_of_lt_succ t.isLt)
  q _ := fullShare
  owed _ := 0

/-- The proof data's arrays are the region-entry contents. -/
theorem dats_A (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]
theorem after0_2 (c : Dev nD) (t : Fin cfg0.N) : (dats m 0 c).after 2 t = (outsAt0 m c t.val t.isLt).2.1 := by dsimp only [dats]

/-- The input's current staging buffer holds its block at every point. -/
theorem before0_0 (c : Dev nD) (t : Fin cfg0.N) (d) : (dats m 0 c).before 0 t d = iblk m c 0 t :=
  before0_0_of m (dats m 0 c) (dats_A m c 0) (after0_0 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The input's memref holds its block; the parity of the point says which case it is in.
    At an even point the result windows are idle and not written back, so their buffers pass through untouched,
    and the scratches, at anything (first point) or at what the point before left, come back at this point's
    contents. At an odd point the scratches come in at what the even point before left and go back at this
    point's contents, and the result windows' buffers leave with the scratches stored into them. The core owes
    nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  by_cases h0 : t.val % 2 = 0
  · rw [Dat.leavesExact_idle (dats m 0 c) 1 t (idleAt0_1_A t (hcA0 t h0) (hcA1 t h0)) (noFlush0_1_A t (hcA0 t h0) (hcA1 t h0))]
    rw [Dat.leavesExact_idle (dats m 0 c) 2 t (idleAt0_2_A t (hcA0 t h0) (hcA1 t h0)) (noFlush0_2_A t (hcA0 t h0) (hcA1 t h0))]
    rw [outsAt0_A m c t h0]
    unfold tupA soutA_0 soutA_1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩⟩
      iapply ((runA c t h0 (iblk m c 0 t)).2.2.2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA_0 c t h0 _)
          · unfold owns; iexists _; isplitr
            swap; · iexact HS1
            ipureintro; exact View.read_writes_of_cover _ _ _ _ _ (scoverA_1 c t h0 _)
        iexact Hg
      isplitl [Ho]; · iexact Ho
      isplitl [H0]; · iexact H0
      isplitl [H1]; · iexists _; iexact H1
      iexists _; iexact H2
    · rw [PhiS_castSucc m c t, PhiS_pos m c _ _ hz]
      iintro ⟨⟨⟨HS0, HS1⟩, Hg⟩, Ho, ⟨%d0, H0⟩, ⟨%d1, H1⟩, ⟨%d2, H2⟩⟩
      iapply ((runA c t h0 (iblk m c 0 t)).2.2.2.2 _ _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA_0 c t h0 _)
          · unfold owns; iexists _; isplitr
            swap; · iexact HS1
            ipureintro; exact View.read_writes_of_cover _ _ _ _ _ (scoverA_1 c t h0 _)
        iexact Hg
      isplitl [Ho]; · iexact Ho
      isplitl [H0]; · iexact H0
      isplitl [H1]; · iexists _; iexact H1
      iexists _; iexact H2
  · rw [show (dats m 0 c).leavesExact 1 t = owns (c : Thread nD τ) (ms0_1 t) fullShare ((dats m 0 c).after 1 t) from by
      unfold Dat.leavesExact; rw [liveAt0_1_B t (hcB0 t h0) (hcB1 t h0)], after0_1]
    rw [show (dats m 0 c).leavesExact 2 t = owns (c : Thread nD τ) (ms0_2 t) fullShare ((dats m 0 c).after 2 t) from by
      unfold Dat.leavesExact; rw [liveAt0_2_B t (hcB0 t h0) (hcB1 t h0)], after0_2]
    rw [outsAt0_B m c t h0]
    unfold tupB outB_1 outB_2 soutB_0 soutB_1; (try dsimp only)
    have hz : t.val ≠ 0 := fun hz => h0 (by rw [hz])
    rw [PhiS_castSucc m c t, PhiS_pos m c _ _ hz]
    iintro ⟨⟨⟨HS0, HS1⟩, Hg⟩, Ho, ⟨%d0, H0⟩, ⟨%d1, H1⟩, ⟨%d2, H2⟩⟩
    iapply ((runB c t h0 (iblk m c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scoverB_0 c t h0 _ _ _)
        · unfold owns; iexists _; isplitr
          swap; · iexact HS1
          ipureintro; exact View.read_writes_of_cover _ _ _ _ _ (scoverB_1 c t h0 _ _ _)
      iexact Hg
    isplitl [Ho]; · iexact Ho
    isplitl [H0]; · iexact H0
    isplitl [H1]
    · unfold owns; iexists _; isplitr
      swap; · iexact H1
      ipureintro; exact View.read_writes_of_cover _ _ _ _ _ (coverB_1 c t h0 _ _ _)
    unfold owns; iexists _; isplitr
    swap; · iexact H2
    ipureintro; exact View.read_writes_of_cover _ _ _ _ _ (coverB_2 c t h0 _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratches' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- the implicit arguments of the statement applied here are recovered by unification through plain definitions; the
-- list of the operations after the region is long, hence the raised limits
set_option backward.isDefEq.respectTransparency.types false in
set_option maxRecDepth 1000000 in
set_option maxHeartbeats 40000000 in
/-- At the compiled mesh, for any values, from any memory with zero counters: every weakly fair execution of the
    host program on the TensorCores terminates, and every final state has every array of the pipeline at what
    the library computes from the proof data and every other unscoped buffer as the operations after the region
    leave it. -/
theorem run_main : θ_run defs (onTc (τ := τ) (main (F := F))) (s₀ m ρ)
    (Pipeline.FramePost cfgs (dats m) 0 (Pipeline.afterTail₀ cfgs (dats m) 0 (V0 m) tailOpss)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := dats_A m) (hin := hin m) (hout := hout m)

/-- THE FRAME: the program leaves its input buffer as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (dats_A m) (run_main m ρ)

end Cert.Kernel.Hand

end
-- ==== Proof.KI.Host.lean ====
/-
  The host program of the kernel side, around its one region.

  The program is: one reshape of the input `[16,128,128,128]` to rows `[16,128,16384]`, the region (one pipeline
  whose three arrays are the reshaped input and the two results), then 142 host operations that form the covariance
  and run the tail. This module states what the launch needs of the operations around the region: they allocate
  nothing, they touch only unscoped buffers of the core, the later ones write none of the pipeline's arrays nor the
  program's input, and what the region finds in the input buffer and in the reshaped buffer when it is entered.
  Every operation writes its own result buffer only, and the result buffers are pairwise distinct references, so
  each such fact is one comparison of references per operation.
-/
import proofs.«150883_j91319594647822_1_alg».proof.Proof.Gen.KernelIdeal.Launch
import proofs.«150883_j91319594647822_1_alg».proof.Proof.Gen.KernelIdeal.Skeleton
import proofs.«150883_j91319594647822_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the region -/

/-- The contents of core `c`'s buffers when the region is entered: the memory after the one host operation that
    precedes it (the reshape of the input to rows of 16384 pixels). -/
abbrev V0 (c : Dev nD) : Valuation τ sig (Elt F) :=
  StableHlo.after (List.flatten [(hostOps0 : List (HloOp τ sig (Elt F)))]) (fun b => m (c, b))

/-- The same, read at a reference of the core. -/
abbrev V (c : Dev nD) (b : Ref sig .tc) : Buf (Elt F) ((c : Thread nD τ).loc b) := V0 m c (Proc.devRef .tc b)

/-- The host operations after the region, as one stretch. -/
abbrev tailOpss : List (List (HloOp τ sig (Elt F))) := [hostOps1]

/-- The one operation before the region allocates nothing. -/
theorem hostOps0_fresh : (hostOps0 : List (HloOp τ sig (Elt F))).Forall fun op => op.fresh = ∅ := by
  simp only [List.Forall]; repeat' constructor

set_option maxHeartbeats 40000000 in
/-- No operation after the region allocates a buffer. -/
theorem hostOps1_fresh : (hostOps1 : List (HloOp τ sig (Elt F))).Forall fun op => op.fresh = ∅ := by
  simp only [List.Forall]; repeat' constructor

set_option maxHeartbeats 40000000 in
/-- No operation after the region writes an array of the pipeline: each writes its own result buffer only, and
    that buffer is none of the three arrays (the reshaped input and the two results of the region). -/
theorem hostOps1_keeps : (hostOps1 : List (HloOp τ sig (Elt F))).Forall fun op =>
    ∀ w, Proc.devRef .tc (Pipeline.arrRef spec0 w) ∉ op.writes := by
  simp only [List.Forall]
  repeat' constructor
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

set_option maxHeartbeats 40000000 in
/-- No operation after the region writes the program's input buffer: its result buffer is another reference. -/
theorem hostOps1_keeps_arg0 : (hostOps1 : List (HloOp τ sig (Elt F))).Forall fun op =>
    Proc.devRef .tc main_arg0 ∉ op.writes := by
  simp only [List.Forall]
  repeat' constructor
  all_goals simp only [StableHlo.nullary_writes, StableHlo.unary_writes, StableHlo.binary_writes, StableHlo.ternary_writes, StableHlo.reshape_writes, Finset.mem_singleton] <;> exact StableHlo.devRef_ne_of_ne (by decide)

set_option maxRecDepth 1000000 in
set_option maxHeartbeats 40000000 in
/-- The host program is: the operation before the region, the region, the operations after it; so it reduces to
    the region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss : List (List (HloOp τ sig (Elt F)))).map StableHlo.seq)) :=
  Pipeline.hmain_around cfgs 0 defs₀ 𝒱₀ m main [hostOps0] tailOpss (by simp only [List.Forall]; exact hostOps0_sub)
    (by simp only [List.Forall]; exact hostOps0_fresh) main_chain

/-- The operations after the region touch only the pipeline's arrays and buffers that bypass the region. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ (tailOpss : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- They write no array of the pipeline. -/
theorem sfx_keeps : ∀ ops ∈ (tailOpss : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-! ## What the region finds -/

/-- The reshape before the region leaves the program's input buffer as it was. -/
theorem V_main_arg0 (c : Dev nD) : V m c main_arg0 = m ((c : Thread nD τ).loc main_arg0) := rfl

/-- The reshape before the region fills the first array of the pipeline with the input's elements read as
    `[16, 128, 16384]`: row `(b, c)` holds channel `c` of batch `b`, pixel `(h, w)` at position `128·h + w`. -/
theorem V_main_v0 (c : Dev nD) : V m c main_v0
    = shapeCast S16x128x16384 (m ((c : Thread nD τ).loc main_arg0)) shapeCasts_S16x128x128x128_S16x128x16384 := by
  show StableHlo.after hostOps0 (fun b => m (c, b)) (Proc.devRef .tc main_v0) = _
  after_results
  rfl

/-! ## The frame claim's post from the frame run's -/

/-- The program's input buffer is no array of the pipeline (the region stages the reshaped copy), so it is one of
    the buffers that bypass the region: after the region it holds what it held at the region's entry, no later
    operation writes it, and the reshape before the region had left it as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ)
      (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 (by decide) (by decide))).trans (by
      unfold Pipeline.afterTail₀
      simp only [List.flatten_cons, List.flatten_nil, List.append_nil]
      rw [StableHlo.after_of_forall_not_mem _ _ (List.forall_iff_forall_mem.mp hostOps1_keeps_arg0),
        Pipeline.withArrays_of_ne _ _ _ _ main_arg0 (by decide)]
      exact V_main_arg0 m c)) h

end Cert.KernelIdeal.Hand

end
-- ==== Proof.KI.Runs.lean ====
/-
  The frame of the kernel program, first part: what the two cases of the kernel body share, and the body's run in
  each case.

  The region is one pipeline over the grid (16, 2): point t = (b, j), t = 2·b + j. Window 0 (the input, as rows of
  16384 pixels) is fetched at every point: at t it is all 128 channels of batch b, pixels j·8192 … j·8192 + 8191.
  Windows 1 and 2 (the two results: the 128 × 128 sums of products and the 128 row sums of batch b) are stored by
  the body only when j = 1 and are written back exactly there. The body carries two scratch accumulators between
  points: at j = 0 it zeroes them and then adds the block's contribution; at j = 1 it adds the block's
  contribution and then stores both into the result windows. Hence two cases over the 32 points: A (t even: the
  first conditional taken, the second not) and B (t odd: the first not taken, the second taken).
-/
import proofs.«150883_j91319594647822_1_alg».proof.Proof.KI.Host
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t, read off its array as the region finds it. For window 0 at t = (b, j) this is
    the half row block: all 128 channels of batch b, pixels j·8192 … j·8192 + 8191. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is
    the region-entry contents and whose body leaves the block in place: the window is fetched at every point,
    is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first conditional's condition from the grid coordinates: j = 0. -/
abbrev cond0_0 (i : grid0.Coords) : Prop := (Scalar.cmpi .ne (Scalar.extui (Scalar.cmpi .eq (BitVec.ofNat 32 (i 1).val) 0#32)) 0#32) = 1#1
/-- It holds exactly at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional's condition from the grid coordinates: j = 1. -/
abbrev cond0_1 (i : grid0.Coords) : Prop := k0_cond2 i = 1#1
/-- It holds exactly at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

/-- The input window is never idle. -/
theorem liveAt0_0 : ∀ t : Fin cfg0.N, cfg0.idle 0 (grid0.coords t) = false := by decide +kernel
/-- At the even points the two result windows are idle (the body stores nothing into them) -/
theorem idleAt0_1_A : ∀ t : Fin cfg0.N, cond0_0 (grid0.coords t) → ¬cond0_1 (grid0.coords t) → cfg0.idle 1 (grid0.coords t) = true := by decide +kernel
theorem idleAt0_2_A : ∀ t : Fin cfg0.N, cond0_0 (grid0.coords t) → ¬cond0_1 (grid0.coords t) → cfg0.idle 2 (grid0.coords t) = true := by decide +kernel
/-- and are not written back there. -/
theorem noFlush0_1_A : ∀ t : Fin cfg0.N, cond0_0 (grid0.coords t) → ¬cond0_1 (grid0.coords t) → (cfg0.win 1).flush t = false := by decide +kernel
theorem noFlush0_2_A : ∀ t : Fin cfg0.N, cond0_0 (grid0.coords t) → ¬cond0_1 (grid0.coords t) → (cfg0.win 2).flush t = false := by decide +kernel
/-- At the odd points the two result windows are live: the body stores into them. -/
theorem liveAt0_1_B : ∀ t : Fin cfg0.N, ¬cond0_0 (grid0.coords t) → cond0_1 (grid0.coords t) → cfg0.idle 1 (grid0.coords t) = false := by decide +kernel
theorem liveAt0_2_B : ∀ t : Fin cfg0.N, ¬cond0_0 (grid0.coords t) → cond0_1 (grid0.coords t) → cfg0.idle 2 (grid0.coords t) = false := by decide +kernel

/-! ## The memrefs the body is called with -/

/-- One staging buffer of each result window, through which its contents are stated (the choice does not matter). -/
abbrev VO0_1 : View sig .tc .vmem S1x128x128 .f32 := (Memref.whole cc0_stg1_0 : Memref sig .tc .vmem S1x128x128 .f32).view
abbrev VO0_2 : View sig .tc .vmem S1x128x1 .f32 := (Memref.whole cc0_stg2_0 : Memref sig .tc .vmem S1x128x1 .f32).view
/-- Each window's current staging memref at point t, and its wholeness. -/
abbrev ms0_0 (t : Fin cfg0.N) : Memref sig .tc .vmem S1x128x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x1 .f32 := win0_2.stage (cfg0.slots t 2)
abbrev hs0_2 (t : Fin cfg0.N) : (ms0_2 t).IsWhole := hstage0_2 ((cfg0.slots t 2).cast nbuf0_2)
/-- The two scratch accumulators: whole scoped buffers of the kernel's own, passed beside the windows. The first
    holds the 128 × 128 sums of products, the second the 128 row sums. -/
abbrev scM0_0 : Memref sig .tc .vmem S128x128 .f32 := Memref.whole cc0_scratch0
abbrev scM0_1 : Memref sig .tc .vmem S128x1 .f32 := Memref.whole cc0_scratch1
/-- The same as views: what each holds is stated through its view. -/
abbrev VS0_0 : View sig .tc .vmem S128x128 .f32 := scM0_0.view
abbrev VS0_1 : View sig .tc .vmem S128x1 .f32 := scM0_1.view

/-- The region invariant of the class with the two scratch operands as memrefs owned at some contents: what
    the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The body's run, case by case -/

set_option maxHeartbeats 4000000 in
/-- CASE A (j = 0: the first conditional taken, the second not). On whole memrefs — the input's at its block x0,
    the two result windows' at contents handed back untouched (the body stores nothing into them), the two
    scratch accumulators at anything — the body runs to the continuation holding the input's as it was, the
    results' as they were, and each scratch with the pieces written into it (first the zeros, then the sum): the
    piece lists are found by the run. -/
noncomputable def kernelRun0_A (c : Dev nD) (i : grid0.Coords)
    (arg2 : Memref sig .tc .vmem S1x128x8192 .f32) (harg2 : arg2.IsWhole)
    (arg3 : Memref sig .tc .vmem S1x128x128 .f32) (harg3 : arg3.IsWhole)
    (arg4 : Memref sig .tc .vmem S1x128x1 .f32) (harg4 : arg4.IsWhole)
    (arg5 : Memref sig .tc .vmem S128x128 .f32) (harg5 : arg5.IsWhole)
    (arg6 : Memref sig .tc .vmem S128x1 .f32) (harg6 : arg6.IsWhole)
    (hc0 : cond0_0 i) (hc1 : ¬cond0_1 i)
    (x0 : Vec F S1x128x8192 .f32) :
    Σ' (L1 : List (View.Piece (Elt F) S1x128x128 .f32)) (L2 : List (View.Piece (Elt F) S1x128x1 .f32))
       (LS0 : List (View.Piece (Elt F) S128x128 .f32)), { LS1 : List (View.Piece (Elt F) S128x1 .f32) //
      ∀ (xi1 : Vec F S1x128x128 .f32) (xi2 : Vec F S1x128x1 .f32) (E : Set ℕ) (K : PUnit → sProp 𝕄),
        iprop(owns (c : Thread nD τ) arg2 fullShare x0 ∗ owns (c : Thread nD τ) arg3 fullShare xi1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare xi1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__cov_kernel i arg2 harg2 arg3 harg3 arg4 harg4 arg5 harg5 arg6 harg6) K } := by
  refine ⟨[], [], ?_, ?_, fun xi1 xi2 E K => ?run⟩
  case run =>
    simp only [cc0__cov_kernel_eq_skeleton]; unfold cc0__cov_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 4000000 in
/-- CASE B (j = 1: the first conditional not taken, the second taken). On whole memrefs — the input's at its block
    x0, the two result windows' at anything, the two scratch accumulators at what the point before left in them
    (xs0, xs1) — the body runs to the continuation holding the input's as it was, and each result window and each
    scratch with the pieces written into it: the scratches receive their contents plus the block's contribution,
    the result windows receive the scratches read back. -/
noncomputable def kernelRun0_B (c : Dev nD) (i : grid0.Coords)
    (arg2 : Memref sig .tc .vmem S1x128x8192 .f32) (harg2 : arg2.IsWhole)
    (arg3 : Memref sig .tc .vmem S1x128x128 .f32) (harg3 : arg3.IsWhole)
    (arg4 : Memref sig .tc .vmem S1x128x1 .f32) (harg4 : arg4.IsWhole)
    (arg5 : Memref sig .tc .vmem S128x128 .f32) (harg5 : arg5.IsWhole)
    (arg6 : Memref sig .tc .vmem S128x1 .f32) (harg6 : arg6.IsWhole)
    (hc0 : ¬cond0_0 i) (hc1 : cond0_1 i)
    (x0 : Vec F S1x128x8192 .f32) (xs0 : Vec F S128x128 .f32) (xs1 : Vec F S128x1 .f32) :
    Σ' (L1 : List (View.Piece (Elt F) S1x128x128 .f32)) (L2 : List (View.Piece (Elt F) S1x128x1 .f32))
       (LS0 : List (View.Piece (Elt F) S128x128 .f32)), { LS1 : List (View.Piece (Elt F) S128x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__cov_kernel i arg2 harg2 arg3 harg3 arg4 harg4 arg5 harg5 arg6 harg6) K } := by
  refine ⟨?_, ?_, ?_, ?_, fun E K => ?run⟩
  case run =>
    simp only [cc0__cov_kernel_eq_skeleton]; unfold cc0__cov_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg2.eq_unread hf0; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [HS0]; · iexists _; iexact HS0
    iexists _; iexact HS1

end Cert.KernelIdeal.Hand

end
-- ==== Proof.KI.Frame.lean ====
/-
  The frame of the kernel program, second part: what the buffers hold point by point, the proof data of the
  pipeline, the body obligation, the run and the frame.

  After an even point t = (b, 0) the scratches hold the contribution of the first half of batch b's rows (zero plus
  the block's sums); after the odd point t + 1 = (b, 1) they hold that plus the second half's contribution, and the
  two result windows hold the scratches as stored into them. The result windows are idle at even points and
  written back at odd points, so the arrays receive, per batch, exactly what the odd point leaves.
-/
import proofs.«150883_j91319594647822_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The cases at a grid point -/

/-- At an even point the first condition holds and the second fails; at an odd point the other way round. -/
theorem hcA0 (t : Fin cfg0.N) (h : t.val % 2 = 0) : cond0_0 (grid0.coords t) := (hcond0_0 t).mpr h
theorem hcA1 (t : Fin cfg0.N) (h : t.val % 2 = 0) : ¬cond0_1 (grid0.coords t) := fun h' => by
  have := (hcond0_1 t).mp h'; omega
theorem hcB0 (t : Fin cfg0.N) (h : ¬t.val % 2 = 0) : ¬cond0_0 (grid0.coords t) := fun h' => h ((hcond0_0 t).mp h')
theorem hcB1 (t : Fin cfg0.N) (h : ¬t.val % 2 = 0) : cond0_1 (grid0.coords t) := (hcond0_1 t).mpr (by omega)

/-- The body's run at an even point t, on the memrefs the pipeline calls it with there. -/
abbrev runA (c : Dev nD) (t : Fin cfg0.N) (h : t.val % 2 = 0) (x0 : Vec F S1x128x8192 .f32) :=
  kernelRun0_A (F := F) c (grid0.coords t) (ms0_0 t) (hs0_0 t) (ms0_1 t) (hs0_1 t) (ms0_2 t) (hs0_2 t)
    scM0_0 (Memref.isWhole_whole _) scM0_1 (Memref.isWhole_whole _) (hcA0 t h) (hcA1 t h) x0

/-- The body's run at an odd point t, the scratches holding xs0 and xs1 when it starts. -/
abbrev runB (c : Dev nD) (t : Fin cfg0.N) (h : ¬t.val % 2 = 0) (x0 : Vec F S1x128x8192 .f32)
    (xs0 : Vec F S128x128 .f32) (xs1 : Vec F S128x1 .f32) :=
  kernelRun0_B (F := F) c (grid0.coords t) (ms0_0 t) (hs0_0 t) (ms0_1 t) (hs0_1 t) (ms0_2 t) (hs0_2 t)
    scM0_0 (Memref.isWhole_whole _) scM0_1 (Memref.isWhole_whole _) (hcB0 t h) (hcB1 t h) x0 xs0 xs1

/-! ## The pieces cover what they are written into -/

/-- Case A's pieces for the first scratch tile it (two whole stores), so they cover it. -/
theorem scoverA_0 (c : Dev nD) (t : Fin cfg0.N) (h : t.val % 2 = 0) (x0 : Vec F S1x128x8192 .f32) (y : S128x128.Idx) :
    ∃ pc ∈ (runA c t h x0).2.2.1, y ∈ pc.1.set :=
  View.cover_of_tiledL (runA c t h x0).2.2.1 S128x128.size (by sl_kernel_rfl) y
/-- Case A's pieces for the second scratch tile it. -/
theorem scoverA_1 (c : Dev nD) (t : Fin cfg0.N) (h : t.val % 2 = 0) (x0 : Vec F S1x128x8192 .f32) (y : S128x1.Idx) :
    ∃ pc ∈ (runA c t h x0).2.2.2.1, y ∈ pc.1.set :=
  View.cover_of_tiledL (runA c t h x0).2.2.2.1 S128x1.size (by sl_kernel_rfl) y

/-- Case B's pieces for each scratch and each result window tile it (one whole store each). -/
theorem scoverB_0 (c : Dev nD) (t : Fin cfg0.N) (h : ¬t.val % 2 = 0) (x0 : Vec F S1x128x8192 .f32)
    (xs0 : Vec F S128x128 .f32) (xs1 : Vec F S128x1 .f32) (y : S128x128.Idx) :
    ∃ pc ∈ (runB c t h x0 xs0 xs1).2.2.1, y ∈ pc.1.set :=
  View.cover_of_tiledL (runB c t h x0 xs0 xs1).2.2.1 S128x128.size (by sl_kernel_rfl) y
theorem scoverB_1 (c : Dev nD) (t : Fin cfg0.N) (h : ¬t.val % 2 = 0) (x0 : Vec F S1x128x8192 .f32)
    (xs0 : Vec F S128x128 .f32) (xs1 : Vec F S128x1 .f32) (y : S128x1.Idx) :
    ∃ pc ∈ (runB c t h x0 xs0 xs1).2.2.2.1, y ∈ pc.1.set :=
  View.cover_of_tiledL (runB c t h x0 xs0 xs1).2.2.2.1 S128x1.size (by sl_kernel_rfl) y
theorem coverB_1 (c : Dev nD) (t : Fin cfg0.N) (h : ¬t.val % 2 = 0) (x0 : Vec F S1x128x8192 .f32)
    (xs0 : Vec F S128x128 .f32) (xs1 : Vec F S128x1 .f32) (y : S1x128x128.Idx) :
    ∃ pc ∈ (runB c t h x0 xs0 xs1).1, y ∈ pc.1.set :=
  View.cover_of_tiledL (runB c t h x0 xs0 xs1).1 S1x128x128.size (by sl_kernel_rfl) y
theorem coverB_2 (c : Dev nD) (t : Fin cfg0.N) (h : ¬t.val % 2 = 0) (x0 : Vec F S1x128x8192 .f32)
    (xs0 : Vec F S128x128 .f32) (xs1 : Vec F S128x1 .f32) (y : S1x128x1.Idx) :
    ∃ pc ∈ (runB c t h x0 xs0 xs1).2.1, y ∈ pc.1.set :=
  View.cover_of_tiledL (runB c t h x0 xs0 xs1).2.1 S1x128x1.size (by sl_kernel_rfl) y

/-! ## What each buffer holds after the body, per case -/

/-- Case A stores nothing into the result windows: placeholders that nothing consults (at an even point the
    windows are neither written back nor read at the next point). -/
def outA_1 (c : Dev nD) (t : Fin cfg0.N) (h : t.val % 2 = 0) (x0 : Vec F S1x128x8192 .f32) : Vec F S1x128x128 .f32 :=
  VO0_1.read (Elt F) (VO0_1.writes (Elt F) VO0_1.junk (runA c t h x0).1)
def outA_2 (c : Dev nD) (t : Fin cfg0.N) (h : t.val % 2 = 0) (x0 : Vec F S1x128x8192 .f32) : Vec F S1x128x1 .f32 :=
  VO0_2.read (Elt F) (VO0_2.writes (Elt F) VO0_2.junk (runA c t h x0).2.1)
/-- What case A leaves in the scratches: its pieces read back. -/
def soutA_0 (c : Dev nD) (t : Fin cfg0.N) (h : t.val % 2 = 0) (x0 : Vec F S1x128x8192 .f32) : Vec F S128x128 .f32 :=
  VS0_0.read (Elt F) (VS0_0.writes (Elt F) VS0_0.junk (runA c t h x0).2.2.1)
def soutA_1 (c : Dev nD) (t : Fin cfg0.N) (h : t.val % 2 = 0) (x0 : Vec F S1x128x8192 .f32) : Vec F S128x1 .f32 :=
  VS0_1.read (Elt F) (VS0_1.writes (Elt F) VS0_1.junk (runA c t h x0).2.2.2.1)

/-- What case B leaves in the result windows' staging buffers and in the scratches: its pieces read back. -/
def outB_1 (c : Dev nD) (t : Fin cfg0.N) (h : ¬t.val % 2 = 0) (x0 : Vec F S1x128x8192 .f32)
    (xs0 : Vec F S128x128 .f32) (xs1 : Vec F S128x1 .f32) : Vec F S1x128x128 .f32 :=
  VO0_1.read (Elt F) (VO0_1.writes (Elt F) VO0_1.junk (runB c t h x0 xs0 xs1).1)
def outB_2 (c : Dev nD) (t : Fin cfg0.N) (h : ¬t.val % 2 = 0) (x0 : Vec F S1x128x8192 .f32)
    (xs0 : Vec F S128x128 .f32) (xs1 : Vec F S128x1 .f32) : Vec F S1x128x1 .f32 :=
  VO0_2.read (Elt F) (VO0_2.writes (Elt F) VO0_2.junk (runB c t h x0 xs0 xs1).2.1)
def soutB_0 (c : Dev nD) (t : Fin cfg0.N) (h : ¬t.val % 2 = 0) (x0 : Vec F S1x128x8192 .f32)
    (xs0 : Vec F S128x128 .f32) (xs1 : Vec F S128x1 .f32) : Vec F S128x128 .f32 :=
  VS0_0.read (Elt F) (VS0_0.writes (Elt F) VS0_0.junk (runB c t h x0 xs0 xs1).2.2.1)
def soutB_1 (c : Dev nD) (t : Fin cfg0.N) (h : ¬t.val % 2 = 0) (x0 : Vec F S1x128x8192 .f32)
    (xs0 : Vec F S128x128 .f32) (xs1 : Vec F S128x1 .f32) : Vec F S128x1 .f32 :=
  VS0_1.read (Elt F) (VS0_1.writes (Elt F) VS0_1.junk (runB c t h x0 xs0 xs1).2.2.2.1)

/-! ## What the buffers hold after each point -/

/-- The contents after a point: result window 1, result window 2, first scratch, second scratch. -/
abbrev Outs (F : FTy → Type) [FloatOps F] : Type :=
  Vec F S1x128x128 .f32 × Vec F S1x128x1 .f32 × Vec F S128x128 .f32 × Vec F S128x1 .f32

/-- Case A's contents at an even point t. -/
def tupA (c : Dev nD) (t : Fin cfg0.N) (h : t.val % 2 = 0) : Outs F :=
  (outA_1 c t h (iblk m c 0 t), outA_2 c t h (iblk m c 0 t), soutA_0 c t h (iblk m c 0 t), soutA_1 c t h (iblk m c 0 t))

/-- Case B's contents at an odd point t, over what the scratches held when it started. -/
def tupB (c : Dev nD) (t : Fin cfg0.N) (h : ¬t.val % 2 = 0) (xs0 : Vec F S128x128 .f32) (xs1 : Vec F S128x1 .f32) : Outs F :=
  (outB_1 c t h (iblk m c 0 t) xs0 xs1, outB_2 c t h (iblk m c 0 t) xs0 xs1,
    soutB_0 c t h (iblk m c 0 t) xs0 xs1, soutB_1 c t h (iblk m c 0 t) xs0 xs1)

/-- THE ACCUMULATION: what the result windows' staging buffers and the two scratches hold after the body at
    position n — the case the parity of n selects, run at the point's memrefs and input block, the scratches
    at what position n - 1 left in them. -/
def outsAt0 (c : Dev nD) : (n : ℕ) → n < cfg0.N → Outs F
  | 0, hn => tupA m c ⟨0, hn⟩ (Nat.zero_mod 2)
  | n + 1, hn =>
    if h0 : (n + 1) % 2 = 0 then tupA m c ⟨n + 1, hn⟩ h0
    else tupB m c ⟨n + 1, hn⟩ h0 (outsAt0 c n (Nat.lt_of_succ_lt hn)).2.2.1 (outsAt0 c n (Nat.lt_of_succ_lt hn)).2.2.2

/-- At an even point: case A's contents. -/
theorem outsAt0_A (c : Dev nD) (t : Fin cfg0.N) (h0 : t.val % 2 = 0) :
    outsAt0 m c t.val t.isLt = tupA m c t h0 := by
  obtain ⟨n, hn⟩ := t
  cases n with
  | zero => rfl
  | succ n => exact (dif_pos h0).trans rfl

/-- At an odd point: case B's contents, over what the point before left in the scratches. -/
theorem outsAt0_B (c : Dev nD) (t : Fin cfg0.N) (h0 : ¬t.val % 2 = 0) :
    outsAt0 m c t.val t.isLt = tupB m c t h0
      (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact absurd (Nat.zero_mod 2) h0
  | succ n => exact (dif_neg h0).trans rfl

/-- The region invariant before position n: before the first point the class's (every scratch at anything);
    afterwards the two scratches at what the point before left in them, and the generator register at some
    state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1)
      ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1)
      ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1)
      ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the pipeline on core c: the arrays as the region finds them; after the body at point t the
    input's buffer at its block and the result windows' at the accumulation's components; the invariant PhiS;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
    | ⟨2, _⟩ => (outsAt0 m c t.val t.isLt).2.1
  Φ t := PhiS m c t.val (Nat.le_of_lt_succ t.isLt)
  q _ := fullShare
  owed _ := 0

/-- The proof data's arrays are the region-entry contents. -/
theorem dats_A (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]
theorem after0_2 (c : Dev nD) (t : Fin cfg0.N) : (dats m 0 c).after 2 t = (outsAt0 m c t.val t.isLt).2.1 := by dsimp only [dats]

/-- The input's current staging buffer holds its block at every point. -/
theorem before0_0 (c : Dev nD) (t : Fin cfg0.N) (d) : (dats m 0 c).before 0 t d = iblk m c 0 t :=
  before0_0_of m (dats m 0 c) (dats_A m c 0) (after0_0 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The input's memref holds its block; the parity of the point says which case it is in.
    At an even point the result windows are idle and not written back, so their buffers pass through untouched,
    and the scratches, at anything (first point) or at what the point before left, come back at this point's
    contents. At an odd point the scratches come in at what the even point before left and go back at this
    point's contents, and the result windows' buffers leave with the scratches stored into them. The core owes
    nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  by_cases h0 : t.val % 2 = 0
  · rw [Dat.leavesExact_idle (dats m 0 c) 1 t (idleAt0_1_A t (hcA0 t h0) (hcA1 t h0)) (noFlush0_1_A t (hcA0 t h0) (hcA1 t h0))]
    rw [Dat.leavesExact_idle (dats m 0 c) 2 t (idleAt0_2_A t (hcA0 t h0) (hcA1 t h0)) (noFlush0_2_A t (hcA0 t h0) (hcA1 t h0))]
    rw [outsAt0_A m c t h0]
    unfold tupA soutA_0 soutA_1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩⟩
      iapply ((runA c t h0 (iblk m c 0 t)).2.2.2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA_0 c t h0 _)
          · unfold owns; iexists _; isplitr
            swap; · iexact HS1
            ipureintro; exact View.read_writes_of_cover _ _ _ _ _ (scoverA_1 c t h0 _)
        iexact Hg
      isplitl [Ho]; · iexact Ho
      isplitl [H0]; · iexact H0
      isplitl [H1]; · iexists _; iexact H1
      iexists _; iexact H2
    · rw [PhiS_castSucc m c t, PhiS_pos m c _ _ hz]
      iintro ⟨⟨⟨HS0, HS1⟩, Hg⟩, Ho, ⟨%d0, H0⟩, ⟨%d1, H1⟩, ⟨%d2, H2⟩⟩
      iapply ((runA c t h0 (iblk m c 0 t)).2.2.2.2 _ _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA_0 c t h0 _)
          · unfold owns; iexists _; isplitr
            swap; · iexact HS1
            ipureintro; exact View.read_writes_of_cover _ _ _ _ _ (scoverA_1 c t h0 _)
        iexact Hg
      isplitl [Ho]; · iexact Ho
      isplitl [H0]; · iexact H0
      isplitl [H1]; · iexists _; iexact H1
      iexists _; iexact H2
  · rw [show (dats m 0 c).leavesExact 1 t = owns (c : Thread nD τ) (ms0_1 t) fullShare ((dats m 0 c).after 1 t) from by
      unfold Dat.leavesExact; rw [liveAt0_1_B t (hcB0 t h0) (hcB1 t h0)], after0_1]
    rw [show (dats m 0 c).leavesExact 2 t = owns (c : Thread nD τ) (ms0_2 t) fullShare ((dats m 0 c).after 2 t) from by
      unfold Dat.leavesExact; rw [liveAt0_2_B t (hcB0 t h0) (hcB1 t h0)], after0_2]
    rw [outsAt0_B m c t h0]
    unfold tupB outB_1 outB_2 soutB_0 soutB_1; (try dsimp only)
    have hz : t.val ≠ 0 := fun hz => h0 (by rw [hz])
    rw [PhiS_castSucc m c t, PhiS_pos m c _ _ hz]
    iintro ⟨⟨⟨HS0, HS1⟩, Hg⟩, Ho, ⟨%d0, H0⟩, ⟨%d1, H1⟩, ⟨%d2, H2⟩⟩
    iapply ((runB c t h0 (iblk m c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scoverB_0 c t h0 _ _ _)
        · unfold owns; iexists _; isplitr
          swap; · iexact HS1
          ipureintro; exact View.read_writes_of_cover _ _ _ _ _ (scoverB_1 c t h0 _ _ _)
      iexact Hg
    isplitl [Ho]; · iexact Ho
    isplitl [H0]; · iexact H0
    isplitl [H1]
    · unfold owns; iexists _; isplitr
      swap; · iexact H1
      ipureintro; exact View.read_writes_of_cover _ _ _ _ _ (coverB_1 c t h0 _ _ _)
    unfold owns; iexists _; isplitr
    swap; · iexact H2
    ipureintro; exact View.read_writes_of_cover _ _ _ _ _ (coverB_2 c t h0 _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratches' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- the implicit arguments of the statement applied here are recovered by unification through plain definitions; the
-- list of the operations after the region is long, hence the raised limits
set_option backward.isDefEq.respectTransparency.types false in
set_option maxRecDepth 1000000 in
set_option maxHeartbeats 40000000 in
/-- At the compiled mesh, for any values, from any memory with zero counters: every weakly fair execution of the
    host program on the TensorCores terminates, and every final state has every array of the pipeline at what
    the library computes from the proof data and every other unscoped buffer as the operations after the region
    leave it. -/
theorem run_main : θ_run defs (onTc (τ := τ) (main (F := F))) (s₀ m ρ)
    (Pipeline.FramePost cfgs (dats m) 0 (Pipeline.afterTail₀ cfgs (dats m) 0 (V0 m) tailOpss)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := dats_A m) (hin := hin m) (hout := hout m)

/-- THE FRAME: the program leaves its input buffer as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (dats_A m) (run_main m ρ)

end Cert.KernelIdeal.Hand

end
-- ==== Proof.KI.Odd.lean ====
/-
  The frame of the kernel program, third part: what an odd point writes back, as payloads of the input blocks.

  Each buffer's contents after a point are the pieces the body's run stored, read back; every store of the body
  is a whole store, so the last piece is the contents. Unfolding the two cases: after the even point (b, 0) a
  scratch holds (zero + the first half's contribution); after the odd point (b, 1) it holds that plus the second
  half's contribution, and the result window holds the scratch as one block of the result array.
-/
import proofs.«150883_j91319594647822_1_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the pieces are: each buffer's contents as a payload of the blocks -/

theorem zoff2 : (![0, 0] : Fin 2 → Nat) = fun _ => 0 := by funext a; fin_cases a <;> rfl
theorem zoff3 : (![0, 0, 0] : Fin 3 → Nat) = fun _ => 0 := by funext a; fin_cases a <;> rfl

/-- After an even point the first scratch holds zero plus the block's sums of products. -/
theorem soutA_0_eq (c : Dev nD) (t : Fin cfg0.N) (h : t.val % 2 = 0) (x0 : Vec F S1x128x8192 .f32) :
    soutA_0 c t h x0 = k0_pay4 x0 (k0_pay1 (F := F)) := by
  unfold soutA_0
  rw [View.read_writes_eq_canon _ _ _ (scoverA_0 c t h x0)]
  unfold runA kernelRun0_A
  dsimp only
  sl_unfold_words
  rw [View.canon_cons_unit_zero (S := S128x128) zoff2, View.readCov_unit_zero (S := S128x128) _ zoff2]
  simp only [View.readAt_eq_ld, Memref.IsWhole.read_unread, View.ld_unit_zero (S := S1x128x8192) zoff3]

/-- After an even point the second scratch holds zero plus the block's row sums. -/
theorem soutA_1_eq (c : Dev nD) (t : Fin cfg0.N) (h : t.val % 2 = 0) (x0 : Vec F S1x128x8192 .f32) :
    soutA_1 c t h x0 = k0_pay5 x0 (k0_pay2 (F := F)) := by
  unfold soutA_1
  rw [View.read_writes_eq_canon _ _ _ (scoverA_1 c t h x0)]
  unfold runA kernelRun0_A
  dsimp only
  sl_unfold_words
  rw [View.canon_cons_unit_zero (S := S128x1) zoff2, View.readCov_unit_zero (S := S128x1) _ zoff2]
  simp only [View.readAt_eq_ld, Memref.IsWhole.read_unread, View.ld_unit_zero (S := S1x128x8192) zoff3]

/-- After an odd point the first scratch holds what it held plus the block's sums of products. -/
theorem soutB_0_eq (c : Dev nD) (t : Fin cfg0.N) (h : ¬t.val % 2 = 0) (x0 : Vec F S1x128x8192 .f32)
    (xs0 : Vec F S128x128 .f32) (xs1 : Vec F S128x1 .f32) :
    soutB_0 c t h x0 xs0 xs1 = k0_pay4 x0 xs0 := by
  unfold soutB_0
  rw [View.read_writes_eq_canon _ _ _ (scoverB_0 c t h x0 xs0 xs1)]
  unfold runB kernelRun0_B
  dsimp only
  sl_unfold_words
  rw [View.canon_unit_zero (S := S128x128) zoff2]
  simp only [View.readAt_eq_ld, Memref.IsWhole.read_unread, View.ld_unit_zero (S := S1x128x8192) zoff3, View.ld_unit_zero (S := S128x128) zoff2]
  exact congrArg (k0_pay4 x0) (Memref.IsWhole.read_unread _ xs0)

/-- After an odd point the second scratch holds what it held plus the block's row sums. -/
theorem soutB_1_eq (c : Dev nD) (t : Fin cfg0.N) (h : ¬t.val % 2 = 0) (x0 : Vec F S1x128x8192 .f32)
    (xs0 : Vec F S128x128 .f32) (xs1 : Vec F S128x1 .f32) :
    soutB_1 c t h x0 xs0 xs1 = k0_pay5 x0 xs1 := by
  unfold soutB_1
  rw [View.read_writes_eq_canon _ _ _ (scoverB_1 c t h x0 xs0 xs1)]
  unfold runB kernelRun0_B
  dsimp only
  sl_unfold_words
  rw [View.canon_unit_zero (S := S128x1) zoff2]
  simp only [View.readAt_eq_ld, Memref.IsWhole.read_unread, View.ld_unit_zero (S := S1x128x8192) zoff3, View.ld_unit_zero (S := S128x1) zoff2]
  exact congrArg (k0_pay5 x0) (Memref.IsWhole.read_unread _ xs1)

/-- After an odd point the first result window holds the first scratch, updated, as one block of the result. -/
theorem outB_1_eq (c : Dev nD) (t : Fin cfg0.N) (h : ¬t.val % 2 = 0) (x0 : Vec F S1x128x8192 .f32)
    (xs0 : Vec F S128x128 .f32) (xs1 : Vec F S128x1 .f32) :
    outB_1 c t h x0 xs0 xs1 = k0_pay6 (k0_pay4 x0 xs0) := by
  unfold outB_1
  rw [View.read_writes_eq_canon _ _ _ (coverB_1 c t h x0 xs0 xs1)]
  unfold runB kernelRun0_B
  dsimp only
  sl_unfold_words
  rw [View.canon_unit_zero (S := S1x128x128) zoff3, View.readCov_unit_zero (S := S128x128) _ zoff2]
  simp only [View.readAt_eq_ld, Memref.IsWhole.read_unread, View.ld_unit_zero (S := S1x128x8192) zoff3, View.ld_unit_zero (S := S128x128) zoff2]
  exact congrArg (fun z => k0_pay6 (k0_pay4 x0 z)) (Memref.IsWhole.read_unread _ xs0)

/-- After an odd point the second result window holds the second scratch, updated, as one block of the result. -/
theorem outB_2_eq (c : Dev nD) (t : Fin cfg0.N) (h : ¬t.val % 2 = 0) (x0 : Vec F S1x128x8192 .f32)
    (xs0 : Vec F S128x128 .f32) (xs1 : Vec F S128x1 .f32) :
    outB_2 c t h x0 xs0 xs1 = k0_pay7 (k0_pay5 x0 xs1) := by
  unfold outB_2
  rw [View.read_writes_eq_canon _ _ _ (coverB_2 c t h x0 xs0 xs1)]
  unfold runB kernelRun0_B
  dsimp only
  sl_unfold_words
  rw [View.canon_unit_zero (S := S1x128x1) zoff3, View.readCov_unit_zero (S := S128x1) _ zoff2]
  simp only [View.readAt_eq_ld, Memref.IsWhole.read_unread, View.ld_unit_zero (S := S1x128x8192) zoff3, View.ld_unit_zero (S := S128x1) zoff2]
  exact congrArg (fun z => k0_pay7 (k0_pay5 x0 z)) (Memref.IsWhole.read_unread _ xs1)

/-! ## What an odd point writes back -/

/-- The point before an odd point. -/
abbrev prevPt (t : Fin cfg0.N) : Fin cfg0.N := ⟨t.val - 1, Nat.lt_of_le_of_lt (Nat.sub_le _ _) t.isLt⟩

/-- After an even point the scratches hold the first half's contribution over zero. -/
theorem scr0_even (c : Dev nD) (t : Fin cfg0.N) (h : t.val % 2 = 0) :
    (outsAt0 m c t.val t.isLt).2.2.1 = k0_pay4 (iblk m c 0 t) (k0_pay1 (F := F)) := by
  rw [outsAt0_A m c t h]; unfold tupA; dsimp only
  exact soutA_0_eq c t h (iblk m c 0 t)
theorem scr1_even (c : Dev nD) (t : Fin cfg0.N) (h : t.val % 2 = 0) :
    (outsAt0 m c t.val t.isLt).2.2.2 = k0_pay5 (iblk m c 0 t) (k0_pay2 (F := F)) := by
  rw [outsAt0_A m c t h]; unfold tupA; dsimp only
  exact soutA_1_eq c t h (iblk m c 0 t)

/-- What an odd point t = (b, 1) writes back in window 1: zero, plus the sums of products of the first half of
    batch b's rows (the block at t - 1), plus those of the second half (the block at t), as one block of the
    result. -/
theorem after1_odd (c : Dev nD) (t : Fin cfg0.N) (h : t.val % 2 = 1) :
    (dats m 0 c).after 1 t
      = k0_pay6 (k0_pay4 (iblk m c 0 t) (k0_pay4 (iblk m c 0 (prevPt t)) (k0_pay1 (F := F)))) := by
  have h0 : ¬t.val % 2 = 0 := by omega
  have h' : (prevPt t).val % 2 = 0 := by show (t.val - 1) % 2 = 0; omega
  rw [after0_1, outsAt0_B m c t h0]; unfold tupB; dsimp only
  rw [outB_1_eq c t h0 (iblk m c 0 t)]
  exact congrArg (fun z => k0_pay6 (k0_pay4 (iblk m c 0 t) z)) (scr0_even m c (prevPt t) h')

/-- What an odd point writes back in window 2: zero, plus the row sums of the first half, plus those of the
    second half, as one block of the result. -/
theorem after2_odd (c : Dev nD) (t : Fin cfg0.N) (h : t.val % 2 = 1) :
    (dats m 0 c).after 2 t
      = k0_pay7 (k0_pay5 (iblk m c 0 t) (k0_pay5 (iblk m c 0 (prevPt t)) (k0_pay2 (F := F)))) := by
  have h0 : ¬t.val % 2 = 0 := by omega
  have h' : (prevPt t).val % 2 = 0 := by show (t.val - 1) % 2 = 0; omega
  rw [after0_2, outsAt0_B m c t h0]; unfold tupB; dsimp only
  rw [outB_2_eq c t h0 (iblk m c 0 t)]
  exact congrArg (fun z => k0_pay7 (k0_pay5 (iblk m c 0 t) z)) (scr1_even m c (prevPt t) h')

end Cert.KernelIdeal.Hand

end
-- ==== Proof.KPay.lean ====
/-
  The arithmetic of one grid step of the covariance kernel, read one entry at a time over the extended reals.

  A step sees a block `X` of one batch: 128 channels by 8192 pixels, carried with a leading axis of extent one. It
  holds two accumulators, a 128 × 128 matrix of second moments and a 128 × 1 column of sums. At the first
  block of a batch both are reset to zero. At every block the matrix gains `X · Xᵀ`, whose entry `(c, d)` is
  `∑ₖ X c k · X d k`, and the column gains the row sums `∑ₖ X c k`. At the last block both accumulators are
  written out under a leading axis of extent one. The narrowing of `X` to a shorter format before the product
  changes nothing over the extended reals, where every format holds the same numbers.
-/
import proofs.«150883_j91319594647822_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The reset values -/

/-- The matrix accumulator is reset to zero at every entry. -/
theorem pay1_apply (c d : Fin 128) : (k0_pay1 (F := Ideal)) (ix2 c d) = 0 := by
  unfold k0_pay1
  rw [shapeCast_self]
  exact Ideal.ofBits_zero_f32

/-- The column accumulator is reset to zero at every entry. -/
theorem pay2_apply (c : Fin 128) : (k0_pay2 (F := Ideal)) (ix2 c (0 : Fin 1)) = 0 := by
  unfold k0_pay2
  rw [shapeCast_self]
  exact Ideal.ofBits_zero_f32

/-! ## The block as a matrix -/

/-- The block with its leading unit axis dropped: entry `(c, k)` of the matrix is entry `(0, c, k)` of the block. -/
theorem pay3_apply (v3 : FVec Ideal S1x128x8192 .f32) (c : Fin 128) (k : Fin 8192) :
    k0_pay3 v3 (ix2 c k) = v3 (ix3 (0 : Fin 1) c k) :=
  shapeCast_1ab_ab_apply v3 _ c k

/-! ## The row sums -/

/-- A vector of `a` numbers laid out as an `a × 1` column reads, at `(i, u)`, the vector at `i`: both sit at
row-major position `i`, since `i · 1 + u = i` when `u < 1`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of a 128 × 8192 matrix along its second axis is, at row `c`, `∑ₖ src c k`: the index of the matrix
over row `c` with `k` put on the summed axis is `(c, k)`. -/
theorem rowSum_apply (src : FVec Ideal S128x8192 .f32) (hφ : FKind.Formats .f32)
    (hacc : (0x00000000#32 : BitVec 32) = 0x00000000#32) (c : Fin 128) :
    multiReduction (F := Ideal) .add [1] S128 src 0x00000000#32 reduces_S128x8192_S128 hφ hacc (ix1 c)
      = ∑ k : Fin 8192, src (ix2 c k) := by
  refine (Ideal.multiReduction_add_single src 0x00000000#32 reduces_S128x8192_S128 hφ hacc (ix1 c)).trans ?_
  refine Finset.sum_congr rfl fun k _ => congrArg src ?_
  funext a
  apply Fin.ext
  match a with
  | ⟨0, _⟩ => rfl
  | ⟨1, _⟩ => rfl

/-- The column accumulator after a step: its old entry plus the sum of the block's row `c`. -/
theorem pay5_apply (v3 : FVec Ideal S1x128x8192 .f32) (v12 : FVec Ideal S128x1 .f32) (c : Fin 128) :
    k0_pay5 v3 v12 (ix2 c (0 : Fin 1))
      = v12 (ix2 c (0 : Fin 1)) + ∑ k : Fin 8192, v3 (ix3 (0 : Fin 1) c k) := by
  unfold k0_pay5
  rw [shapeCast_self]
  refine (addf_apply _ _ _).trans ?_
  rw [shapeCast_a_a1_apply, rowSum_apply]
  exact congrArg (v12 (ix2 c 0) + ·) (Finset.sum_congr rfl fun k _ => pay3_apply v3 c k)

/-! ## The product of the block with its transpose

The product contracts the second axis of both factors and keeps the first axis of each: at the result's entry
`i = (c, d)` and contraction position `q`, the left factor is read at `(c, q)` and the right factor at `(d, q)`.
The four coordinates, one at a time. -/

/-- Left factor, kept axis: the result's first coordinate. -/
theorem lhs_axis0 (i : S128x128.Idx) (q : dot_S128x8192_S128x8192_S128x128_1_1_0_0_n_n.contr.Idx) :
    (dot_S128x8192_S128x8192_S128x128_1_1_0_0_n_n.lhsIdx i q 0).val = (i 0).val := by
  unfold DotDims.lhsIdx
  rw [dif_neg (show ¬(0 : Fin S128x8192.rank) ∈ dot_S128x8192_S128x8192_S128x128_1_1_0_0_n_n.lhsBatch by decide),
    dif_pos (show (0 : Fin S128x8192.rank) ∈ dot_S128x8192_S128x8192_S128x128_1_1_0_0_n_n.lhsNonContracting by decide)]
  rfl

/-- Left factor, contracted axis: the contraction position. -/
theorem lhs_axis1 (i : S128x128.Idx) (q : dot_S128x8192_S128x8192_S128x128_1_1_0_0_n_n.contr.Idx) :
    (dot_S128x8192_S128x8192_S128x128_1_1_0_0_n_n.lhsIdx i q 1).val = (q ⟨0, by decide⟩).val :=
  dot_S128x8192_S128x8192_S128x128_1_1_0_0_n_n.lhsIdx_val_of_single rfl i q

/-- Right factor, kept axis: the result's second coordinate. -/
theorem rhs_axis0 (i : S128x128.Idx) (q : dot_S128x8192_S128x8192_S128x128_1_1_0_0_n_n.contr.Idx) :
    (dot_S128x8192_S128x8192_S128x128_1_1_0_0_n_n.rhsIdx i q 0).val = (i 1).val := by
  unfold DotDims.rhsIdx
  rw [dif_neg (show ¬(0 : Fin S128x8192.rank) ∈ dot_S128x8192_S128x8192_S128x128_1_1_0_0_n_n.rhsBatch by decide),
    dif_pos (show (0 : Fin S128x8192.rank) ∈ dot_S128x8192_S128x8192_S128x128_1_1_0_0_n_n.rhsNonContracting by decide)]
  rfl

/-- Right factor, contracted axis: the contraction position. -/
theorem rhs_axis1 (i : S128x128.Idx) (q : dot_S128x8192_S128x8192_S128x128_1_1_0_0_n_n.contr.Idx) :
    (dot_S128x8192_S128x8192_S128x128_1_1_0_0_n_n.rhsIdx i q 1).val = (q ⟨0, by decide⟩).val :=
  dot_S128x8192_S128x8192_S128x128_1_1_0_0_n_n.rhsIdx_val_of_single rfl i q

/-- The product of a 128 × 8192 matrix with its own transpose, started from zero: entry `(c, d)` is
`∑ₖ x c k · x d k`. The contraction positions are the 8192 columns; under that bijection the left factor is read at
`(c, k)` and the right factor at `(d, k)`. -/
theorem gram_apply (x : FVec Ideal S128x8192 .bf16) (c d : Fin 128) :
    matmul dot_S128x8192_S128x8192_S128x128_1_1_0_0_n_n none x x
        (constant (F := Ideal) S128x128 .f32 0x00000000#32) (ix2 c d)
      = ∑ k : Fin 8192, x (ix2 c k) * x (ix2 d k) := by
  simp only [matmul]
  rw [Ideal.matmul_constant_zero_apply,
    ← Equiv.sum_comp (contrEquiv1 dot_S128x8192_S128x8192_S128x128_1_1_0_0_n_n 8192 rfl rfl).symm]
  refine Finset.sum_congr rfl fun k _ => ?_
  have hk := contrEquiv1_symm_val dot_S128x8192_S128x8192_S128x128_1_1_0_0_n_n 8192 rfl rfl k
  have el : dot_S128x8192_S128x8192_S128x128_1_1_0_0_n_n.lhsIdx (ix2 c d)
      ((contrEquiv1 dot_S128x8192_S128x8192_S128x128_1_1_0_0_n_n 8192 rfl rfl).symm k) = ix2 c k :=
    funext fun a => Fin.ext (by
      match a with
      | ⟨0, _⟩ => exact lhs_axis0 _ _
      | ⟨1, _⟩ => exact (lhs_axis1 _ _).trans hk)
  have er : dot_S128x8192_S128x8192_S128x128_1_1_0_0_n_n.rhsIdx (ix2 c d)
      ((contrEquiv1 dot_S128x8192_S128x8192_S128x128_1_1_0_0_n_n 8192 rfl rfl).symm k) = ix2 d k :=
    funext fun a => Fin.ext (by
      match a with
      | ⟨0, _⟩ => exact rhs_axis0 _ _
      | ⟨1, _⟩ => exact (rhs_axis1 _ _).trans hk)
  rw [el, er]

/-- The matrix accumulator after a step: its old entry `(c, d)` plus `∑ₖ X c k · X d k` over the block's columns. -/
theorem pay4_apply (v3 : FVec Ideal S1x128x8192 .f32) (v7 : FVec Ideal S128x128 .f32) (c d : Fin 128) :
    k0_pay4 v3 v7 (ix2 c d)
      = v7 (ix2 c d) + ∑ k : Fin 8192, v3 (ix3 (0 : Fin 1) c k) * v3 (ix3 (0 : Fin 1) d k) := by
  unfold k0_pay4
  rw [shapeCast_self]
  refine (addf_apply _ _ _).trans ?_
  rw [gram_apply]
  refine congrArg (v7 (ix2 c d) + ·) (Finset.sum_congr rfl fun k _ => ?_)
  rw [truncf_apply, truncf_apply, pay3_apply, pay3_apply]

/-! ## Writing the accumulators out -/

/-- The matrix accumulator under a leading unit axis: entry `(0, c, d)` is the accumulator's `(c, d)`. -/
theorem pay6_apply (v22 : FVec Ideal S128x128 .f32) (c d : Fin 128) :
    k0_pay6 v22 (ix3 (0 : Fin 1) c d) = v22 (ix2 c d) :=
  shapeCast_ab_1ab_apply v22 _ 0 c d

/-- The column accumulator under a leading unit axis: entry `(0, c, 0)` is the accumulator's `(c, 0)`. -/
theorem pay7_apply (v26 : FVec Ideal S128x1 .f32) (c : Fin 128) :
    k0_pay7 v26 (ix3 (0 : Fin 1) c (0 : Fin 1)) = v26 (ix2 c (0 : Fin 1)) :=
  shapeCast_ab_1ab_apply v26 _ 0 c 0

end Cert.KernelIdeal.Pay

end
-- ==== Proof.Spec.lean ====
/-
  The mathematics both programs compute, stated once over the extended reals.

  For a batch `b` and a channel `c` the `16384 = 128 · 128` pixels of the input form a row; position `n` of
  the row is pixel `(n / 128, n % 128)`. The kernel accumulates the raw second moments `∑ₙ x_c(n) · x_d(n)` and
  the raw sums `∑ₙ x_c(n)`, and forms the covariance as `E[x_c x_d] − E[x_c] · E[x_d]`; the reference centres
  each row first and forms `E[(x_c − E x_c)(x_d − E x_d)]`. Over the reals the two are one number.
-/
import Idealize.ShloMosaic.PureOps.Ideal
import Idealize.ShloMosaic.Lib.ValueIdx

noncomputable section

open scoped BigOperators

namespace Cert.Spec

open Idealize.ShloMosaic Idealize.ShloMosaic.ValueIdx

/-- The input's shape `[16, 128, 128, 128]` (batch, channel, height, width). -/
abbrev SX : Shape := ⟨4, ![16, 128, 128, 128]⟩

/-- The number of pixels of one channel, as an extended real. -/
def nE : EReal := ((16384 : ℝ) : EReal)

/-- Channel `c` of batch `b` as a row over its pixels: position `n` is pixel `(n / 128, n % 128)`. -/
def row (x : SX.Idx → EReal) (b : Fin 16) (c : Fin 128) (n : Fin 16384) : EReal :=
  x (ix4 b c (⟨n.val / 128, by omega⟩ : Fin 128) (⟨n.val % 128, by omega⟩ : Fin 128))

/-- The covariance entry as the kernel forms it: mean of products minus product of means. -/
def covK (x : SX.Idx → EReal) (b : Fin 16) (c d : Fin 128) : EReal :=
  Ideal.div (∑ n : Fin 16384, row x b c n * row x b d n) nE
    - Ideal.div (∑ n : Fin 16384, row x b c n) nE * Ideal.div (∑ n : Fin 16384, row x b d n) nE

/-- The covariance entry as the reference forms it: mean of products of the centred rows. -/
def covR (x : SX.Idx → EReal) (b : Fin 16) (c d : Fin 128) : EReal :=
  Ideal.div (∑ n : Fin 16384,
      (row x b c n - Ideal.div (∑ k : Fin 16384, row x b c k) nE)
        * (row x b d n - Ideal.div (∑ k : Fin 16384, row x b d k) nE)) nE

end Cert.Spec

end
-- ==== Proof.CovMath.lean ====
/-
  The real algebra behind the two covariance formulas, and two small facts about the row of pixels.

  For rows `f g` of `N = 16384` reals with means `μ_f = (∑ f) / N` and `μ_g = (∑ g) / N`,

      (∑ₙ (f n − μ_f) · (g n − μ_g)) / N  =  (∑ₙ f n · g n) / N  −  μ_f · μ_g.

  The extended reals are not a ring at the infinities, so the identity is proved over the reals and only
  equalities between coerced reals are carried across; the input's finiteness supplies the real witnesses.
-/
import Mathlib.Data.EReal.Basic
import Mathlib.Data.EReal.Operations
import Mathlib.Data.EReal.Inv
import Mathlib.Algebra.BigOperators.Fin
import Mathlib.Algebra.BigOperators.Ring.Finset
import Mathlib.Tactic.Ring
import Mathlib.Tactic.NormNum
import Idealize.ShloMosaic.PureOps.Ideal
import proofs.«150883_j91319594647822_1_alg».proof.Proof.Spec

noncomputable section

open scoped BigOperators

namespace Cert.CovMath

open Idealize.ShloMosaic Idealize.ShloMosaic.ValueIdx

/-- The coercion of the reals into the extended reals carries a finite sum to the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The covariance identity over the reals, with each division by `N = 16384` written as the product with
    `1 / N`: expanding `(f n − a)(g n − b)` and summing, the two cross terms and the constant term collapse to
    `− (∑ f)(∑ g) / N` because `a = (∑ f) / N`, `b = (∑ g) / N` and the constant is summed `N` times. -/
theorem real_cov (f g : Fin 16384 → ℝ) :
    (∑ n, (f n - (∑ k, f k) * (1 / 16384)) * (g n - (∑ k, g k) * (1 / 16384))) * (1 / 16384)
      = (∑ n, f n * g n) * (1 / 16384)
          - ((∑ n, f n) * (1 / 16384)) * ((∑ n, g n) * (1 / 16384)) := by
  have hexp : ∀ n, (f n - (∑ k, f k) * (1 / 16384)) * (g n - (∑ k, g k) * (1 / 16384))
      = f n * g n - ((∑ k, f k) * (1 / 16384)) * g n - f n * ((∑ k, g k) * (1 / 16384))
          + ((∑ k, f k) * (1 / 16384)) * ((∑ k, g k) * (1 / 16384)) := fun n => by ring
  simp_rw [hexp]
  rw [Finset.sum_add_distrib, Finset.sum_sub_distrib, Finset.sum_sub_distrib, ← Finset.mul_sum,
    ← Finset.sum_mul, Finset.sum_const, Finset.card_univ, Fintype.card_fin, nsmul_eq_mul]
  push_cast
  ring

/-- The two covariance formulas agree on a finite input. -/
theorem covK_eq_covR (x : Cert.Spec.SX.Idx → EReal) (hfin : ∀ i, ∃ r : ℝ, x i = (r : EReal))
    (b : Fin 16) (c d : Fin 128) : Cert.Spec.covK x b c d = Cert.Spec.covR x b c d := by
  choose r hr using hfin
  -- the two rows as rows of reals
  let f : Fin 16384 → ℝ := fun n =>
    r (ix4 b c (⟨n.val / 128, by omega⟩ : Fin 128) (⟨n.val % 128, by omega⟩ : Fin 128))
  let g : Fin 16384 → ℝ := fun n =>
    r (ix4 b d (⟨n.val / 128, by omega⟩ : Fin 128) (⟨n.val % 128, by omega⟩ : Fin 128))
  have hf : ∀ n, Cert.Spec.row x b c n = (f n : EReal) := fun n => hr _
  have hg : ∀ n, Cert.Spec.row x b d n = (g n : EReal) := fun n => hr _
  have hN : (16384 : ℝ) ≠ 0 := by norm_num
  unfold Cert.Spec.covK Cert.Spec.covR Cert.Spec.nE
  simp only [hf, hg, Ideal.div_coe hN]
  -- every sum, product and difference is now one of coerced reals: gather each side into one coercion
  simp only [← EReal.coe_mul, ← coe_sum, ← EReal.coe_sub]
  exact congrArg _ (real_cov f g).symm

/-- A row's sum is the sum over its first half plus the sum over its second half. -/
theorem sum_halves (f : Fin 16384 → EReal) :
    ∑ n : Fin 16384, f n
      = (∑ k : Fin 8192, f ⟨k.val, by omega⟩) + ∑ k : Fin 8192, f ⟨8192 + k.val, by omega⟩ :=
  Fin.sum_univ_add (a := 8192) (b := 8192) f

/-- The single-precision word `0x46800000` (sign `0`, exponent field `141`, significand field `0`) denotes
    `2 ^ 23 · 2 ^ (141 − 127 − 23) = 2 ^ 14 = 16384`. -/
theorem nE_eq : Ideal.ofBits .f32 0x46800000#32 = Cert.Spec.nE := by
  simp [Ideal.ofBits, Ideal.ieee, -EReal.coe_mul, Cert.Spec.nE]; norm_num

end Cert.CovMath

end
-- ==== Proof.KArr.lean ====
/-
  From the blocks the kernel writes back to its two result arrays, entry by entry.

  The region runs over 32 points `t = 2 b + j` (batch `b < 16`, half `j < 2`). At point `t` the input window holds
  the block `(b, 0, j)` of the `[16, 128, 16384]` array of rows: the `128 × 8192` columns `j · 8192 …` of batch
  `b`. The even point `2 b` starts two accumulators from zero and adds its half-rows' contribution; the odd point
  `2 b + 1` adds the other half's and writes the accumulators back to block `(b, 0, 0)` of the result arrays
  `[16, 128, 128]` and `[16, 128, 1]`. A sum over the `16384` positions of a row is the sum over its first
  `8192` plus the sum over its last `8192`, so what is written back is
  `S[b, c, d] = ∑ₙ x_c(n) · x_d(n)` and `s[b, c, 0] = ∑ₙ x_c(n)`; the sixteen odd points' blocks tile each array.

  What an odd point leaves in an output window is taken here as a hypothesis, in the form of the body's payload
  terms over the two input blocks.
-/
import proofs.«150883_j91319594647822_1_alg».proof.Proof.Gen.KernelIdeal.Launch
import proofs.«150883_j91319594647822_1_alg».proof.Proof.Gen.KernelIdeal.Points
import proofs.«150883_j91319594647822_1_alg».proof.Proof.Gen.KernelIdeal.Skeleton
import proofs.«150883_j91319594647822_1_alg».proof.Proof.KPay
import proofs.«150883_j91319594647822_1_alg».proof.Proof.CovMath
import proofs.«150883_j91319594647822_1_alg».proof.Proof.Spec
import Idealize.ShloMosaic.Lib.Pipeline.Value
import Idealize.ShloMosaic.Lib.Pipeline.FrameBody

noncomputable section

open scoped BigOperators

namespace Cert.KernelIdeal.Hand.Arr

open Cert.KernelIdeal Cert.KernelIdeal.Gen Cert.KernelIdeal.Pay Idealize.ShloMosaic Idealize.ShloMosaic.ValueIdx
open Idealize.ShloMosaic.TcCoe Idealize.SL.Sem

section Generic
variable {F : FTy → Type} [FloatOps F]

/-- Window 0's block at point `t`, read off the contents `X` of its array: the `128 × 8192` half-rows of
    batch `t / 2`, columns `(t % 2) · 8192 …`. -/
def blk0 {c : Dev nD} (X : Buf (Elt F) (((cfg0.win 0).arr.view.loc (c.tc : Thread nD τ)))) (t : Fin cfg0.N) :
    ((cfg0.win 0).xblock (cfg0.grid.coords t)).Idx → Elt F (cfg0.win 0).elt :=
  ((cfg0.win 0).blk t).view.read (Elt F) X

end Generic

/-- The host reshape `[16, 128, 128, 128] → [16, 128, 16384]` flattens a channel's pixels into a row: entry
    `(b, c, n)` is pixel `(n / 128, n % 128)` of channel `c` of batch `b`; both sit at the same row-major position. -/
theorem reshape_row (x : FVec Ideal S16x128x128x128 .f32) (h : S16x128x128x128.ShapeCasts S16x128x16384)
    (b : Fin 16) (c : Fin 128) (n : Fin 16384) :
    shapeCast S16x128x16384 x h (ix3 b c n) = Cert.Spec.row x b c n := by
  unfold Cert.Spec.row
  refine shapeCast_apply x h _ _ ?_
  rw [Shape.rowMajor_val_four, Shape.rowMajor_val_three]
  show ((b.val * 128 + c.val) * 128 + n.val / 128) * 128 + n.val % 128 = (b.val * 128 + c.val) * 16384 + n.val
  omega

/-- The input window's block index at point `t = 2 b + j` is `(b, 0, j)`. -/
theorem idx0 : ∀ t : Fin cfg0.N, win0_0.index t (0 : Fin 3) = t.val / 2 ∧ win0_0.index t (1 : Fin 3) = 0
    ∧ win0_0.index t (2 : Fin 3) = t.val % 2 :=
  (by decide +kernel : ∀ t : Fin grid0.N, _)

/-- Entry `(0, c, k)` of the input block at point `t` is position `(t % 2) · 8192 + k` of the row of channel `c`
    of batch `t / 2`: a block's coordinate in the array is block index × block size + the coordinate inside the block. -/
theorem blk0_at {c : Dev nD} (X : Buf (Elt Ideal) (((cfg0.win 0).arr.view.loc (c.tc : Thread nD τ))))
    (x : FVec Ideal S16x128x128x128 .f32)
    (hX : X = shapeCast S16x128x16384 x shapeCasts_S16x128x128x128_S16x128x16384)
    (t : Fin cfg0.N) (cc : Fin 128) (k : Fin 8192) (b : Fin 16) (n : Fin 16384)
    (hb : b.val = t.val / 2) (hn : n.val = (t.val % 2) * 8192 + k.val) :
    blk0 X t (ix3 (0 : Fin 1) cc k) = Cert.Spec.row x b cc n := by
  unfold blk0
  rw [View.read_apply]
  obtain ⟨h0, h1, h2⟩ := idx0 t
  have he : ((cfg0.win 0).blk t).view.emb (ix3 (0 : Fin 1) cc k) = ix3 b cc n := by
    funext a
    apply Fin.ext
    match a with
    | ⟨0, _⟩ => show win0_0.index t (0 : Fin 3) * 1 + 1 * 0 = b.val; rw [h0, hb]; omega
    | ⟨1, _⟩ => show win0_0.index t (1 : Fin 3) * 128 + 1 * cc.val = cc.val; rw [h1]; omega
    | ⟨2, _⟩ => show win0_0.index t (2 : Fin 3) * 8192 + 1 * k.val = n.val; rw [h2, hn]; omega
  show X (((cfg0.win 0).blk t).view.emb (ix3 (0 : Fin 1) cc k)) = _
  rw [he, hX]
  exact reshape_row x _ b cc n

/-- The same, with the batch and the position written out from the point. -/
theorem blk0_apply {c : Dev nD} (X : Buf (Elt Ideal) (((cfg0.win 0).arr.view.loc (c.tc : Thread nD τ))))
    (x : FVec Ideal S16x128x128x128 .f32)
    (hX : X = shapeCast S16x128x16384 x shapeCasts_S16x128x128x128_S16x128x16384)
    (t : Fin cfg0.N) (cc : Fin 128) (k : Fin 8192) :
    blk0 X t (ix3 (0 : Fin 1) cc k)
      = Cert.Spec.row x ⟨t.val / 2, by have := t.isLt; have : cfg0.N = 32 := rfl; omega⟩ cc
          ⟨(t.val % 2) * 8192 + k.val, by have := k.isLt; omega⟩ :=
  blk0_at X x hX t cc k _ _ rfl rfl

/-! ## The second moments -/

/-- The raw second moment of channels `c` and `d` of batch `b`: `∑ₙ x_c(n) · x_d(n)` over the pixels. -/
def moment (x : FVec Ideal S16x128x128x128 .f32) (b : Fin 16) (c d : Fin 128) : EReal :=
  ∑ n : Fin 16384, Cert.Spec.row x b c n * Cert.Spec.row x b d n

/-- The array of all second moments, as one function of the input. -/
def G1 (x : FVec Ideal S16x128x128x128 .f32) : FVec Ideal S16x128x128 .f32 :=
  fun i => moment x (i 0 : Fin 16) (i 1 : Fin 128) (i 2 : Fin 128)

/-- The array of second moments at an index written by coordinates. -/
theorem G1_apply (x : FVec Ideal S16x128x128x128 .f32) (b : Fin 16) (c d : Fin 128) :
    G1 x (ix3 b c d) = moment x b c d := rfl

/-- The first output window's block index at point `t = 2 b + j` is `(b, 0, 0)`. -/
theorem idx1 : ∀ t : Fin cfg0.N, win0_1.index t (0 : Fin 3) = t.val / 2 ∧ win0_1.index t (1 : Fin 3) = 0
    ∧ win0_1.index t (2 : Fin 3) = 0 :=
  (by decide +kernel : ∀ t : Fin grid0.N, _)

/-- The first output window's block at point `t`, read off an array `G`: entry `(0, c, d)` is `G (t / 2, c, d)`. -/
theorem read_blk1 (G : FVec Ideal S16x128x128 .f32) (t : Fin cfg0.N) (b : Fin 16) (hb : b.val = t.val / 2) (cc d : Fin 128) :
    ((cfg0.win 1).blk t).view.read (Elt Ideal) G (ix3 (0 : Fin 1) cc d) = G (ix3 b cc d) := by
  rw [View.read_apply]
  obtain ⟨i0, i1, i2⟩ := idx1 t
  have he : ((cfg0.win 1).blk t).view.emb (ix3 (0 : Fin 1) cc d) = ix3 b cc d := by
    funext a
    apply Fin.ext
    match a with
    | ⟨0, _⟩ => show win0_1.index t (0 : Fin 3) * 1 + 1 * 0 = b.val; rw [i0, hb]; omega
    | ⟨1, _⟩ => show win0_1.index t (1 : Fin 3) * 128 + 1 * cc.val = cc.val; rw [i1]; omega
    | ⟨2, _⟩ => show win0_1.index t (2 : Fin 3) * 128 + 1 * d.val = d.val; rw [i2]; omega
  show G (((cfg0.win 1).blk t).view.emb (ix3 (0 : Fin 1) cc d)) = _
  rw [he]

/-- What an odd point writes back to the first result array is its block of the second moments: the two half-row
    products the accumulator gathered from zero are the row's product sum. -/
theorem flushed1_eq {c : Dev nD} (dat : Pipeline.Dat τ (Elt Ideal) Unit ℕ (UR sig nD τ) ℕ cfg0 c)
    (X : Buf (Elt Ideal) (((cfg0.win 0).arr.view.loc (c.tc : Thread nD τ))))
    (x : FVec Ideal S16x128x128x128 .f32)
    (hX : X = shapeCast S16x128x16384 x shapeCasts_S16x128x128x128_S16x128x16384)
    (h1 : ∀ (t : Fin cfg0.N) (ht : t.val % 2 = 1), dat.after 1 t
        = k0_pay6 (k0_pay4 (blk0 X t) (k0_pay4 (blk0 X ⟨t.val - 1, by have := t.isLt; omega⟩) (k0_pay1 (F := Ideal)))))
    (t : Fin cfg0.N) (hf : (cfg0.win 1).flush t = true) :
    dat.flushed 1 t = ((cfg0.win 1).blk t).view.read (Elt Ideal) (G1 x) := by
  have hodd : t.val % 2 = 1 := (flush0_1 t).mp hf
  have ht : t.val < 32 := t.isLt
  show (cfg0.win 1).cut (grid0.coords t) (dat.after 1 t) = _
  rw [h1 t hodd]
  funext j
  obtain ⟨u, cc, d, rfl⟩ : ∃ (u : Fin 1) (cc d : Fin 128), j = ix3 u cc d := ⟨j 0, j 1, j 2, eq_ix3 j⟩
  obtain rfl : u = 0 := Subsingleton.elim _ _
  show k0_pay6 (k0_pay4 (blk0 X t) (k0_pay4 (blk0 X ⟨t.val - 1, _⟩) (k0_pay1 (F := Ideal)))) (ix3 (0 : Fin 1) cc d) = _
  rw [pay6_apply, pay4_apply, pay4_apply, pay1_apply, zero_add,
    read_blk1 (G1 x) t ⟨t.val / 2, by omega⟩ rfl cc d, G1_apply]
  unfold moment
  -- the row's sum splits into its two halves: the even point's block, then the odd point's
  rw [Cert.CovMath.sum_halves]
  refine congrArg₂ (· + ·) (Finset.sum_congr rfl fun k _ => ?_) (Finset.sum_congr rfl fun k _ => ?_)
  · exact congrArg₂ (· * ·)
      (blk0_at X x hX _ cc k _ _ (by show t.val / 2 = (t.val - 1) / 2; omega)
        (by show k.val = ((t.val - 1) % 2) * 8192 + k.val; omega))
      (blk0_at X x hX _ d k _ _ (by show t.val / 2 = (t.val - 1) / 2; omega)
        (by show k.val = ((t.val - 1) % 2) * 8192 + k.val; omega))
  · exact congrArg₂ (· * ·)
      (blk0_at X x hX _ cc k _ _ rfl (by show 8192 + k.val = (t.val % 2) * 8192 + k.val; omega))
      (blk0_at X x hX _ d k _ _ rfl (by show 8192 + k.val = (t.val % 2) * 8192 + k.val; omega))

/-- Every entry `(b, c, d)` of the second-moment array lies in the block the odd point `2 b + 1` writes back. -/
theorem cover1 (i : S16x128x128.Idx) :
    ∃ t : Fin cfg0.N, (cfg0.win 1).flush t = true ∧ i ∈ ((cfg0.win 1).blk t).view.set := by
  obtain ⟨b, cc, d, rfl⟩ : ∃ (b : Fin 16) (cc d : Fin 128), i = ix3 b cc d := ⟨i 0, i 1, i 2, eq_ix3 i⟩
  have hb : b.val < 16 := b.isLt
  have hc : cc.val < 128 := cc.isLt
  have hd : d.val < 128 := d.isLt
  obtain ⟨t, htv⟩ : ∃ t : Fin cfg0.N, t.val = 2 * b.val + 1 := ⟨⟨2 * b.val + 1, by show _ < 32; omega⟩, rfl⟩
  refine ⟨t, (flush0_1 t).mpr (by omega), ?_⟩
  show ix3 b cc d ∈ ((View.whole main_v1_0).slice (win0_1.rect t)).set
  rw [View.set_slice_whole, Rect.mem_set_unit]
  obtain ⟨i0, i1, i2⟩ := idx1 t
  intro a
  match a with
  | ⟨0, _⟩ =>
    show win0_1.index t (0 : Fin 3) * 1 ≤ b.val ∧ b.val < win0_1.index t (0 : Fin 3) * 1 + 1
    rw [i0]; omega
  | ⟨1, _⟩ =>
    show win0_1.index t (1 : Fin 3) * 128 ≤ cc.val ∧ cc.val < win0_1.index t (1 : Fin 3) * 128 + 128
    rw [i1]; omega
  | ⟨2, _⟩ =>
    show win0_1.index t (2 : Fin 3) * 128 ≤ d.val ∧ d.val < win0_1.index t (2 : Fin 3) * 128 + 128
    rw [i2]; omega

/-- The first result array after the region: entry `(b, c, d)` is the raw second moment `∑ₙ x_c(n) · x_d(n)` of batch `b`. -/
theorem arr1_apply {c : Dev nD} (dat : Pipeline.Dat τ (Elt Ideal) Unit ℕ (UR sig nD τ) ℕ cfg0 c)
    (X : Buf (Elt Ideal) (((cfg0.win 0).arr.view.loc (c.tc : Thread nD τ))))
    (x : FVec Ideal S16x128x128x128 .f32)
    (hX : X = shapeCast S16x128x16384 x shapeCasts_S16x128x128x128_S16x128x16384)
    (h1 : ∀ (t : Fin cfg0.N) (ht : t.val % 2 = 1), dat.after 1 t
        = k0_pay6 (k0_pay4 (blk0 X t) (k0_pay4 (blk0 X ⟨t.val - 1, by have := t.isLt; omega⟩) (k0_pay1 (F := Ideal)))))
    (b : Fin 16) (cc d : Fin 128) :
    dat.arrAt 1 cfg0.N (ix3 b cc d) = ∑ n : Fin 16384, Cert.Spec.row x b cc n * Cert.Spec.row x b d n := by
  have hG : dat.arrAt 1 cfg0.N = G1 x :=
    dat.arrAt_eq_of_cover 1 (G1 x) (fun t hf => flushed1_eq dat X x hX h1 t hf) cover1
  exact (congrFun hG (ix3 b cc d)).trans (G1_apply x b cc d)

/-! ## The sums -/

/-- The raw sum of channel `c` of batch `b`: `∑ₙ x_c(n)` over the pixels. -/
def rowSum (x : FVec Ideal S16x128x128x128 .f32) (b : Fin 16) (c : Fin 128) : EReal :=
  ∑ n : Fin 16384, Cert.Spec.row x b c n

/-- The array of all row sums, as one function of the input (its last axis has the one coordinate `0`). -/
def G2 (x : FVec Ideal S16x128x128x128 .f32) : FVec Ideal S16x128x1 .f32 :=
  fun i => rowSum x (i 0 : Fin 16) (i 1 : Fin 128)

/-- The array of row sums at an index written by coordinates. -/
theorem G2_apply (x : FVec Ideal S16x128x128x128 .f32) (b : Fin 16) (c : Fin 128) (v : Fin 1) :
    G2 x (ix3 b c v) = rowSum x b c := rfl

/-- The second output window's block index at point `t = 2 b + j` is `(b, 0, 0)`. -/
theorem idx2 : ∀ t : Fin cfg0.N, win0_2.index t (0 : Fin 3) = t.val / 2 ∧ win0_2.index t (1 : Fin 3) = 0
    ∧ win0_2.index t (2 : Fin 3) = 0 :=
  (by decide +kernel : ∀ t : Fin grid0.N, _)

/-- The second output window's block at point `t`, read off an array `G`: entry `(0, c, 0)` is `G (t / 2, c, 0)`. -/
theorem read_blk2 (G : FVec Ideal S16x128x1 .f32) (t : Fin cfg0.N) (b : Fin 16) (hb : b.val = t.val / 2) (cc : Fin 128) :
    ((cfg0.win 2).blk t).view.read (Elt Ideal) G (ix3 (0 : Fin 1) cc (0 : Fin 1)) = G (ix3 b cc (0 : Fin 1)) := by
  rw [View.read_apply]
  obtain ⟨i0, i1, i2⟩ := idx2 t
  have he : ((cfg0.win 2).blk t).view.emb (ix3 (0 : Fin 1) cc (0 : Fin 1)) = ix3 b cc (0 : Fin 1) := by
    funext a
    apply Fin.ext
    match a with
    | ⟨0, _⟩ => show win0_2.index t (0 : Fin 3) * 1 + 1 * 0 = b.val; rw [i0, hb]; omega
    | ⟨1, _⟩ => show win0_2.index t (1 : Fin 3) * 128 + 1 * cc.val = cc.val; rw [i1]; omega
    | ⟨2, _⟩ => show win0_2.index t (2 : Fin 3) * 1 + 1 * 0 = 0; rw [i2]
  show G (((cfg0.win 2).blk t).view.emb (ix3 (0 : Fin 1) cc (0 : Fin 1))) = _
  rw [he]

/-- What an odd point writes back to the second result array is its block of the row sums: the two half-row sums
    the accumulator gathered from zero are the row's sum. -/
theorem flushed2_eq {c : Dev nD} (dat : Pipeline.Dat τ (Elt Ideal) Unit ℕ (UR sig nD τ) ℕ cfg0 c)
    (X : Buf (Elt Ideal) (((cfg0.win 0).arr.view.loc (c.tc : Thread nD τ))))
    (x : FVec Ideal S16x128x128x128 .f32)
    (hX : X = shapeCast S16x128x16384 x shapeCasts_S16x128x128x128_S16x128x16384)
    (h2 : ∀ (t : Fin cfg0.N) (ht : t.val % 2 = 1), dat.after 2 t
        = k0_pay7 (k0_pay5 (blk0 X t) (k0_pay5 (blk0 X ⟨t.val - 1, by have := t.isLt; omega⟩) (k0_pay2 (F := Ideal)))))
    (t : Fin cfg0.N) (hf : (cfg0.win 2).flush t = true) :
    dat.flushed 2 t = ((cfg0.win 2).blk t).view.read (Elt Ideal) (G2 x) := by
  have hodd : t.val % 2 = 1 := (flush0_2 t).mp hf
  have ht : t.val < 32 := t.isLt
  show (cfg0.win 2).cut (grid0.coords t) (dat.after 2 t) = _
  rw [h2 t hodd]
  funext j
  obtain ⟨u, cc, v, rfl⟩ : ∃ (u : Fin 1) (cc : Fin 128) (v : Fin 1), j = ix3 u cc v := ⟨j 0, j 1, j 2, eq_ix3 j⟩
  obtain rfl : u = 0 := Subsingleton.elim _ _
  obtain rfl : v = 0 := Subsingleton.elim _ _
  show k0_pay7 (k0_pay5 (blk0 X t) (k0_pay5 (blk0 X ⟨t.val - 1, _⟩) (k0_pay2 (F := Ideal))))
      (ix3 (0 : Fin 1) cc (0 : Fin 1)) = _
  rw [pay7_apply, pay5_apply, pay5_apply, pay2_apply, zero_add,
    read_blk2 (G2 x) t ⟨t.val / 2, by omega⟩ rfl cc, G2_apply]
  unfold rowSum
  rw [Cert.CovMath.sum_halves]
  refine congrArg₂ (· + ·) (Finset.sum_congr rfl fun k _ => ?_) (Finset.sum_congr rfl fun k _ => ?_)
  · exact blk0_at X x hX _ cc k _ _ (by show t.val / 2 = (t.val - 1) / 2; omega)
        (by show k.val = ((t.val - 1) % 2) * 8192 + k.val; omega)
  · exact blk0_at X x hX _ cc k _ _ rfl (by show 8192 + k.val = (t.val % 2) * 8192 + k.val; omega)

/-- Every entry `(b, c, 0)` of the row-sum array lies in the block the odd point `2 b + 1` writes back. -/
theorem cover2 (i : S16x128x1.Idx) :
    ∃ t : Fin cfg0.N, (cfg0.win 2).flush t = true ∧ i ∈ ((cfg0.win 2).blk t).view.set := by
  obtain ⟨b, cc, v, rfl⟩ : ∃ (b : Fin 16) (cc : Fin 128) (v : Fin 1), i = ix3 b cc v := ⟨i 0, i 1, i 2, eq_ix3 i⟩
  have hb : b.val < 16 := b.isLt
  have hc : cc.val < 128 := cc.isLt
  have hv : v.val < 1 := v.isLt
  obtain ⟨t, htv⟩ : ∃ t : Fin cfg0.N, t.val = 2 * b.val + 1 := ⟨⟨2 * b.val + 1, by show _ < 32; omega⟩, rfl⟩
  refine ⟨t, (flush0_2 t).mpr (by omega), ?_⟩
  show ix3 b cc v ∈ ((View.whole main_v1_1).slice (win0_2.rect t)).set
  rw [View.set_slice_whole, Rect.mem_set_unit]
  obtain ⟨i0, i1, i2⟩ := idx2 t
  intro a
  match a with
  | ⟨0, _⟩ =>
    show win0_2.index t (0 : Fin 3) * 1 ≤ b.val ∧ b.val < win0_2.index t (0 : Fin 3) * 1 + 1
    rw [i0]; omega
  | ⟨1, _⟩ =>
    show win0_2.index t (1 : Fin 3) * 128 ≤ cc.val ∧ cc.val < win0_2.index t (1 : Fin 3) * 128 + 128
    rw [i1]; omega
  | ⟨2, _⟩ =>
    show win0_2.index t (2 : Fin 3) * 1 ≤ v.val ∧ v.val < win0_2.index t (2 : Fin 3) * 1 + 1
    rw [i2]; omega

/-- The second result array after the region: entry `(b, c, 0)` is the raw sum `∑ₙ x_c(n)` of batch `b`. -/
theorem arr2_apply {c : Dev nD} (dat : Pipeline.Dat τ (Elt Ideal) Unit ℕ (UR sig nD τ) ℕ cfg0 c)
    (X : Buf (Elt Ideal) (((cfg0.win 0).arr.view.loc (c.tc : Thread nD τ))))
    (x : FVec Ideal S16x128x128x128 .f32)
    (hX : X = shapeCast S16x128x16384 x shapeCasts_S16x128x128x128_S16x128x16384)
    (h2 : ∀ (t : Fin cfg0.N) (ht : t.val % 2 = 1), dat.after 2 t
        = k0_pay7 (k0_pay5 (blk0 X t) (k0_pay5 (blk0 X ⟨t.val - 1, by have := t.isLt; omega⟩) (k0_pay2 (F := Ideal)))))
    (b : Fin 16) (cc : Fin 128) :
    dat.arrAt 2 cfg0.N (ix3 b cc (0 : Fin 1)) = ∑ n : Fin 16384, Cert.Spec.row x b cc n := by
  have hG : dat.arrAt 2 cfg0.N = G2 x :=
    dat.arrAt_eq_of_cover 2 (G2 x) (fun t hf => flushed2_eq dat X x hX h2 t hf) cover2
  exact (congrFun hG (ix3 b cc (0 : Fin 1))).trans (G2_apply x b cc 0)

end Cert.KernelIdeal.Hand.Arr

end
-- ==== Proof.Tail.lean ====
/-
  The part of the computation that both programs share, as ONE function of the covariance σ : [16, 128, 128].

  Per batch: σ is scaled by its trace, Y₀ = σ / tr σ; then six coupled Newton–Schulz steps from (Y₀, Z₀ = I),
      T = 3·I − Z·Y,   Y' = (½·Y) ∘ T  (an entrywise product, as the source has it),   Z' = (½·T)·Z;
  then Ŷ = sqrt (tr Y₆) · Y₆, and the result is the mean of Ŷ over its first matrix axis, shaped [16, 128, 1, 1].
  Every step is spelt with the host operations the programs use, in the order they compose, so that either
  program's chain of operations is this function by unfolding.
-/
import Idealize.ShloMosaic.PureOps

noncomputable section

namespace Cert.Tail

open Idealize.ShloMosaic

abbrev S16x128x128 : Shape := ⟨3, ![16, 128, 128]⟩
abbrev S1x128x128 : Shape := ⟨3, ![1, 128, 128]⟩
abbrev S128x128 : Shape := ⟨2, ![128, 128]⟩
abbrev S16x128 : Shape := ⟨2, ![16, 128]⟩
abbrev S16 : Shape := ⟨1, ![16]⟩
abbrev S16x1x1 : Shape := ⟨3, ![16, 1, 1]⟩
abbrev S_ : Shape := ⟨0, ![]⟩
abbrev S16x128x1x1 : Shape := ⟨4, ![16, 128, 1, 1]⟩

theorem h_S_ : 0 < S_.numel := by decide
theorem bcast_S_S16x128x128 : S_.BroadcastsInDim S16x128x128 (![] : Fin 0 → Fin S16x128x128.rank) := by decide
theorem bcast_S128x128_S16x128x128_1_2 : S128x128.BroadcastsInDim S16x128x128 (![1, 2] : Fin 2 → Fin S16x128x128.rank) := by decide
theorem reducesTo_S16x128x128_S16_d1_2 : S16x128x128.ReducesTo [1, 2] S16 := by decide
theorem bcast_S16_S16x1x1_0 : S16.BroadcastsInDim S16x1x1 (![0] : Fin 1 → Fin S16x1x1.rank) := by decide
theorem bcast_S16x1x1_S16x128x128_0_1_2 : S16x1x1.BroadcastsInDim S16x128x128 (![0, 1, 2] : Fin 3 → Fin S16x128x128.rank) := by decide
theorem bcast_S_S128x128 : S_.BroadcastsInDim S128x128 (![] : Fin 0 → Fin S128x128.rank) := by decide
theorem bcast_S128x128_S1x128x128_1_2 : S128x128.BroadcastsInDim S1x128x128 (![1, 2] : Fin 2 → Fin S1x128x128.rank) := by decide
theorem bcast_S1x128x128_S16x128x128_0_1_2 : S1x128x128.BroadcastsInDim S16x128x128 (![0, 1, 2] : Fin 3 → Fin S16x128x128.rank) := by decide
theorem reducesTo_S16x128x128_S16x128_d1 : S16x128x128.ReducesTo [1] S16x128 := by decide
theorem bcast_S_S16x128 : S_.BroadcastsInDim S16x128 (![] : Fin 0 → Fin S16x128.rank) := by decide
theorem shapeCasts_S16x128_S16x128x1x1 : S16x128.ShapeCasts S16x128x1x1 := by decide
theorem dotB_wf : DotDims.WF S16x128x128 S16x128x128 S16x128x128 [2] [1] [1] [2] [0] [0] := by decide

/-- The batched matrix product: batch axis 0, the left factor's last axis against the right factor's middle axis. -/
def dotB : DotDims S16x128x128 S16x128x128 S16x128x128 where
  lhsContracting := [2]
  rhsContracting := [1]
  lhsNonContracting := [1]
  rhsNonContracting := [2]
  lhsBatch := [0]
  rhsBatch := [0]
  wf := dotB_wf

variable {F : FTy → Type} [FloatOps F]

/-- The trace of each batch's matrix: the sum over both matrix axes of the entries on the diagonal, the others replaced by zero. -/
def trace (Y : FVec F S16x128x128 .f32) : FVec F S16 .f32 :=
  Host.reduceAdd (select (broadcastInDim S16x128x128 ![1, 2] bcast_S128x128_S16x128x128_1_2 (cmpi .eq (iotaInDim S128x128 32 0) (iotaInDim S128x128 32 1))) Y (broadcastInDim S16x128x128 ![] bcast_S_S16x128x128 (constant S_ .f32 0x00000000#32))) (constant S_ .f32 0x00000000#32) reducesTo_S16x128x128_S16_d1_2 h_S_

/-- One number per batch spread over that batch's matrix. -/
def perBatch (v : FVec F S16 .f32) : FVec F S16x128x128 .f32 :=
  broadcastInDim S16x128x128 ![0, 1, 2] bcast_S16x1x1_S16x128x128_0_1_2 (broadcastInDim S16x1x1 ![0] bcast_S16_S16x1x1_0 v)

/-- Y₀: the covariance scaled by its trace. -/
def y0 (σ : FVec F S16x128x128 .f32) : FVec F S16x128x128 .f32 :=
  Host.divf σ (perBatch (trace σ))

/-- The 128 × 128 identity as floats. -/
def eye : FVec F S128x128 .f32 :=
  uitofp .f32 (cmpi .eq (addi (iotaInDim S128x128 32 0) (broadcastInDim S128x128 ![] bcast_S_S128x128 (constantI S_ 32 0#32))) (iotaInDim S128x128 32 1))

/-- Z₀: the identity in every batch. -/
def z0 : FVec F S16x128x128 .f32 :=
  broadcastInDim S16x128x128 ![1, 2] bcast_S128x128_S16x128x128_1_2 (eye (F := F))

/-- T = 3·I − Z·Y. -/
def stepT (Z Y : FVec F S16x128x128 .f32) : FVec F S16x128x128 .f32 :=
  subf (broadcastInDim S16x128x128 ![0, 1, 2] bcast_S1x128x128_S16x128x128_0_1_2 (broadcastInDim S1x128x128 ![1, 2] bcast_S128x128_S1x128x128_1_2 (mulf (broadcastInDim S128x128 ![] bcast_S_S128x128 (constant S_ .f32 0x40400000#32)) (eye (F := F))))) (Host.dotGeneral dotB none Z Y)

/-- Y' = (½·Y) ∘ T, entry by entry. -/
def stepY (Y T : FVec F S16x128x128 .f32) : FVec F S16x128x128 .f32 :=
  mulf (mulf (broadcastInDim S16x128x128 ![] bcast_S_S16x128x128 (constant S_ .f32 0x3F000000#32)) Y) T

/-- Z' = (½·T)·Z, a matrix product per batch. -/
def stepZ (T Z : FVec F S16x128x128 .f32) : FVec F S16x128x128 .f32 :=
  Host.dotGeneral dotB none (mulf (broadcastInDim S16x128x128 ![] bcast_S_S16x128x128 (constant S_ .f32 0x3F000000#32)) T) Z

/-! The six steps, each named: step k reads (Y, Z) of step k − 1. -/
def t1 (σ : FVec F S16x128x128 .f32) : FVec F S16x128x128 .f32 := stepT (z0 (F := F)) (y0 σ)
def y1 (σ : FVec F S16x128x128 .f32) : FVec F S16x128x128 .f32 := stepY (y0 σ) (t1 σ)
def z1 (σ : FVec F S16x128x128 .f32) : FVec F S16x128x128 .f32 := stepZ (t1 σ) (z0 (F := F))
def t2 (σ : FVec F S16x128x128 .f32) : FVec F S16x128x128 .f32 := stepT (z1 σ) (y1 σ)
def y2 (σ : FVec F S16x128x128 .f32) : FVec F S16x128x128 .f32 := stepY (y1 σ) (t2 σ)
def z2 (σ : FVec F S16x128x128 .f32) : FVec F S16x128x128 .f32 := stepZ (t2 σ) (z1 σ)
def t3 (σ : FVec F S16x128x128 .f32) : FVec F S16x128x128 .f32 := stepT (z2 σ) (y2 σ)
def y3 (σ : FVec F S16x128x128 .f32) : FVec F S16x128x128 .f32 := stepY (y2 σ) (t3 σ)
def z3 (σ : FVec F S16x128x128 .f32) : FVec F S16x128x128 .f32 := stepZ (t3 σ) (z2 σ)
def t4 (σ : FVec F S16x128x128 .f32) : FVec F S16x128x128 .f32 := stepT (z3 σ) (y3 σ)
def y4 (σ : FVec F S16x128x128 .f32) : FVec F S16x128x128 .f32 := stepY (y3 σ) (t4 σ)
def z4 (σ : FVec F S16x128x128 .f32) : FVec F S16x128x128 .f32 := stepZ (t4 σ) (z3 σ)
def t5 (σ : FVec F S16x128x128 .f32) : FVec F S16x128x128 .f32 := stepT (z4 σ) (y4 σ)
def y5 (σ : FVec F S16x128x128 .f32) : FVec F S16x128x128 .f32 := stepY (y4 σ) (t5 σ)
def z5 (σ : FVec F S16x128x128 .f32) : FVec F S16x128x128 .f32 := stepZ (t5 σ) (z4 σ)
def t6 (σ : FVec F S16x128x128 .f32) : FVec F S16x128x128 .f32 := stepT (z5 σ) (y5 σ)
def y6 (σ : FVec F S16x128x128 .f32) : FVec F S16x128x128 .f32 := stepY (y5 σ) (t6 σ)

/-- The shared part whole: sqrt (tr Y₆) · Y₆, averaged over the first matrix axis (a sum divided by 128), as [16, 128, 1, 1]. -/
def tail (σ : FVec F S16x128x128 .f32) : FVec F S16x128x1x1 .f32 :=
  shapeCast _ (Host.divf (Host.reduceAdd (mulf (perBatch (Host.sqrt (trace (y6 σ)))) (y6 σ)) (constant S_ .f32 0x00000000#32) reducesTo_S16x128x128_S16x128_d1 h_S_) (broadcastInDim S16x128 ![] bcast_S_S16x128 (constant S_ .f32 0x43000000#32))) shapeCasts_S16x128_S16x128x1x1

end Cert.Tail

end
-- ==== Proof.KSigma.lean ====
/-
  The kernel's host operations that turn its two accumulated outputs into the covariance.

  After its region the kernel holds, for every batch `b`, the raw second moments
  `S[b, c, d] = ∑ₙ x_c(n) · x_d(n)` and the raw sums `s[b, c, 0] = ∑ₙ x_c(n)` over the
  `16384` pixels of a channel. Thirteen host operations then form the channel means
  `m[b, c] = s[b, c, 0] / 16384` and the covariance
  `σ[b, c, d] = S[b, c, d] / 16384 − m[b, c] · m[b, d]`.
  This module names that composite as one function of `(S, s)`, operation by operation as the
  program spells it, and reads it at an index over the extended reals.
-/
import proofs.«150883_j91319594647822_1_alg».proof.Proof.Gen.KernelIdeal
import proofs.«150883_j91319594647822_1_alg».proof.Proof.Spec
import Idealize.ShloMosaic.Lib.ValueIdx
import Idealize.ShloMosaic.Lib.IdealHost
import Idealize.ShloMosaic.Lib.Pipeline.Value

noncomputable section

namespace Cert.KernelIdeal.Hand.Sigma

open Cert.KernelIdeal Cert.KernelIdeal.Gen Idealize.ShloMosaic Idealize.ShloMosaic.ValueIdx

section Generic

variable {F : FTy → Type} [FloatOps F]

/-- The channel means `m[b, c] = s[b, c, 0] / 16384`: the sums with their unit axis dropped, divided
    by the scalar `16384` spread over `[16, 128]`. -/
def meanOf (s : FVec F S16x128x1 .f32) : FVec F S16x128 .f32 :=
  Host.divf (shapeCast S16x128 s shapeCasts_S16x128x1_S16x128)
    (broadcastInDim S16x128 ![] bcast_S_S16x128 (constant S_ .f32 0x46800000#32))

/-- The covariance `σ = S / 16384 − m ⊗ m`: the second moments divided by the scalar `16384` spread over
    `[16, 128, 128]`, minus the product of the means spread once along the rows (through `[16, 128, 1]`)
    and once along the columns (through `[16, 1, 128]`). -/
def sigmaOf (S : FVec F S16x128x128 .f32) (s : FVec F S16x128x1 .f32) : FVec F S16x128x128 .f32 :=
  subf (Host.divf S (broadcastInDim S16x128x128 ![] bcast_S_S16x128x128 (constant S_ .f32 0x46800000#32)))
    (mulf
      (broadcastInDim S16x128x128 ![0, 1, 2] bcast_S16x128x1_S16x128x128_0_1_2
        (broadcastInDim S16x128x1 ![0, 1] bcast_S16x128_S16x128x1_0_1 (meanOf s)))
      (broadcastInDim S16x128x128 ![0, 1, 2] bcast_S16x1x128_S16x128x128_0_1_2
        (broadcastInDim S16x1x128 ![0, 2] bcast_S16x128_S16x1x128_0_2 (meanOf s))))

end Generic

/-- The pattern `0x46800000` is the single-precision spelling of `16384 = 2¹⁴`: exponent field `141 = 127 + 14`,
    fraction `0`. -/
private theorem ofBits_n : Ideal.ofBits .f32 0x46800000#32 = Cert.Spec.nE := by
  unfold Cert.Spec.nE
  simp [Ideal.ofBits, Ideal.ieee, -EReal.coe_mul]; norm_num

/-- The means at an index: the sum of the channel over the pixel count. -/
theorem meanOf_apply (s : FVec Ideal S16x128x1 .f32) (b : Fin 16) (c : Fin 128) :
    meanOf (F := Ideal) s (ix2 b c) = Ideal.div (s (ix3 b c (0 : Fin 1))) Cert.Spec.nE := by
  unfold meanOf
  rw [hostDivf_apply, broadcastInDim_scalar_apply, constant_apply, ofBits_n]
  congr 1
  refine shapeCast_apply s _ (ix2 b c) (ix3 b c (0 : Fin 1)) ?_
  rw [Shape.rowMajor_val_three, Shape.rowMajor_val_two]
  show (b.val * 128 + c.val) * 1 + 0 = b.val * 128 + c.val
  omega

theorem sigmaOf_apply (S : FVec Ideal S16x128x128 .f32) (s : FVec Ideal S16x128x1 .f32) (b : Fin 16) (c d : Fin 128) :
    sigmaOf (F := Ideal) S s (ix3 b c d)
      = Ideal.div (S (ix3 b c d)) Cert.Spec.nE
        - Ideal.div (s (ix3 b c (0 : Fin 1))) Cert.Spec.nE * Ideal.div (s (ix3 b d (0 : Fin 1))) Cert.Spec.nE := by
  unfold sigmaOf
  rw [subf_apply, mulf_apply, hostDivf_apply, broadcastInDim_scalar_apply, constant_apply, ofBits_n]
  -- the means spread along the rows: through `[16, 128, 1]`, entry `(b, c, d)` reads `m[b, c]`
  have hrow : broadcastInDim S16x128x128 ![0, 1, 2] bcast_S16x128x1_S16x128x128_0_1_2
      (broadcastInDim S16x128x1 ![0, 1] bcast_S16x128_S16x128x1_0_1 (meanOf (F := Ideal) s)) (ix3 b c d)
        = meanOf (F := Ideal) s (ix2 b c) := by
    rw [broadcastInDim_apply ![0, 1, 2] bcast_S16x128x1_S16x128x128_0_1_2 _ (ix3 b c d) (ix3 b c (0 : Fin 1))
        (fun a => match a with | ⟨0, _⟩ => rfl | ⟨1, _⟩ => rfl | ⟨2, _⟩ => rfl)]
    exact broadcastInDim_apply ![0, 1] bcast_S16x128_S16x128x1_0_1 _ (ix3 b c (0 : Fin 1)) (ix2 b c)
        (fun a => match a with | ⟨0, _⟩ => rfl | ⟨1, _⟩ => rfl)
  -- the means spread along the columns: through `[16, 1, 128]`, entry `(b, c, d)` reads `m[b, d]`
  have hcol : broadcastInDim S16x128x128 ![0, 1, 2] bcast_S16x1x128_S16x128x128_0_1_2
      (broadcastInDim S16x1x128 ![0, 2] bcast_S16x128_S16x1x128_0_2 (meanOf (F := Ideal) s)) (ix3 b c d)
        = meanOf (F := Ideal) s (ix2 b d) := by
    rw [broadcastInDim_apply ![0, 1, 2] bcast_S16x1x128_S16x128x128_0_1_2 _ (ix3 b c d) (ix3 b (0 : Fin 1) d)
        (fun a => match a with | ⟨0, _⟩ => rfl | ⟨1, _⟩ => rfl | ⟨2, _⟩ => rfl)]
    exact broadcastInDim_apply ![0, 2] bcast_S16x128_S16x1x128_0_2 _ (ix3 b (0 : Fin 1) d) (ix2 b d)
        (fun a => match a with | ⟨0, _⟩ => rfl | ⟨1, _⟩ => rfl)
  rw [hrow, hcol, meanOf_apply, meanOf_apply]

end Cert.KernelIdeal.Hand.Sigma

end
-- ==== Proof.KTail.lean ====
/-
  The kernel's host operations after its region, read as the shared function of the covariance.

  After its region the kernel holds the raw second moments `S : [16, 128, 128]` and the raw sums
  `s : [16, 128, 1]`. The host operations that follow compose in two stretches:
  the first thirteen form the covariance `σ = S / 16384 − m ⊗ m` with `m = s / 16384`;
  the rest scale `σ` by its trace, run six coupled Newton–Schulz steps from `(σ / tr σ, I)`,
  multiply the last iterate by the square root of its trace and average over the first matrix axis.
  The second stretch is, operation for operation, the function `Cert.Tail.tail`: each buffer of the
  chain holds the composite of the operations that wrote it, and that composite is the named
  intermediate (`y0`, `t1`, `y1`, `z1`, …, `y6`) by unfolding. One more matrix product (the sixth step's `Z`)
  is computed by the program and read by nothing; it plays no part in the result.
-/
import proofs.«150883_j91319594647822_1_alg».proof.Proof.Gen.KernelIdeal.Launch
import proofs.«150883_j91319594647822_1_alg».proof.Proof.Tail
import proofs.«150883_j91319594647822_1_alg».proof.Proof.KSigma
import Idealize.ShloMosaic.Lib.StableHlo.Run

noncomputable section

namespace Cert.KernelIdeal.Hand.KTail

open Cert.KernelIdeal Cert.KernelIdeal.Gen Idealize.ShloMosaic Idealize.ShloMosaic.StableHlo

variable {F : FTy → Type} [FloatOps F]

set_option maxRecDepth 8192 in
set_option maxHeartbeats 57200000 in
/-- The covariance buffer after the host operations: the first thirteen compose to
    `σ = S / 16384 − m ⊗ m` of the two accumulated outputs, and no later operation writes it. -/
theorem after_v12 (W : Valuation τ sig (Elt F)) :
    StableHlo.after (hostOps1 (F := F)) W (Proc.devRef .tc main_v12)
      = Sigma.sigmaOf (W (Proc.devRef .tc main_v1_0)) (W (Proc.devRef .tc main_v1_1)) := by
  after_results_simp <;> rfl

set_option maxRecDepth 8192 in
set_option maxHeartbeats 57200000 in
/-- The result buffer after the host operations: the shared function of the covariance. Each operation's
    result is its function at its operands' composites; the composite at the last buffer and
    `tail σ` are the same term once the named steps of `tail` are unfolded (the two sides spell the
    shapes and their facts with different constants for the same values). -/
theorem after_v116 (W : Valuation τ sig (Elt F)) :
    StableHlo.after (hostOps1 (F := F)) W (Proc.devRef .tc main_v116)
      = Cert.Tail.tail (Sigma.sigmaOf (W (Proc.devRef .tc main_v1_0)) (W (Proc.devRef .tc main_v1_1))) := by
  after_results_simp <;> rfl

end Cert.KernelIdeal.Hand.KTail

end
-- ==== Proof.SpecArr.lean ====
/-
  The covariance both programs compute, as an array over (batch, c, d).
-/
import proofs.«150883_j91319594647822_1_alg».proof.Proof.Spec

noncomputable section

namespace Cert.Spec

open Idealize.ShloMosaic

/-- Entry (b, c, d) is the covariance of channels c and d of batch b, in the form mean of products minus
    product of means. -/
def covArr (x : SX.Idx → EReal) : (⟨3, ![16, 128, 128]⟩ : Shape).Idx → EReal :=
  fun i => covK x (i 0) (i 1) (i 2)

end Cert.Spec

end
-- ==== Proof.KValue.lean ====
/-
  The kernel's run, read: at the ideal instance its result array ends at the shared tail of the covariance
  of the input's channels.

  The frame run leaves the two result arrays of the pallas_call at what its grid points wrote back: for a batch `b`
  the second moments `∑ₙ x_c(n) · x_d(n)` and the sums `∑ₙ x_c(n)` over the 16384 pixels of a channel, the two
  halves of each row accumulated at the two points of the batch. The host operations that follow turn them into
  `σ = S / N − (s / N) ⊗ (s / N)`, entry by entry the covariance in its mean-of-products form, and then apply the
  tail. The argument array is untouched.
-/
import proofs.«150883_j91319594647822_1_alg».proof.Proof.KI.Frame
import proofs.«150883_j91319594647822_1_alg».proof.Proof.KI.Odd
import proofs.«150883_j91319594647822_1_alg».proof.Proof.KArr
import proofs.«150883_j91319594647822_1_alg».proof.Proof.KTail
import proofs.«150883_j91319594647822_1_alg».proof.Proof.KSigma
import proofs.«150883_j91319594647822_1_alg».proof.Proof.SpecArr

noncomputable section

namespace Cert.KernelIdeal.Hand.Value

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The covariance the host operations form from the two result arrays is, entry by entry, mean of products minus
    product of means of the input's rows. -/
theorem sigma_eq (c : Dev nD) :
    Sigma.sigmaOf (F := Ideal) ((dats m 0 c).arrAt 1 cfg0.N) ((dats m 0 c).arrAt 2 cfg0.N)
      = Cert.Spec.covArr (m ((c : Thread nD τ).loc main_arg0)) := by
  funext i
  obtain ⟨b, cc, d, rfl⟩ : ∃ (b : Fin 16) (cc d : Fin 128), i = ix3 b cc d := ⟨i 0, i 1, i 2, eq_ix3 i⟩
  rw [Sigma.sigmaOf_apply,
    Arr.arr1_apply (dats m 0 c) (V m c main_v0) (m ((c : Thread nD τ).loc main_arg0)) (V_main_v0 m c)
      (fun t ht => after1_odd m c t ht) b cc d,
    Arr.arr2_apply (dats m 0 c) (V m c main_v0) (m ((c : Thread nD τ).loc main_arg0)) (V_main_v0 m c)
      (fun t ht => after2_odd m c t ht) b cc,
    Arr.arr2_apply (dats m 0 c) (V m c main_v0) (m ((c : Thread nD τ).loc main_arg0)) (V_main_v0 m c)
      (fun t ht => after2_odd m c t ht) b d]
  rfl

/-- The result buffer is neither scoped nor one of the pallas_call's arrays. -/
theorem v116_rest : main_v116 ∈ Pipeline.restRefs sig spec0 := Pipeline.mem_restRefs_of main_v116 (by decide) (by decide)

/-- The run: the result at the tail of the covariance, the argument unchanged. -/
theorem run : θ_run defs (onTc (τ := τ) (main (F := Ideal))) ⟨m, fun _ => 0, ρ⟩ fun r => ∀ c : Dev nD,
      r.2.mem ((c.tc : Thread nD τ).loc main_v116)
          = Cert.Tail.tail (F := Ideal) (Cert.Spec.covArr (m ((c.tc : Thread nD τ).loc main_arg0)))
      ∧ r.2.mem ((c.tc : Thread nD τ).loc main_arg0) = m ((c.tc : Thread nD τ).loc main_arg0) := by
  refine (θ_run defs _ _).mono ?_ (run_main (F := Ideal) m ρ)
  intro r h c
  refine ⟨((h c).2 main_v116 v116_rest).trans ?_,
    ((h c).2 main_arg0 (Pipeline.mem_restRefs_of main_arg0 (by decide) (by decide))).trans ?_⟩
  swap
  · unfold Pipeline.afterTail₀
    simp only [tailOpss, List.flatten_cons, List.flatten_nil, List.append_nil]
    rw [StableHlo.after_of_forall_not_mem _ _ (List.forall_iff_forall_mem.mp hostOps1_keeps_arg0),
      Pipeline.withArrays_of_ne _ _ _ _ main_arg0 (by decide)]
    exact V_main_arg0 m c
  unfold Pipeline.afterTail₀
  simp only [tailOpss, List.flatten_cons, List.flatten_nil, List.append_nil]
  rw [KTail.after_v116, Pipeline.withArrays_arr spec0 launch0.win.arr_inj c _ _ 1,
    Pipeline.withArrays_arr spec0 launch0.win.arr_inj c _ _ 2]
  exact congrArg (Cert.Tail.tail (F := Ideal)) (sigma_eq m c)

end Cert.KernelIdeal.Hand.Value

end
-- ==== Proof.RefTail.lean ====
/-
  The reference's run, with its result read as the shared function `tail` of its covariance σ'.

  After σ' the reference performs, operation for operation, the computation that `Cert.Tail` spells once:
  Y₀ = σ' / tr σ', Z₀ = I, six coupled Newton–Schulz steps (T, Y, Z), then sqrt (tr Y₆) · Y₆ averaged over the
  first matrix axis. The run theorem of the reference names the intermediate values that are used more than
  once; each of them is one of the iterates Y₀, I, Z₀, T₁, Y₁, Z₁, …, T₆, Y₆ of `Cert.Tail` at σ'. The equations
  below say so one iterate at a time: each iterate is one step applied to the two iterates before it, so once
  the earlier equations are substituted the two sides are the same expression. The shapes and the shape facts
  the two sides mention are the same lists of extents stated twice, and two proofs of one fact are equal, so
  the comparison of a single step is by unfolding.
-/
import proofs.«150883_j91319594647822_1_alg».proof.Proof.Gen.ReferenceIdeal.Run
import proofs.«150883_j91319594647822_1_alg».proof.Proof.Tail

noncomputable section

namespace Cert.ReferenceIdeal.Hand.Tail

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-! ### The starting point -/

/-- Y₀ = σ' / tr σ': the covariance divided, batch by batch, by the sum of its diagonal. -/
theorem res_v20_eq (V0 : Valuation τ sig (Elt F)) :
    res_main_v20 V0 = Cert.Tail.y0 (res_main_v10 V0) := rfl

/-- The 128 × 128 identity: 1 where the row index equals the column index, 0 elsewhere. -/
theorem res_v26_eq (V0 : Valuation τ sig (Elt F)) :
    res_main_v26 V0 = Cert.Tail.eye := rfl

/-- Z₀: the identity in every batch. -/
theorem res_v27_eq (V0 : Valuation τ sig (Elt F)) :
    res_main_v27 V0 = Cert.Tail.z0 := rfl

/-! ### The first step -/

/-- T₁ = 3·I − Z₀·Y₀: the reference forms it from its copies of the identity, Z₀ and Y₀. -/
theorem res_v33_eq (V0 : Valuation τ sig (Elt F)) :
    res_main_v33 V0 = Cert.Tail.t1 (res_main_v10 V0) := by
  unfold res_main_v33
  rw [res_v26_eq, res_v27_eq, res_v20_eq]
  rfl

/-- Y₁ = (½·Y₀) ∘ T₁. -/
theorem res_v36_eq (V0 : Valuation τ sig (Elt F)) :
    res_main_v36 V0 = Cert.Tail.y1 (res_main_v10 V0) := by
  unfold res_main_v36
  rw [res_v20_eq, res_v33_eq]
  rfl

/-- Z₁ = (½·T₁)·Z₀. -/
theorem res_v39_eq (V0 : Valuation τ sig (Elt F)) :
    res_main_v39 V0 = Cert.Tail.z1 (res_main_v10 V0) := by
  unfold res_main_v39
  rw [res_v33_eq, res_v27_eq]
  rfl

/-! ### The second step -/

/-- T₂ = 3·I − Z₁·Y₁: the reference forms it from its copies of the identity, Z₁ and Y₁. -/
theorem res_v45_eq (V0 : Valuation τ sig (Elt F)) :
    res_main_v45 V0 = Cert.Tail.t2 (res_main_v10 V0) := by
  unfold res_main_v45
  rw [res_v26_eq, res_v39_eq, res_v36_eq]
  rfl

/-- Y₂ = (½·Y₁) ∘ T₂. -/
theorem res_v48_eq (V0 : Valuation τ sig (Elt F)) :
    res_main_v48 V0 = Cert.Tail.y2 (res_main_v10 V0) := by
  unfold res_main_v48
  rw [res_v36_eq, res_v45_eq]
  rfl

/-- Z₂ = (½·T₂)·Z₁. -/
theorem res_v51_eq (V0 : Valuation τ sig (Elt F)) :
    res_main_v51 V0 = Cert.Tail.z2 (res_main_v10 V0) := by
  unfold res_main_v51
  rw [res_v45_eq, res_v39_eq]
  rfl

/-! ### The third step -/

/-- T₃ = 3·I − Z₂·Y₂: the reference forms it from its copies of the identity, Z₂ and Y₂. -/
theorem res_v57_eq (V0 : Valuation τ sig (Elt F)) :
    res_main_v57 V0 = Cert.Tail.t3 (res_main_v10 V0) := by
  unfold res_main_v57
  rw [res_v26_eq, res_v51_eq, res_v48_eq]
  rfl

/-- Y₃ = (½·Y₂) ∘ T₃. -/
theorem res_v60_eq (V0 : Valuation τ sig (Elt F)) :
    res_main_v60 V0 = Cert.Tail.y3 (res_main_v10 V0) := by
  unfold res_main_v60
  rw [res_v48_eq, res_v57_eq]
  rfl

/-- Z₃ = (½·T₃)·Z₂. -/
theorem res_v63_eq (V0 : Valuation τ sig (Elt F)) :
    res_main_v63 V0 = Cert.Tail.z3 (res_main_v10 V0) := by
  unfold res_main_v63
  rw [res_v57_eq, res_v51_eq]
  rfl

/-! ### The fourth step -/

/-- T₄ = 3·I − Z₃·Y₃: the reference forms it from its copies of the identity, Z₃ and Y₃. -/
theorem res_v69_eq (V0 : Valuation τ sig (Elt F)) :
    res_main_v69 V0 = Cert.Tail.t4 (res_main_v10 V0) := by
  unfold res_main_v69
  rw [res_v26_eq, res_v63_eq, res_v60_eq]
  rfl

/-- Y₄ = (½·Y₃) ∘ T₄. -/
theorem res_v72_eq (V0 : Valuation τ sig (Elt F)) :
    res_main_v72 V0 = Cert.Tail.y4 (res_main_v10 V0) := by
  unfold res_main_v72
  rw [res_v60_eq, res_v69_eq]
  rfl

/-- Z₄ = (½·T₄)·Z₃. -/
theorem res_v75_eq (V0 : Valuation τ sig (Elt F)) :
    res_main_v75 V0 = Cert.Tail.z4 (res_main_v10 V0) := by
  unfold res_main_v75
  rw [res_v69_eq, res_v63_eq]
  rfl

/-! ### The fifth step -/

/-- T₅ = 3·I − Z₄·Y₄: the reference forms it from its copies of the identity, Z₄ and Y₄. -/
theorem res_v81_eq (V0 : Valuation τ sig (Elt F)) :
    res_main_v81 V0 = Cert.Tail.t5 (res_main_v10 V0) := by
  unfold res_main_v81
  rw [res_v26_eq, res_v75_eq, res_v72_eq]
  rfl

/-- Y₅ = (½·Y₄) ∘ T₅. -/
theorem res_v84_eq (V0 : Valuation τ sig (Elt F)) :
    res_main_v84 V0 = Cert.Tail.y5 (res_main_v10 V0) := by
  unfold res_main_v84
  rw [res_v72_eq, res_v81_eq]
  rfl

/-- Z₅ = (½·T₅)·Z₄. -/
theorem res_v87_eq (V0 : Valuation τ sig (Elt F)) :
    res_main_v87 V0 = Cert.Tail.z5 (res_main_v10 V0) := by
  unfold res_main_v87
  rw [res_v81_eq, res_v75_eq]
  rfl

/-! ### The sixth step -/

/-- T₆ = 3·I − Z₅·Y₅: the reference forms it from its copies of the identity, Z₅ and Y₅. -/
theorem res_v93_eq (V0 : Valuation τ sig (Elt F)) :
    res_main_v93 V0 = Cert.Tail.t6 (res_main_v10 V0) := by
  unfold res_main_v93
  rw [res_v26_eq, res_v87_eq, res_v84_eq]
  rfl

/-- Y₆ = (½·Y₅) ∘ T₆. -/
theorem res_v96_eq (V0 : Valuation τ sig (Elt F)) :
    res_main_v96 V0 = Cert.Tail.y6 (res_main_v10 V0) := by
  unfold res_main_v96
  rw [res_v84_eq, res_v93_eq]
  rfl

/-! ### The result -/

/-- The reference's run restated: on every device the result is `tail` of the covariance σ' the reference
    forms from the launch contents of its argument, and the argument is unchanged. The run theorem gives the
    result as sqrt (tr Y) · Y averaged over the first matrix axis with Y the reference's last iterate; that
    iterate is Y₆ of σ', and the remaining operations are those that close `tail`. -/
theorem run_tail (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v114)
          = Cert.Tail.tail (Cert.ReferenceIdeal.Value.res_main_v10 (launchContents m c))
      ∧ r.2.mem ((c.tc : Thread nD τ).loc main_arg0) = m ((c.tc : Thread nD τ).loc main_arg0) :=
  (θ_run defs _ _).mono
    (fun _ h c => ⟨(h c).1.trans (by rw [res_v96_eq]; rfl), (h c).2⟩)
    (Cert.ReferenceIdeal.Value.run m ρ)

end Cert.ReferenceIdeal.Hand.Tail

end
-- ==== Proof.RefCov.lean ====
/-
  The reference's covariance, read at an index.

  The reference moves the channel axis last and merges the two pixel axes, so that its first buffer at
  (batch, position, channel) is the input's row of that batch and channel at that position; it subtracts from every
  entry the mean of its column over the 16384 positions; and it divides by 16384 the batched product of the centred
  array with itself over the position axis. Read at (batch, c, d) that quotient is the mean of the products of the two
  centred rows: the covariance entry as the reference forms it.
-/
import proofs.«150883_j91319594647822_1_alg».proof.Proof.Gen.ReferenceIdeal.Run
import proofs.«150883_j91319594647822_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx Idealize.ShloMosaic.TcCoe Idealize.SL.Sem Idealize.ShloMosaic.StableHlo

/-- The reference's first buffer, the input with the channel axis moved last and the two pixel axes merged, read at
    (batch, position, channel): the input's row of that batch and channel at that position. -/
theorem res_v1_apply (V0 : Valuation τ sig (Elt Ideal)) (b : Fin 16) (n : Fin 16384) (c : Fin 128) :
    Cert.ReferenceIdeal.Value.res_main_v1 (F := Ideal) V0 (ix3 b n c)
      = Cert.Spec.row (V0 (Proc.devRef .tc main_arg0)) b c n := by
  unfold Cert.ReferenceIdeal.Value.res_main_v1
  -- the merged position n = h·128 + w sits at the same row-major place as the pixel (h, w)
  refine (shapeCast_apply (t := S16x16384x128) _ _ (ix3 b n c)
    (ix4 b (⟨n.val / 128, by omega⟩ : Fin 128) (⟨n.val % 128, by omega⟩ : Fin 128) c) ?_).trans ?_
  · rw [Shape.rowMajor_val_four, Shape.rowMajor_val_three]
    show ((b.val * 128 + n.val / 128) * 128 + n.val % 128) * 128 + c.val = (b.val * 16384 + n.val) * 128 + c.val
    omega
  -- the transposed array at (b, h, w, c) is the input at (b, c, h, w)
  refine (transpose_apply _ _ _ _
    (ix4 b c (⟨n.val / 128, by omega⟩ : Fin 128) (⟨n.val % 128, by omega⟩ : Fin 128)) ?_).trans ?_
  · intro a
    match a with
    | ⟨0, _⟩ => rfl
    | ⟨1, _⟩ => rfl
    | ⟨2, _⟩ => rfl
    | ⟨3, _⟩ => rfl
  rfl

/-- The f32 word `0x46800000` is `2 ^ 14 = 16384`, the number of pixels of a channel. -/
private theorem ofBits_16384 : Ideal.ofBits .f32 0x46800000#32 = Cert.Spec.nE := by
  unfold Cert.Spec.nE
  simp [Ideal.ofBits, Ideal.ieee, -EReal.coe_mul]; norm_num

/-- The sum over the position axis of a [16, 16384, 128] array, from the zero word, read at (batch, channel). -/
theorem colSum_apply (X : FVec Ideal S16x16384x128 .f32) (b : Fin 16) (c : Fin 128) :
    Host.reduceAdd (F := Ideal) X (constant (F := Ideal) S_ .f32 0x00000000#32)
        reducesTo_S16x16384x128_S16x128_d1 h_S_ (ix2 b c)
      = ∑ k : Fin 16384, X (ix3 b k c) := by
  have h : S16x16384x128.Reduces [1] S16x128 := by decide
  rw [hostReduceAdd_apply, Ideal.hostReduceAdd_single _ h, constant_apply, Ideal.ofBits_zero_f32, zero_add]
  show ∑ k : Fin 16384, X (h.lift (ix2 b c) k) = _
  refine Finset.sum_congr rfl fun k _ => congrArg X ?_
  funext a; apply Fin.ext
  match a with
  | ⟨0, _⟩ => rfl
  | ⟨1, _⟩ => rfl
  | ⟨2, _⟩ => rfl

/-- The column mean, broadcast back over the positions, read at (batch, position, channel): the sum over the
    positions divided by their number, whatever the position. -/
theorem colMean_apply (X : FVec Ideal S16x16384x128 .f32) (b : Fin 16) (n : Fin 16384) (c : Fin 128) :
    broadcastInDim S16x16384x128 ![0, 1, 2] bcast_S16x1x128_S16x16384x128_0_1_2
        (Host.divf (F := Ideal)
          (broadcastInDim S16x1x128 ![0, 2] bcast_S16x128_S16x1x128_0_2
            (Host.reduceAdd (F := Ideal) X (constant (F := Ideal) S_ .f32 0x00000000#32)
              reducesTo_S16x16384x128_S16x128_d1 h_S_))
          (broadcastInDim S16x1x128 ![] bcast_S_S16x1x128 (constant (F := Ideal) S_ .f32 0x46800000#32)))
        (ix3 b n c)
      = Ideal.div (∑ k : Fin 16384, X (ix3 b k c)) Cert.Spec.nE := by
  -- the unit axis of the [16, 1, 128] mean reads at 0
  refine (broadcastInDim_apply _ _ _ (ix3 b n c) (ix3 b (0 : Fin 1) c) ?_).trans ?_
  · intro a
    match a with
    | ⟨0, _⟩ => rfl
    | ⟨1, _⟩ => rfl
    | ⟨2, _⟩ => rfl
  rw [hostDivf_apply]
  -- the numerator: the [16, 128] sums read at (b, c)
  have e1 := broadcastInDim_apply (![0, 2] : Fin 2 → Fin 3) bcast_S16x128_S16x1x128_0_2
    (Host.reduceAdd (F := Ideal) X (constant (F := Ideal) S_ .f32 0x00000000#32)
      reducesTo_S16x16384x128_S16x128_d1 h_S_) (ix3 b (0 : Fin 1) c) (ix2 b c) (by
      intro a
      match a with
      | ⟨0, _⟩ => rfl
      | ⟨1, _⟩ => rfl)
  -- the denominator: the scalar 16384 read anywhere
  have e2 := broadcastInDim_scalar_apply bcast_S_S16x1x128 (constant (F := Ideal) S_ .f32 0x46800000#32)
    (ix3 b (0 : Fin 1) c)
  rw [e1, e2, colSum_apply, constant_apply, ofBits_16384]

/-! The batched product: batch axis 0 of both operands, contracted axis 1 of both, kept axis 2 of each. The operand
    indices at a result index and a contraction index, axis by axis. -/

theorem lhs_axis0 (j : S16x128x128.Idx) (k : dot_S16x16384x128_S16x16384x128_S16x128x128_1_1_2_2_0_0.contr.Idx) :
    (dot_S16x16384x128_S16x16384x128_S16x128x128_1_1_2_2_0_0.lhsIdx j k 0).val = (j 0).val := rfl
theorem lhs_axis1 (j : S16x128x128.Idx) (k : dot_S16x16384x128_S16x16384x128_S16x128x128_1_1_2_2_0_0.contr.Idx) :
    (dot_S16x16384x128_S16x16384x128_S16x128x128_1_1_2_2_0_0.lhsIdx j k 1).val = (k ⟨0, by decide⟩).val :=
  dot_S16x16384x128_S16x16384x128_S16x128x128_1_1_2_2_0_0.lhsIdx_val_of_single rfl j k
theorem lhs_axis2 (j : S16x128x128.Idx) (k : dot_S16x16384x128_S16x16384x128_S16x128x128_1_1_2_2_0_0.contr.Idx) :
    (dot_S16x16384x128_S16x16384x128_S16x128x128_1_1_2_2_0_0.lhsIdx j k 2).val = (j 1).val := rfl
theorem rhs_axis0 (j : S16x128x128.Idx) (k : dot_S16x16384x128_S16x16384x128_S16x128x128_1_1_2_2_0_0.contr.Idx) :
    (dot_S16x16384x128_S16x16384x128_S16x128x128_1_1_2_2_0_0.rhsIdx j k 0).val = (j 0).val := rfl
theorem rhs_axis1 (j : S16x128x128.Idx) (k : dot_S16x16384x128_S16x16384x128_S16x128x128_1_1_2_2_0_0.contr.Idx) :
    (dot_S16x16384x128_S16x16384x128_S16x128x128_1_1_2_2_0_0.rhsIdx j k 1).val = (k ⟨0, by decide⟩).val :=
  dot_S16x16384x128_S16x16384x128_S16x128x128_1_1_2_2_0_0.rhsIdx_val_of_single rfl j k
theorem rhs_axis2 (j : S16x128x128.Idx) (k : dot_S16x16384x128_S16x16384x128_S16x128x128_1_1_2_2_0_0.contr.Idx) :
    (dot_S16x16384x128_S16x16384x128_S16x128x128_1_1_2_2_0_0.rhsIdx j k 2).val = (j 2).val := rfl

/-- The batched product of two [16, 16384, 128] arrays over the position axis, read at (batch, c, d): the sum over the
    positions of the products of the two columns' entries. -/
theorem gram_apply (A B : FVec Ideal S16x16384x128 .f32) (b : Fin 16) (c d : Fin 128) :
    Host.dotGeneral (F := Ideal) dot_S16x16384x128_S16x16384x128_S16x128x128_1_1_2_2_0_0 none A B (ix3 b c d)
      = ∑ n : Fin 16384, A (ix3 b n c) * B (ix3 b n d) := by
  show FloatOps.dotGeneral _ none _ A B (ix3 b c d) = _
  rw [Ideal.dotGeneral_apply,
    ← Equiv.sum_comp (contrEquiv1 dot_S16x16384x128_S16x16384x128_S16x128x128_1_1_2_2_0_0 16384 rfl rfl).symm]
  refine Finset.sum_congr rfl fun n _ => ?_
  have hk := contrEquiv1_symm_val dot_S16x16384x128_S16x16384x128_S16x128x128_1_1_2_2_0_0 16384 rfl rfl n
  have l : dot_S16x16384x128_S16x16384x128_S16x128x128_1_1_2_2_0_0.lhsIdx (ix3 b c d)
      ((contrEquiv1 _ 16384 rfl rfl).symm n) = ix3 b n c := by
    funext ax; apply Fin.ext
    match ax with
    | ⟨0, _⟩ => exact lhs_axis0 _ _
    | ⟨1, _⟩ => exact (lhs_axis1 _ _).trans hk
    | ⟨2, _⟩ => exact lhs_axis2 _ _
  have r : dot_S16x16384x128_S16x16384x128_S16x128x128_1_1_2_2_0_0.rhsIdx (ix3 b c d)
      ((contrEquiv1 _ 16384 rfl rfl).symm n) = ix3 b n d := by
    funext ax; apply Fin.ext
    match ax with
    | ⟨0, _⟩ => exact rhs_axis0 _ _
    | ⟨1, _⟩ => exact (rhs_axis1 _ _).trans hk
    | ⟨2, _⟩ => exact rhs_axis2 _ _
  rw [l, r]

/-- The centred buffer read at (batch, position, channel): the row's entry minus the row's mean. -/
theorem res_v7_apply (V0 : Valuation τ sig (Elt Ideal)) (b : Fin 16) (n : Fin 16384) (c : Fin 128) :
    Cert.ReferenceIdeal.Value.res_main_v7 (F := Ideal) V0 (ix3 b n c)
      = Cert.Spec.row (V0 (Proc.devRef .tc main_arg0)) b c n
        - Ideal.div (∑ k : Fin 16384, Cert.Spec.row (V0 (Proc.devRef .tc main_arg0)) b c k) Cert.Spec.nE := by
  unfold Cert.ReferenceIdeal.Value.res_main_v7
  rw [subf_apply, colMean_apply]
  simp only [res_v1_apply]

/-- The reference's covariance buffer read at (batch, c, d): the mean over the positions of the products of the two
    centred rows. -/
theorem res_v10_apply (V0 : Valuation τ sig (Elt Ideal)) (b : Fin 16) (c d : Fin 128) :
    Cert.ReferenceIdeal.Value.res_main_v10 (F := Ideal) V0 (ix3 b c d)
      = Cert.Spec.covR (V0 (Proc.devRef .tc main_arg0)) b c d := by
  unfold Cert.ReferenceIdeal.Value.res_main_v10 Cert.Spec.covR
  rw [hostDivf_apply, gram_apply, broadcastInDim_scalar_apply, constant_apply, ofBits_16384]
  simp only [res_v7_apply]

end Cert.ReferenceIdeal.Hand

end
-- ==== Proof.Finite.lean ====
/-
  From the precondition to finiteness. The precondition compares `|x|` with `+∞` at every entry and takes the
  conjunction over all four axes; when that conjunction is true every entry satisfies `|x| < +∞`, and an
  extended real whose absolute value `max x (−x)` lies below `⊤` is neither `⊤` nor `⊥`: it is a real.
-/
import Mathlib.Data.EReal.Basic
import Mathlib.Data.EReal.Operations
import Idealize.ShloMosaic.PureOps.Ideal
import Idealize.ShloMosaic.Lib.ValueIdx
import Idealize.ShloMosaic.Lib.ReduceAll
import proofs.«150883_j91319594647822_1_alg».proof.Proof.Gen.Pre_finite_inputs

noncomputable section

namespace Cert.Finite

open Idealize.ShloMosaic Idealize.ShloMosaic.ValueIdx

/-- A rank-0 array has exactly one index. -/
instance : Subsingleton Cert.Pre_finite_inputs.S_.Idx := ⟨fun a b => funext fun d => d.elim0⟩

/-- The single-precision word `0x7F800000` (sign `0`, exponent field all ones, significand field `0`) denotes `+∞`. -/
theorem ofBits_inf : Ideal.ofBits .f32 0x7F800000#32 = (⊤ : EReal) := by
  simp [Ideal.ofBits, Ideal.ieee]

/-- A one-bit word built from a Boolean is `1` only when the Boolean is true. -/
theorem ofBool_eq_one {b : Bool} (h : BitVec.ofBool b = 1#1) : b = true := by
  cases b
  · exact absurd h (by decide)
  · rfl

/-- An extended real whose absolute value `max v (−v)` is below `⊤` is a real. -/
theorem real_of_abs_lt_top (v : EReal) (hv : max v (-v) < ⊤) : ∃ r : ℝ, v = (r : EReal) := by
  induction v using EReal.rec with
  | bot => simp at hv
  | coe r => exact ⟨r, rfl⟩
  | top => simp at hv

/-- Under the precondition every entry of the input is a real. -/
theorem finite_of_pre (x : FVec Ideal Cert.Pre_finite_inputs.S16x128x128x128 .f32)
    (h : Cert.Pre_finite_inputs.fn (F := Ideal) x = fun _ => 1#1) : ∀ i, ∃ r : ℝ, x i = (r : EReal) := by
  intro i
  -- the conjunction over all axes is true, so the comparison is true at the entry `i`
  have h0 := congrFun h ix0
  dsimp only [Cert.Pre_finite_inputs.fn] at h0
  have hi := Host.reduce_andi_all _ _ _ _ _ h0 i
  -- at the entry the comparison is `|x i| < +∞`
  have hc : BitVec.ofBool (decide (max (x i) (-(x i)) < Ideal.ofBits .f32 0x7F800000#32)) = 1#1 := hi
  have hlt : max (x i) (-(x i)) < Ideal.ofBits .f32 0x7F800000#32 := of_decide_eq_true (ofBool_eq_one hc)
  rw [ofBits_inf] at hlt
  exact real_of_abs_lt_top (x i) hlt

end Cert.Finite

end
-- ==== Proof.lean ====
/-
  The certificate of the covariance kernel against its reference.

  Input x : [16, 128, 128, 128]; per batch the 128 channels are rows of N = 16384 pixels. The kernel's pallas_call
  accumulates, over the two halves of each row, the second moments S = X·Xᵀ and the sums s = X·1, and the host lines
  form σ = S / N − (s / N) ⊗ (s / N). The reference centres the rows and forms σ' = (X − μ)(X − μ)ᵀ / N. For finite
  inputs the two are the same real numbers: ∑ (f − μ_f)(g − μ_g) = ∑ f·g − N·μ_f·μ_g. From σ on, both programs
  apply one and the same chain of host operations (scaling by the trace, six coupled Newton–Schulz steps, the
  closing scaling and mean), so equal covariances give equal results.

  Frames: the kernel's region is run by the pipeline's frame theorem for a body that carries scratch between grid
  points and is followed by host lines (the two accumulators are reset at the first half of a row and stored to
  the output blocks at the second, where alone those blocks are written back); the reference is a straight line of
  host operations. The idealization rewrote nothing, so `preserves` is trivial.
-/
import proofs.«150883_j91319594647822_1_alg».proof.Defs
import proofs.«150883_j91319594647822_1_alg».proof.Proof.Gen.Kernel
import proofs.«150883_j91319594647822_1_alg».proof.Proof.Gen.KernelIdeal
import proofs.«150883_j91319594647822_1_alg».proof.Proof.Gen.ReferenceIdeal
import proofs.«150883_j91319594647822_1_alg».proof.Proof.Gen.Pre_finite_inputs
import proofs.«150883_j91319594647822_1_alg».proof.Proof.K.Frame
import proofs.«150883_j91319594647822_1_alg».proof.Proof.KI.Frame
import proofs.«150883_j91319594647822_1_alg».proof.Proof.KValue
import proofs.«150883_j91319594647822_1_alg».proof.Proof.RefTail
import proofs.«150883_j91319594647822_1_alg».proof.Proof.RefCov
import proofs.«150883_j91319594647822_1_alg».proof.Proof.CovMath
import proofs.«150883_j91319594647822_1_alg».proof.Proof.Finite
import proofs.«150883_j91319594647822_1_alg».proof.Proof.SpecArr

noncomputable section

namespace Cert.Proof

open Idealize.ShloMosaic Idealize.ShloMosaic.TcCoe Idealize.SL.Sem Idealize.ShloMosaic.ValueIdx Idealize.ShloMosaic.StableHlo

/-! ## The reference's covariance is the kernel's, for finite inputs -/

/-- Entry by entry the reference's covariance buffer is the mean of products of centred rows; for finite rows that is
    mean of products minus product of means. -/
theorem ref_cov (V0 : Valuation Cert.ReferenceIdeal.τ Cert.ReferenceIdeal.sig (Elt Ideal))
    (hfin : ∀ i, ∃ r : ℝ, (V0 (Proc.devRef .tc Cert.ReferenceIdeal.main_arg0) : Cert.Spec.SX.Idx → EReal) i = (r : EReal)) :
    Cert.ReferenceIdeal.Value.res_main_v10 (F := Ideal) V0 = Cert.Spec.covArr (V0 (Proc.devRef .tc Cert.ReferenceIdeal.main_arg0)) := by
  funext i
  obtain ⟨b, c, d, rfl⟩ : ∃ (b : Fin 16) (c d : Fin 128), i = ix3 b c d := ⟨i 0, i 1, i 2, eq_ix3 i⟩
  rw [Cert.ReferenceIdeal.Hand.res_v10_apply, ← Cert.CovMath.covK_eq_covR _ hfin]
  rfl

/-! ## The claims -/

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Hand.Tail.run_tail (F := Ideal) m ρ)

theorem preserves : Cert.preserves_Kernel_KernelIdeal := trivial

/-- Both runs end at the tail of ONE covariance array: the kernel's by its run read back, the reference's because its
    centred form agrees with the kernel's on the finite input the two memories share. -/
theorem algebraic : Cert.algebraic_KernelIdeal_ReferenceIdeal := by
  intro m ρ m' ρ' hpre hagree
  have hfin : ∀ c : Dev Cert.KernelIdeal.nD, ∀ i, ∃ r : ℝ,
      (m ((c.tc : Thread Cert.KernelIdeal.nD Cert.KernelIdeal.τ).loc Cert.KernelIdeal.main_arg0) : Cert.Spec.SX.Idx → EReal) i = (r : EReal) :=
    fun c => Cert.Finite.finite_of_pre _ (hpre c)
  refine ⟨fun c => Cert.Tail.tail (F := Ideal) (Cert.Spec.covArr (m ((c.tc : Thread Cert.KernelIdeal.nD Cert.KernelIdeal.τ).loc Cert.KernelIdeal.main_arg0))),
    Cert.KernelIdeal.Hand.Value.run m ρ, ?_⟩
  refine (θ_run Cert.ReferenceIdeal.defs _ _).mono (fun _ h c => ⟨(h c).1.trans ?_, (h c).2⟩)
    (Cert.ReferenceIdeal.Hand.Tail.run_tail (F := Ideal) m' ρ')
  have hx : launchContents m' c (Proc.devRef .tc Cert.ReferenceIdeal.main_arg0)
      = m ((c.tc : Thread Cert.KernelIdeal.nD Cert.KernelIdeal.τ).loc Cert.KernelIdeal.main_arg0) := hagree c
  rw [ref_cov (launchContents m' c) (by rw [hx]; exact hfin c), hx]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
